-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S401x64 : Shape := ⟨2, ![401, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S512 : Shape := ⟨1, ![512]⟩
abbrev S1000000 : Shape := ⟨1, ![1000000]⟩
abbrev S2000000 : Shape := ⟨1, ![2000000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S401x64 : S_.BroadcastsInDim S401x64 (![] : Fin 0 → Fin S401x64.rank)
  reducesTo_S401x64_S_d0_1 : S401x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S512 : S_.BroadcastsInDim S512 (![] : Fin 0 → Fin S512.rank)
  reducesTo_S512_S_d0 : S512.ReducesTo [0] S_
  bcast_S_S1000000 : S_.BroadcastsInDim S1000000 (![] : Fin 0 → Fin S1000000.rank)
  reducesTo_S1000000_S_d0 : S1000000.ReducesTo [0] S_
  bcast_S_S2000000 : S_.BroadcastsInDim S2000000 (![] : Fin 0 → Fin S2000000.rank)
  reducesTo_S2000000_S_d0 : S2000000.ReducesTo [0] S_
  bcast_S_S100000 : S_.BroadcastsInDim S100000 (![] : Fin 0 → Fin S100000.rank)
  reducesTo_S100000_S_d0 : S100000.ReducesTo [0] S_

variable [Facts]

def fn_part6 {F : FTy → Type} [FloatOps F] (main_arg18 : IVec S100000 32) (main_v98 : IVec S_ 1) (main_c_42 : IVec S_ 32) : IVec S_ 1 :=
  let main_v99 : IVec S100000 32 := broadcastInDim S100000 ![] bcast_S_S100000 main_c_42
  let main_v100 : IVec S100000 1 := cmpi .sge main_arg18 main_v99
  let main_c_43 : IVec S_ 1 := constantI S_ 1 1#1
  let main_v101 : IVec S_ 1 := (fun x v => Host.reduce IntOp.andi x v reducesTo_S100000_S_d0 h_S_) main_v100 main_c_43
  let main_v102 : IVec S_ 1 := andi main_v98 main_v101
  let main_c_44 : IVec S_ 32 := constantI S_ 32 512#32
  let main_v103 : IVec S100000 32 := broadcastInDim S100000 ![] bcast_S_S100000 main_c_44
  let main_v104 : IVec S100000 1 := cmpi .slt main_arg18 main_v103
  let main_c_45 : IVec S_ 1 := constantI S_ 1 1#1
  let main_v105 : IVec S_ 1 := (fun x v => Host.reduce IntOp.andi x v reducesTo_S100000_S_d0 h_S_) main_v104 main_c_45
  let main_v106 : IVec S_ 1 := andi main_v102 main_v105
  main_v106

def fn_part5 {F : FTy → Type} [FloatOps F] (main_arg15 : IVec S1000000 32) (main_arg16 : IVec S2000000 32) (main_arg18 : IVec S100000 32) (main_v82 : IVec S_ 1) (main_c_34 : IVec S_ 32) : IVec S_ 1 :=
  let main_v83 : IVec S1000000 32 := broadcastInDim S1000000 ![] bcast_S_S1000000 main_c_34
  let main_v84 : IVec S1000000 1 := cmpi .sge main_arg15 main_v83
  let main_c_35 : IVec S_ 1 := constantI S_ 1 1#1
  let main_v85 : IVec S_ 1 := (fun x v => Host.reduce IntOp.andi x v reducesTo_S1000000_S_d0 h_S_) main_v84 main_c_35
  let main_v86 : IVec S_ 1 := andi main_v82 main_v85
  let main_c_36 : IVec S_ 32 := constantI S_ 32 100000#32
  let main_v87 : IVec S1000000 32 := broadcastInDim S1000000 ![] bcast_S_S1000000 main_c_36
  let main_v88 : IVec S1000000 1 := cmpi .slt main_arg15 main_v87
  let main_c_37 : IVec S_ 1 := constantI S_ 1 1#1
  let main_v89 : IVec S_ 1 := (fun x v => Host.reduce IntOp.andi x v reducesTo_S1000000_S_d0 h_S_) main_v88 main_c_37
  let main_v90 : IVec S_ 1 := andi main_v86 main_v89
  let main_c_38 : IVec S_ 32 := constantI S_ 32 0#32
  let main_v91 : IVec S2000000 32 := broadcastInDim S2000000 ![] bcast_S_S2000000 main_c_38
  let main_v92 : IVec S2000000 1 := cmpi .sge main_arg16 main_v91
  let main_c_39 : IVec S_ 1 := constantI S_ 1 1#1
  let main_v93 : IVec S_ 1 := (fun x v => Host.reduce IntOp.andi x v reducesTo_S2000000_S_d0 h_S_) main_v92 main_c_39
  let main_v94 : IVec S_ 1 := andi main_v90 main_v93
  let main_c_40 : IVec S_ 32 := constantI S_ 32 1000000#32
  let main_v95 : IVec S2000000 32 := broadcastInDim S2000000 ![] bcast_S_S2000000 main_c_40
  let main_v96 : IVec S2000000 1 := cmpi .slt main_arg16 main_v95
  let main_c_41 : IVec S_ 1 := constantI S_ 1 1#1
  let main_v97 : IVec S_ 1 := (fun x v => Host.reduce IntOp.andi x v reducesTo_S2000000_S_d0 h_S_) main_v96 main_c_41
  let main_v98 : IVec S_ 1 := andi main_v94 main_v97
  let main_c_42 : IVec S_ 32 := constantI S_ 32 0#32
  fn_part6 (F := F) main_arg18 main_v98 main_c_42

def fn_part4 {F : FTy → Type} [FloatOps F] (main_arg13 : IVec S1000000 32) (main_arg14 : IVec S1000000 32) (main_arg15 : IVec S1000000 32) (main_arg16 : IVec S2000000 32) (main_arg18 : IVec S100000 32) (main_v66 : IVec S_ 1) (main_c_26 : IVec S_ 32) : IVec S_ 1 :=
  let main_v67 : IVec S1000000 32 := broadcastInDim S1000000 ![] bcast_S_S1000000 main_c_26
  let main_v68 : IVec S1000000 1 := cmpi .sge main_arg13 main_v67
  let main_c_27 : IVec S_ 1 := constantI S_ 1 1#1
  let main_v69 : IVec S_ 1 := (fun x v => Host.reduce IntOp.andi x v reducesTo_S1000000_S_d0 h_S_) main_v68 main_c_27
  let main_v70 : IVec S_ 1 := andi main_v66 main_v69
  let main_c_28 : IVec S_ 32 := constantI S_ 32 512#32
  let main_v71 : IVec S1000000 32 := broadcastInDim S1000000 ![] bcast_S_S1000000 main_c_28
  let main_v72 : IVec S1000000 1 := cmpi .slt main_arg13 main_v71
  let main_c_29 : IVec S_ 1 := constantI S_ 1 1#1
  let main_v73 : IVec S_ 1 := (fun x v => Host.reduce IntOp.andi x v reducesTo_S1000000_S_d0 h_S_) main_v72 main_c_29
  let main_v74 : IVec S_ 1 := andi main_v70 main_v73
  let main_c_30 : IVec S_ 32 := constantI S_ 32 0#32
  let main_v75 : IVec S1000000 32 := broadcastInDim S1000000 ![] bcast_S_S1000000 main_c_30
  let main_v76 : IVec S1000000 1 := cmpi .sge main_arg14 main_v75
  let main_c_31 : IVec S_ 1 := constantI S_ 1 1#1
  let main_v77 : IVec S_ 1 := (fun x v => Host.reduce IntOp.andi x v reducesTo_S1000000_S_d0 h_S_) main_v76 main_c_31
  let main_v78 : IVec S_ 1 := andi main_v74 main_v77
  let main_c_32 : IVec S_ 32 := constantI S_ 32 401#32
  let main_v79 : IVec S1000000 32 := broadcastInDim S1000000 ![] bcast_S_S1000000 main_c_32
  let main_v80 : IVec S1000000 1 := cmpi .slt main_arg14 main_v79
  let main_c_33 : IVec S_ 1 := constantI S_ 1 1#1
  let main_v81 : IVec S_ 1 := (fun x v => Host.reduce IntOp.andi x v reducesTo_S1000000_S_d0 h_S_) main_v80 main_c_33
  let main_v82 : IVec S_ 1 := andi main_v78 main_v81
  let main_c_34 : IVec S_ 32 := constantI S_ 32 0#32
  fn_part5 (F := F) main_arg15 main_arg16 main_arg18 main_v82 main_c_34

def fn_part3 {F : FTy → Type} [FloatOps F] (main_arg11 : FVec F S1 .f32) (main_arg12 : IVec S512 32) (main_arg13 : IVec S1000000 32) (main_arg14 : IVec S1000000 32) (main_arg15 : IVec S1000000 32) (main_arg16 : IVec S2000000 32) (main_arg18 : IVec S100000 32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S512 32 := broadcastInDim S512 ![] bcast_S_S512 main_c_22
  let main_v60 : IVec S512 1 := cmpi .sge main_arg12 main_v59
  let main_c_23 : IVec S_ 1 := constantI S_ 1 1#1
  let main_v61 : IVec S_ 1 := (fun x v => Host.reduce IntOp.andi x v reducesTo_S512_S_d0 h_S_) main_v60 main_c_23
  let main_v62 : IVec S_ 1 := andi main_v58 main_v61
  let main_c_24 : IVec S_ 32 := constantI S_ 32 401#32
  let main_v63 : IVec S512 32 := broadcastInDim S512 ![] bcast_S_S512 main_c_24
  let main_v64 : IVec S512 1 := cmpi .slt main_arg12 main_v63
  let main_c_25 : IVec S_ 1 := constantI S_ 1 1#1
  let main_v65 : IVec S_ 1 := (fun x v => Host.reduce IntOp.andi x v reducesTo_S512_S_d0 h_S_) main_v64 main_c_25
  let main_v66 : IVec S_ 1 := andi main_v62 main_v65
  let main_c_26 : IVec S_ 32 := constantI S_ 32 0#32
  fn_part4 (F := F) main_arg13 main_arg14 main_arg15 main_arg16 main_arg18 main_v66 main_c_26

def fn_part2 {F : FTy → Type} [FloatOps F] (main_arg7 : FVec F S64x32 .f32) (main_arg8 : FVec F S64x32 .f32) (main_arg9 : FVec F S32 .f32) (main_arg10 : FVec F S32x1 .f32) (main_arg11 : FVec F S1 .f32) (main_arg12 : IVec S512 32) (main_arg13 : IVec S1000000 32) (main_arg14 : IVec S1000000 32) (main_arg15 : IVec S1000000 32) (main_arg16 : IVec S2000000 32) (main_arg18 : IVec S100000 32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_arg11 main_arg12 main_arg13 main_arg14 main_arg15 main_arg16 main_arg18 main_v48 main_v49 main_v50

def fn_part1 {F : FTy → Type} [FloatOps F] (main_arg4 : FVec F S128x64 .f32) (main_arg5 : FVec F S64 .f32) (main_arg6 : FVec F S64x64 .f32) (main_arg7 : FVec F S64x32 .f32) (main_arg8 : FVec F S64x32 .f32) (main_arg9 : FVec F S32 .f32) (main_arg10 : FVec F S32x1 .f32) (main_arg11 : FVec F S1 .f32) (main_arg12 : IVec S512 32) (main_arg13 : IVec S1000000 32) (main_arg14 : IVec S1000000 32) (main_arg15 : IVec S1000000 32) (main_arg16 : IVec S2000000 32) (main_arg18 : IVec S100000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg18 main_v33

def fn {F : FTy → Type} [FloatOps F] (main_arg0 : FVec F S100000x64 .f32) (main_arg1 : FVec F S401x64 .f32) (main_arg2 : FVec F S192x128 .f32) (main_arg3 : FVec F S128 .f32) (main_arg4 : FVec F S128x64 .f32) (main_arg5 : FVec F S64 .f32) (main_arg6 : FVec F S64x64 .f32) (main_arg7 : FVec F S64x32 .f32) (main_arg8 : FVec F S64x32 .f32) (main_arg9 : FVec F S32 .f32) (main_arg10 : FVec F S32x1 .f32) (main_arg11 : FVec F S1 .f32) (main_arg12 : IVec S512 32) (main_arg13 : IVec S1000000 32) (main_arg14 : IVec S1000000 32) (main_arg15 : IVec S1000000 32) (main_arg16 : IVec S2000000 32) (main_arg17 : IVec S2000000 32) (main_arg18 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S401x64 .f32 := Host.absf main_arg1
  let main_cst_0 : FVec F S_ .f32 := constant S_ .f32 0x7F800000#32
  let main_v5 : FVec F S401x64 .f32 := broadcastInDim S401x64 ![] bcast_S_S401x64 main_cst_0
  let main_v6 : IVec S401x64 1 := cmpf .olt main_v4 main_v5
  let main_c_1 : IVec S_ 1 := constantI S_ 1 1#1
  let main_v7 : IVec S_ 1 := (fun x v => Host.reduce IntOp.andi x v reducesTo_S401x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg18 main_v13 main_v16
-- ==== Kernel.lean ====
abbrev S100000x64 : Shape := ⟨2, ![100000, 64]⟩
abbrev S401x64 : Shape := ⟨2, ![401, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S512 : Shape := ⟨1, ![512]⟩
abbrev S1000000 : Shape := ⟨1, ![1000000]⟩
abbrev S2000000 : Shape := ⟨1, ![2000000]⟩
abbrev S100000 : Shape := ⟨1, ![100000]⟩
abbrev S_ : Shape := ⟨0, ![]⟩
abbrev S1000000x1 : Shape := ⟨2, ![1000000, 1]⟩
abbrev S1x1 : Shape := ⟨2, ![1, 1]⟩
abbrev S1000000x64 : Shape := ⟨2, ![1000000, 64]⟩
abbrev S512x1 : Shape := ⟨2, ![512, 1]⟩
abbrev S512x64 : Shape := ⟨2, ![512, 64]⟩
abbrev S100000x1 : Shape := ⟨2, ![100000, 1]⟩
abbrev S1x128 : Shape := ⟨2, ![1, 128]⟩
abbrev S1x64 : Shape := ⟨2, ![1, 64]⟩
abbrev S1x32 : Shape := ⟨2, ![1, 32]⟩
abbrev S4000x64 : Shape := ⟨2, ![4000, 64]⟩
abbrev S4000x1 : Shape := ⟨2, ![4000, 1]⟩
abbrev S4000x192 : Shape := ⟨2, ![4000, 192]⟩
abbrev S4000x128 : Shape := ⟨2, ![4000, 128]⟩
abbrev S4000x32 : Shape := ⟨2, ![4000, 32]⟩
abbrev S2000000x1 : Shape := ⟨2, ![2000000, 1]⟩
abbrev S2000000x64 : Shape := ⟨2, ![2000000, 64]⟩
abbrev S10000x64 : Shape := ⟨2, ![10000, 64]⟩
abbrev S10000x1 : Shape := ⟨2, ![10000, 1]⟩

abbrev nBuf : Space → Nat
  | .hbm => 195
  | .vmem => 26
  | .smem => 0
  | _ => 0

abbrev hbmTy0_0 (i : Nat) : BufTy := match i % 128 with
  | 0 => ⟨S100000x64, .f32⟩
  | 1 => ⟨S401x64, .f32⟩
  | 2 => ⟨S192x128, .f32⟩
  | 3 => ⟨S128, .f32⟩
  | 4 => ⟨S128x64, .f32⟩
  | 5 => ⟨S64, .f32⟩
  | 6 => ⟨S64x64, .f32⟩
  | 7 => ⟨S64x32, .f32⟩
  | 8 => ⟨S64x32, .f32⟩
  | 9 => ⟨S32, .f32⟩
  | 10 => ⟨S32x1, .f32⟩
  | 11 => ⟨S1, .f32⟩
  | 12 => ⟨S512, .i32⟩
  | 13 => ⟨S1000000, .i32⟩
  | 14 => ⟨S1000000, .i32⟩
  | 15 => ⟨S1000000, .i32⟩
  | 16 => ⟨S2000000, .i32⟩
  | 17 => ⟨S2000000, .i32⟩
  | 18 => ⟨S100000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1, .i32⟩
  | 28 => ⟨S_, .i32⟩
  | 29 => ⟨S1000000x1, .i32⟩
  | 30 => ⟨S1000000x1, .i1⟩
  | 31 => ⟨S1x1, .i32⟩
  | 32 => ⟨S1000000x1, .i32⟩
  | 33 => ⟨S1000000x1, .i1⟩
  | 34 => ⟨S1000000x1, .i1⟩
  | 35 => ⟨S_, .i1⟩
  | 36 => ⟨S1000000, .i1⟩
  | 37 => ⟨S1000000x64, .f32⟩
  | 38 => ⟨S1000000x64, .i1⟩
  | 39 => ⟨S_, .f32⟩
  | 40 => ⟨S1000000x64, .f32⟩
  | 41 => ⟨S1000000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1, .i32⟩
  | 51 => ⟨S_, .i32⟩
  | 52 => ⟨S1000000x1, .i32⟩
  | 53 => ⟨S1000000x1, .i1⟩
  | 54 => ⟨S1x1, .i32⟩
  | 55 => ⟨S1000000x1, .i32⟩
  | 56 => ⟨S1000000x1, .i1⟩
  | 57 => ⟨S1000000x1, .i1⟩
  | 58 => ⟨S_, .i1⟩
  | 59 => ⟨S1000000, .i1⟩
  | 60 => ⟨S1000000x64, .f32⟩
  | 61 => ⟨S1000000x64, .i1⟩
  | 62 => ⟨S_, .f32⟩
  | 63 => ⟨S1000000x64, .f32⟩
  | 64 => ⟨S1000000x64, .f32⟩
  | 65 => ⟨S_, .i32⟩
  | 66 => ⟨S512, .i32⟩
  | 67 => ⟨S512, .i1⟩
  | 68 => ⟨S_, .i32⟩
  | 69 => ⟨S512, .i32⟩
  | 70 => ⟨S512, .i32⟩
  | 71 => ⟨S512, .i32⟩
  | 72 => ⟨S512x1, .i32⟩
  | 73 => ⟨S1, .i32⟩
  | 74 => ⟨S_, .i32⟩
  | 75 => ⟨S512x1, .i32⟩
  | 76 => ⟨S512x1, .i1⟩
  | 77 => ⟨S1x1, .i32⟩
  | 78 => ⟨S512x1, .i32⟩
  | 79 => ⟨S512x1, .i1⟩
  | 80 => ⟨S512x1, .i1⟩
  | 81 => ⟨S_, .i1⟩
  | 82 => ⟨S512, .i1⟩
  | 83 => ⟨S512x64, .f32⟩
  | 84 => ⟨S512x64, .i1⟩
  | 85 => ⟨S_, .f32⟩
  | 86 => ⟨S512x64, .f32⟩
  | 87 => ⟨S512x64, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1, .i32⟩
  | 97 => ⟨S_, .i32⟩
  | 98 => ⟨S1000000x1, .i32⟩
  | 99 => ⟨S1000000x1, .i1⟩
  | 100 => ⟨S1x1, .i32⟩
  | 101 => ⟨S1000000x1, .i32⟩
  | 102 => ⟨S1000000x1, .i1⟩
  | 103 => ⟨S1000000x1, .i1⟩
  | 104 => ⟨S_, .i1⟩
  | 105 => ⟨S1000000, .i1⟩
  | 106 => ⟨S1000000x64, .f32⟩
  | 107 => ⟨S1000000x64, .i1⟩
  | 108 => ⟨S_, .f32⟩
  | 109 => ⟨S1000000x64, .f32⟩
  | 110 => ⟨S1000000x64, .f32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S1, .i32⟩
  | 120 => ⟨S_, .i32⟩
  | 121 => ⟨S100000x1, .i32⟩
  | 122 => ⟨S100000x1, .i1⟩
  | 123 => ⟨S1x1, .i32⟩
  | 124 => ⟨S100000x1, .i32⟩
  | 125 => ⟨S100000x1, .i1⟩
  | 126 => ⟨S100000x1, .i1⟩
  | 127 => ⟨S_, .i1⟩
  | _ => ⟨S100000x64, .f32⟩

abbrev hbmTy0_1 (i : Nat) : BufTy := match i % 128 with
  | 0 => ⟨S100000, .i1⟩
  | 1 => ⟨S100000x64, .f32⟩
  | 2 => ⟨S100000x64, .i1⟩
  | 3 => ⟨S_, .f32⟩
  | 4 => ⟨S100000x64, .f32⟩
  | 5 => ⟨S100000x64, .f32⟩
  | 6 => ⟨S1x128, .f32⟩
  | 7 => ⟨S1x64, .f32⟩
  | 8 => ⟨S1x32, .f32⟩
  | 9 => ⟨S1x1, .f32⟩
  | 10 => ⟨S1000000x64, .f32⟩
  | 11 => ⟨S1000000x1, .f32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S1, .i32⟩
  | 21 => ⟨S_, .i32⟩
  | 22 => ⟨S2000000x1, .i32⟩
  | 23 => ⟨S2000000x1, .i1⟩
  | 24 => ⟨S1x1, .i32⟩
  | 25 => ⟨S2000000x1, .i32⟩
  | 26 => ⟨S2000000x1, .i1⟩
  | 27 => ⟨S2000000x1, .i1⟩
  | 28 => ⟨S_, .i1⟩
  | 29 => ⟨S2000000, .i1⟩
  | 30 => ⟨S2000000x64, .f32⟩
  | 31 => ⟨S2000000x64, .i1⟩
  | 32 => ⟨S_, .f32⟩
  | 33 => ⟨S2000000x64, .f32⟩
  | 34 => ⟨S2000000x64, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S1, .i32⟩
  | 44 => ⟨S_, .i32⟩
  | 45 => ⟨S2000000x1, .i32⟩
  | 46 => ⟨S2000000x1, .i1⟩
  | 47 => ⟨S1x1, .i32⟩
  | 48 => ⟨S2000000x1, .i32⟩
  | 49 => ⟨S2000000x1, .i1⟩
  | 50 => ⟨S2000000x1, .i1⟩
  | 51 => ⟨S_, .i1⟩
  | 52 => ⟨S2000000, .i1⟩
  | 53 => ⟨S2000000x1, .f32⟩
  | 54 => ⟨S2000000x1, .i1⟩
  | 55 => ⟨S_, .f32⟩
  | 56 => ⟨S2000000x1, .f32⟩
  | 57 => ⟨S2000000x1, .f32⟩
  | 58 => ⟨S_, .f32⟩
  | 59 => ⟨S100000x1, .f32⟩
  | 60 => ⟨S2000000x1, .i32⟩
  | 61 => ⟨S100000x1, .f32⟩
  | 62 => ⟨S_, .f32⟩
  | 63 => ⟨S100000x64, .f32⟩
  | 64 => ⟨S2000000x1, .i32⟩
  | 65 => ⟨S100000x64, .f32⟩
  | 66 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S192x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x32, .f32⟩
  | .local _ .vmem, ⟨11, _⟩ => ⟨S64x32, .f32⟩
  | .local _ .vmem, ⟨12, _⟩ => ⟨S1x32, .f32⟩
  | .local _ .vmem, ⟨13, _⟩ => ⟨S32x1, .f32⟩
  | .local _ .vmem, ⟨14, _⟩ => ⟨S1x1, .f32⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S10000x64, .f32⟩
  | .local _ .vmem, ⟨20, _⟩ => ⟨S10000x64, .f32⟩
  | .local _ .vmem, ⟨21, _⟩ => ⟨S10000x1, .f32⟩
  | .local _ .vmem, ⟨22, _⟩ => ⟨S10000x1, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v0 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v1 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v2 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v3 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_call4_cst : Ref sig .tc := ⟨.hbm, 131, rfl⟩
abbrev main_call4_v15 : Ref sig .tc := ⟨.hbm, 132, rfl⟩
abbrev main_v4 : Ref sig .tc := ⟨.hbm, 133, rfl⟩
abbrev main_v5 : Ref sig .tc := ⟨.hbm, 134, rfl⟩
abbrev main_v6 : Ref sig .tc := ⟨.hbm, 135, rfl⟩
abbrev main_v7 : Ref sig .tc := ⟨.hbm, 136, rfl⟩
abbrev main_v8 : Ref sig .tc := ⟨.hbm, 137, rfl⟩
abbrev main_v9_0 : Ref sig .tc := ⟨.hbm, 138, rfl⟩
abbrev main_v9_1 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_call5_cst : Ref sig .tc := ⟨.hbm, 160, rfl⟩
abbrev main_call5_v15 : Ref sig .tc := ⟨.hbm, 161, rfl⟩
abbrev main_v10 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_call6_cst : Ref sig .tc := ⟨.hbm, 183, rfl⟩
abbrev main_call6_v15 : Ref sig .tc := ⟨.hbm, 184, rfl⟩
abbrev main_v11 : Ref sig .tc := ⟨.hbm, 185, rfl⟩
abbrev main_cst : Ref sig .tc := ⟨.hbm, 186, rfl⟩
abbrev main_v12 : Ref sig .tc := ⟨.hbm, 187, rfl⟩
abbrev main_v13 : Ref sig .tc := ⟨.hbm, 188, rfl⟩
abbrev main_v14 : Ref sig .tc := ⟨.hbm, 189, rfl⟩
abbrev main_cst_0 : Ref sig .tc := ⟨.hbm, 190, rfl⟩
abbrev main_v15 : Ref sig .tc := ⟨.hbm, 191, rfl⟩
abbrev main_v16 : Ref sig .tc := ⟨.hbm, 192, rfl⟩
abbrev main_v17 : Ref sig .tc := ⟨.hbm, 193, rfl⟩
abbrev main_v18 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x64_0 : S512.BroadcastsInDim S512x64 (![0] : Fin 1 → Fin S512x64.rank)
  bcast_S_S512x64 : S_.BroadcastsInDim S512x64 (![] : Fin 0 → Fin S512x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x64_0 : S100000.BroadcastsInDim S100000x64 (![0] : Fin 1 → Fin S100000x64.rank)
  bcast_S_S100000x64 : S_.BroadcastsInDim S100000x64 (![] : Fin 0 → Fin S100000x64.rank)
  shapeCasts_S128_S1x128 : S128.ShapeCasts S1x128
  shapeCasts_S64_S1x64 : S64.ShapeCasts S1x64
  shapeCasts_S32_S1x32 : S32.ShapeCasts S1x32
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  concatenates_S4000x64_S4000x64_S4000x64_S4000x192_d1 : Shape.Concatenates [S4000x64, S4000x64, S4000x64] S4000x192 1
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4000x128_o0_0_S4000x64 : S4000x128.Slices ![0, 0] S4000x64
  slices_S4000x128_o0_64_S4000x64 : S4000x128.Slices ![0, 64] S4000x64
  concatenates_S4000x64_S4000x64_S4000x128_d1 : Shape.Concatenates [S4000x64, S4000x64] S4000x128 1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x64 : S4000x1.Broadcasts S4000x64
  inb_S4000x1_S4000x1_0_0 : ∀ a, (![0, 0] : Fin 2 → Nat) a + S4000x1.size a ≤ S4000x1.size a
  h_S4000x1 : 0 < S4000x1.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1x1_S2000000x1_0_1 : S1x1.BroadcastsInDim S2000000x1 (![0, 1] : Fin 2 → Fin S2000000x1.rank)
  reducesTo_S2000000x1_S2000000_d1 : S2000000x1.ReducesTo [1] S2000000
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  gather_S100000x64_S1000000x1_S1000000x64_1_0_n_n_0_1_164_wf : GatherDims.WF S100000x64 S1000000x1 S1000000x64 [1] [0] [] [0] [] 1 ![1, 64]
  gather_S401x64_S1000000x1_S1000000x64_1_0_n_n_0_1_164_wf : GatherDims.WF S401x64 S1000000x1 S1000000x64 [1] [0] [] [0] [] 1 ![1, 64]
  gather_S401x64_S512x1_S512x64_1_0_n_n_0_1_164_wf : GatherDims.WF S401x64 S512x1 S512x64 [1] [0] [] [0] [] 1 ![1, 64]
  gather_S512x64_S1000000x1_S1000000x64_1_0_n_n_0_1_164_wf : GatherDims.WF S512x64 S1000000x1 S1000000x64 [1] [0] [] [0] [] 1 ![1, 64]
  gather_S512x64_S100000x1_S100000x64_1_0_n_n_0_1_164_wf : GatherDims.WF S512x64 S100000x1 S100000x64 [1] [0] [] [0] [] 1 ![1, 64]
  dot_S4000x192_S192x128_S4000x128_1_0_0_1_n_n_wf : DotDims.WF S4000x192 S192x128 S4000x128 [1] [0] [0] [1] [] []
  dot_S4000x128_S128x64_S4000x64_1_0_0_1_n_n_wf : DotDims.WF S4000x128 S128x64 S4000x64 [1] [0] [0] [1] [] []
  dot_S4000x64_S64x32_S4000x32_1_0_0_1_n_n_wf : DotDims.WF S4000x64 S64x32 S4000x32 [1] [0] [0] [1] [] []
  dot_S4000x32_S32x1_S4000x1_1_0_0_1_n_n_wf : DotDims.WF S4000x32 S32x1 S4000x1 [1] [0] [0] [1] [] []
  gather_S1000000x64_S2000000x1_S2000000x64_1_0_n_n_0_1_164_wf : GatherDims.WF S1000000x64 S2000000x1 S2000000x64 [1] [0] [] [0] [] 1 ![1, 64]
  gather_S1000000x1_S2000000x1_S2000000x1_1_0_n_n_0_1_11_wf : GatherDims.WF S1000000x1 S2000000x1 S2000000x1 [1] [0] [] [0] [] 1 ![1, 1]
  scatter_S100000x1_S2000000x1_S2000000x1_1_0_0_1_wf : ScatterDims.WF S100000x1 S2000000x1 S2000000x1 [1] [0] [0] 1
  scatter_S100000x64_S2000000x1_S2000000x64_1_0_0_1_wf : ScatterDims.WF S100000x64 S2000000x1 S2000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S1000000x64.size a
  hwx0_2 : ∀ i : grid0.Coords, EltTy.bits .f32 = 32 ∨ (Rect.block (s := S1000000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .f32 = 32 ∨ (Rect.block (s := S192x128) S192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .f32 = 32 ∨ (Rect.block (s := S64x32) S64x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S32x1.size a
  hwx0_10 : ∀ i : grid0.Coords, EltTy.bits .f32 = 32 ∨ (Rect.block (s := S32x1) S32x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x64.size a ≤ S1000000x64.size a
  hwx0_12 : ∀ i : grid0.Coords, EltTy.bits .f32 = 32 ∨ (Rect.block (s := S1000000x64) S4000x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x1.size a ≤ S1000000x1.size a
  hwx0_13 : ∀ i : grid0.Coords, EltTy.bits .f32 = 32 ∨ (Rect.block (s := S1000000x1) S4000x1.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S401x64_S1000000x1_S1000000x64_1_0_n_n_0_1_164 : GatherDims S401x64 S1000000x1 S1000000x64 where
  offsetDims := [1]
  collapsedSliceDims := [0]
  operandBatchingDims := []
  startIndicesBatchingDims := []
  startIndexMap := [0]
  indexVectorDim := 1
  sliceSizes := ![1, 64]
  wf := gather_S401x64_S1000000x1_S1000000x64_1_0_n_n_0_1_164_wf
def gather_S401x64_S512x1_S512x64_1_0_n_n_0_1_164 : GatherDims S401x64 S512x1 S512x64 where
  offsetDims := [1]
  collapsedSliceDims := [0]
  operandBatchingDims := []
  startIndicesBatchingDims := []
  startIndexMap := [0]
  indexVectorDim := 1
  sliceSizes := ![1, 64]
  wf := gather_S401x64_S512x1_S512x64_1_0_n_n_0_1_164_wf
def gather_S512x64_S1000000x1_S1000000x64_1_0_n_n_0_1_164 : GatherDims S512x64 S1000000x1 S1000000x64 where
  offsetDims := [1]
  collapsedSliceDims := [0]
  operandBatchingDims := []
  startIndicesBatchingDims := []
  startIndexMap := [0]
  indexVectorDim := 1
  sliceSizes := ![1, 64]
  wf := gather_S512x64_S1000000x1_S1000000x64_1_0_n_n_0_1_164_wf
def gather_S512x64_S100000x1_S100000x64_1_0_n_n_0_1_164 : GatherDims S512x64 S100000x1 S100000x64 where
  offsetDims := [1]
  collapsedSliceDims := [0]
  operandBatchingDims := []
  startIndicesBatchingDims := []
  startIndexMap := [0]
  indexVectorDim := 1
  sliceSizes := ![1, 64]
  wf := gather_S512x64_S100000x1_S100000x64_1_0_n_n_0_1_164_wf
def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf
def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def gather_S1000000x1_S2000000x1_S2000000x1_1_0_n_n_0_1_11 : GatherDims S1000000x1 S2000000x1 S2000000x1 where
  offsetDims := [1]
  collapsedSliceDims := [0]
  operandBatchingDims := []
  startIndicesBatchingDims := []
  startIndexMap := [0]
  indexVectorDim := 1
  sliceSizes := ![1, 1]
  wf := gather_S1000000x1_S2000000x1_S2000000x1_1_0_n_n_0_1_11_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9_0) S4000x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9_1) S4000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S401x64 : Shape := ⟨2, ![401, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S512 : Shape := ⟨1, ![512]⟩
abbrev S1000000 : Shape := ⟨1, ![1000000]⟩
abbrev S2000000 : Shape := ⟨1, ![2000000]⟩
abbrev S100000 : Shape := ⟨1, ![100000]⟩
abbrev S_ : Shape := ⟨0, ![]⟩
abbrev S1000000x1 : Shape := ⟨2, ![1000000, 1]⟩
abbrev S1000000x64 : Shape := ⟨2, ![1000000, 64]⟩
abbrev S512x1 : Shape := ⟨2, ![512, 1]⟩
abbrev S512x64 : Shape := ⟨2, ![512, 64]⟩
abbrev S100000x1 : Shape := ⟨2, ![100000, 1]⟩
abbrev S1000000x192 : Shape := ⟨2, ![1000000, 192]⟩
abbrev S1000000x128 : Shape := ⟨2, ![1000000, 128]⟩
abbrev S1x128 : Shape := ⟨2, ![1, 128]⟩
abbrev S1x64 : Shape := ⟨2, ![1, 64]⟩
abbrev S1000000x32 : Shape := ⟨2, ![1000000, 32]⟩
abbrev S1x32 : Shape := ⟨2, ![1, 32]⟩
abbrev S1x1 : Shape := ⟨2, ![1, 1]⟩
abbrev S2000000x1 : Shape := ⟨2, ![2000000, 1]⟩
abbrev S2000000x64 : Shape := ⟨2, ![2000000, 64]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S401x64, .f32⟩
  | 2 => ⟨S192x128, .f32⟩
  | 3 => ⟨S128, .f32⟩
  | 4 => ⟨S128x64, .f32⟩
  | 5 => ⟨S64, .f32⟩
  | 6 => ⟨S64x64, .f32⟩
  | 7 => ⟨S64x32, .f32⟩
  | 8 => ⟨S64x32, .f32⟩
  | 9 => ⟨S32, .f32⟩
  | 10 => ⟨S32x1, .f32⟩
  | 11 => ⟨S1, .f32⟩
  | 12 => ⟨S512, .i32⟩
  | 13 => ⟨S1000000, .i32⟩
  | 14 => ⟨S1000000, .i32⟩
  | 15 => ⟨S1000000, .i32⟩
  | 16 => ⟨S2000000, .i32⟩
  | 17 => ⟨S2000000, .i32⟩
  | 18 => ⟨S100000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x64, .f32⟩
  | 37 => ⟨S_, .i32⟩
  | 38 => ⟨S512, .i32⟩
  | 39 => ⟨S512, .i1⟩
  | 40 => ⟨S_, .i32⟩
  | 41 => ⟨S512, .i32⟩
  | 42 => ⟨S512, .i32⟩
  | 43 => ⟨S512, .i32⟩
  | 44 => ⟨S512x1, .i32⟩
  | 45 => ⟨S512x64, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000x64, .f32⟩
  | 64 => ⟨S1000000x192, .f32⟩
  | 65 => ⟨S1000000x128, .f32⟩
  | 66 => ⟨S1x128, .f32⟩
  | 67 => ⟨S1000000x128, .f32⟩
  | 68 => ⟨S1000000x128, .f32⟩
  | 69 => ⟨S1000000x128, .f32⟩
  | 70 => ⟨S1000000x128, .f32⟩
  | 71 => ⟨S_, .f32⟩
  | 72 => ⟨S1000000x128, .f32⟩
  | 73 => ⟨S1000000x128, .f32⟩
  | 74 => ⟨S_, .f32⟩
  | 75 => ⟨S1000000x128, .f32⟩
  | 76 => ⟨S1000000x128, .f32⟩
  | 77 => ⟨S1000000x64, .f32⟩
  | 78 => ⟨S1000000x64, .f32⟩
  | 79 => ⟨S1000000x64, .f32⟩
  | 80 => ⟨S1000000x128, .f32⟩
  | 81 => ⟨S1000000x64, .f32⟩
  | 82 => ⟨S1x64, .f32⟩
  | 83 => ⟨S1000000x64, .f32⟩
  | 84 => ⟨S1000000x64, .f32⟩
  | 85 => ⟨S1000000x64, .f32⟩
  | 86 => ⟨S_, .f32⟩
  | 87 => ⟨S1000000x64, .f32⟩
  | 88 => ⟨S1000000x64, .f32⟩
  | 89 => ⟨S1000000x64, .f32⟩
  | 90 => ⟨S1000000x64, .f32⟩
  | 91 => ⟨S1000000x64, .f32⟩
  | 92 => ⟨S1000000x32, .f32⟩
  | 93 => ⟨S1000000x32, .f32⟩
  | 94 => ⟨S1000000x32, .f32⟩
  | 95 => ⟨S1x32, .f32⟩
  | 96 => ⟨S1000000x32, .f32⟩
  | 97 => ⟨S1000000x32, .f32⟩
  | 98 => ⟨S_, .f32⟩
  | 99 => ⟨S1000000x32, .f32⟩
  | 100 => ⟨S1000000x32, .f32⟩
  | 101 => ⟨S1000000x1, .f32⟩
  | 102 => ⟨S1x1, .f32⟩
  | 103 => ⟨S1000000x1, .f32⟩
  | 104 => ⟨S1000000x1, .f32⟩
  | 105 => ⟨S1000000x1, .f32⟩
  | 106 => ⟨S1000000x64, .f32⟩
  | 107 => ⟨S1000000x64, .f32⟩
  | 108 => ⟨S_, .i32⟩
  | 109 => ⟨S2000000, .i32⟩
  | 110 => ⟨S2000000, .i1⟩
  | 111 => ⟨S_, .i32⟩
  | 112 => ⟨S2000000, .i32⟩
  | 113 => ⟨S2000000, .i32⟩
  | 114 => ⟨S2000000, .i32⟩
  | 115 => ⟨S2000000x1, .i32⟩
  | 116 => ⟨S2000000x1, .f32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S2000000x1, .i32⟩
  | 125 => ⟨S2000000x64, .f32⟩
  | 126 => ⟨S_, .f32⟩
  | 127 => ⟨S100000x1, .f32⟩
  | _ => ⟨S100000x64, .f32⟩

abbrev hbmTy0_1 (i : Nat) : BufTy := match i % 128 with
  | 0 => ⟨S2000000x1, .i32⟩
  | 1 => ⟨S100000x1, .f32⟩
  | 2 => ⟨S_, .f32⟩
  | 3 => ⟨S100000x64, .f32⟩
  | 4 => ⟨S2000000x1, .i32⟩
  | 5 => ⟨S100000x64, .f32⟩
  | 6 => ⟨S100000x64, .f32⟩
  | 7 => ⟨S100000x64, .f32⟩
  | 8 => ⟨S100000x64, .f32⟩
  | 9 => ⟨S_, .f32⟩
  | 10 => ⟨S100000x64, .f32⟩
  | 11 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call0_cst : Ref sig .tc := ⟨.hbm, 98, rfl⟩
abbrev main_call0_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_11 : Ref sig .tc := ⟨.hbm, 108, rfl⟩
abbrev main_v74 : Ref sig .tc := ⟨.hbm, 109, rfl⟩
abbrev main_v75 : Ref sig .tc := ⟨.hbm, 110, rfl⟩
abbrev main_c_12 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_13 : Ref sig .tc := ⟨.hbm, 117, rfl⟩
abbrev main_v81 : Ref sig .tc := ⟨.hbm, 118, rfl⟩
abbrev main_v82 : Ref sig .tc := ⟨.hbm, 119, rfl⟩
abbrev main_c_14 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_15 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_16 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_call1_cst : Ref sig .tc := ⟨.hbm, 137, rfl⟩
abbrev main_call1_v0 : Ref sig .tc := ⟨.hbm, 138, rfl⟩
abbrev main_v97 : Ref sig .tc := ⟨.hbm, 139, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S512 : S_.BroadcastsInDim S512 (![] : Fin 0 → Fin S512.rank)
  bcast_S512_S512x1_0 : S512.BroadcastsInDim S512x1 (![0] : Fin 1 → Fin S512x1.rank)
  bcast_S_S100000 : S_.BroadcastsInDim S100000 (![] : Fin 0 → Fin S100000.rank)
  bcast_S100000_S100000x1_0 : S100000.BroadcastsInDim S100000x1 (![0] : Fin 1 → Fin S100000x1.rank)
  concatenates_S1000000x64_S1000000x64_S1000000x64_S1000000x192_d1 : Shape.Concatenates [S1000000x64, S1000000x64, S1000000x64] S1000000x192 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  slices_S1000000x128_S1000000x64_0_0 : S1000000x128.Slices ![0, 0] S1000000x64
  slices_S1000000x128_S1000000x64_0_64 : S1000000x128.Slices ![0, 64] S1000000x64
  concatenates_S1000000x64_S1000000x64_S1000000x128_d1 : Shape.Concatenates [S1000000x64, S1000000x64] S1000000x128 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S1000000x1_S1000000x64_0_1 : S1000000x1.BroadcastsInDim S1000000x64 (![0, 1] : Fin 2 → Fin S1000000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x1 : S_.BroadcastsInDim S100000x1 (![] : Fin 0 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  gather_S401x64_S1000000x1_S1000000x64_1_0_n_n_0_1_164_wf : GatherDims.WF S401x64 S1000000x1 S1000000x64 [1] [0] [] [0] [] 1 ![1, 64]
  gather_S401x64_S512x1_S512x64_1_0_n_n_0_1_164_wf : GatherDims.WF S401x64 S512x1 S512x64 [1] [0] [] [0] [] 1 ![1, 64]
  gather_S512x64_S1000000x1_S1000000x64_1_0_n_n_0_1_164_wf : GatherDims.WF S512x64 S1000000x1 S1000000x64 [1] [0] [] [0] [] 1 ![1, 64]
  gather_S512x64_S100000x1_S100000x64_1_0_n_n_0_1_164_wf : GatherDims.WF S512x64 S100000x1 S100000x64 [1] [0] [] [0] [] 1 ![1, 64]
  dot_S1000000x192_S192x128_S1000000x128_1_0_0_1_n_n_wf : DotDims.WF S1000000x192 S192x128 S1000000x128 [1] [0] [0] [1] [] []
  dot_S1000000x128_S128x64_S1000000x64_1_0_0_1_n_n_wf : DotDims.WF S1000000x128 S128x64 S1000000x64 [1] [0] [0] [1] [] []
  dot_S1000000x64_S64x32_S1000000x32_1_0_0_1_n_n_wf : DotDims.WF S1000000x64 S64x32 S1000000x32 [1] [0] [0] [1] [] []
  dot_S1000000x32_S32x1_S1000000x1_1_0_0_1_n_n_wf : DotDims.WF S1000000x32 S32x1 S1000000x1 [1] [0] [0] [1] [] []
  gather_S1000000x1_S2000000x1_S2000000x1_1_0_n_n_0_1_11_wf : GatherDims.WF S1000000x1 S2000000x1 S2000000x1 [1] [0] [] [0] [] 1 ![1, 1]
  gather_S1000000x64_S2000000x1_S2000000x64_1_0_n_n_0_1_164_wf : GatherDims.WF S1000000x64 S2000000x1 S2000000x64 [1] [0] [] [0] [] 1 ![1, 64]
  scatter_S100000x1_S2000000x1_S2000000x1_1_0_0_1_wf : ScatterDims.WF S100000x1 S2000000x1 S2000000x1 [1] [0] [0] 1
  scatter_S100000x64_S2000000x1_S2000000x64_1_0_0_1_wf : ScatterDims.WF S100000x64 S2000000x1 S2000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S401x64_S1000000x1_S1000000x64_1_0_n_n_0_1_164 : GatherDims S401x64 S1000000x1 S1000000x64 where
  offsetDims := [1]
  collapsedSliceDims := [0]
  operandBatchingDims := []
  startIndicesBatchingDims := []
  startIndexMap := [0]
  indexVectorDim := 1
  sliceSizes := ![1, 64]
  wf := gather_S401x64_S1000000x1_S1000000x64_1_0_n_n_0_1_164_wf
def gather_S401x64_S512x1_S512x64_1_0_n_n_0_1_164 : GatherDims S401x64 S512x1 S512x64 where
  offsetDims := [1]
  collapsedSliceDims := [0]
  operandBatchingDims := []
  startIndicesBatchingDims := []
  startIndexMap := [0]
  indexVectorDim := 1
  sliceSizes := ![1, 64]
  wf := gather_S401x64_S512x1_S512x64_1_0_n_n_0_1_164_wf
def gather_S512x64_S1000000x1_S1000000x64_1_0_n_n_0_1_164 : GatherDims S512x64 S1000000x1 S1000000x64 where
  offsetDims := [1]
  collapsedSliceDims := [0]
  operandBatchingDims := []
  startIndicesBatchingDims := []
  startIndexMap := [0]
  indexVectorDim := 1
  sliceSizes := ![1, 64]
  wf := gather_S512x64_S1000000x1_S1000000x64_1_0_n_n_0_1_164_wf
def gather_S512x64_S100000x1_S100000x64_1_0_n_n_0_1_164 : GatherDims S512x64 S100000x1 S100000x64 where
  offsetDims := [1]
  collapsedSliceDims := [0]
  operandBatchingDims := []
  startIndicesBatchingDims := []
  startIndexMap := [0]
  indexVectorDim := 1
  sliceSizes := ![1, 64]
  wf := gather_S512x64_S100000x1_S100000x64_1_0_n_n_0_1_164_wf
def dot_S1000000x192_S192x128_S1000000x128_1_0_0_1_n_n : DotDims S1000000x192 S192x128 S1000000x128 where
  lhsContracting := [1]
  rhsContracting := [0]
  lhsNonContracting := [0]
  rhsNonContracting := [1]
  lhsBatch := []
  rhsBatch := []
  wf := dot_S1000000x192_S192x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf
def gather_S1000000x1_S2000000x1_S2000000x1_1_0_n_n_0_1_11 : GatherDims S1000000x1 S2000000x1 S2000000x1 where
  offsetDims := [1]
  collapsedSliceDims := [0]
  operandBatchingDims := []
  startIndicesBatchingDims := []
  startIndexMap := [0]
  indexVectorDim := 1
  sliceSizes := ![1, 1]
  wf := gather_S1000000x1_S2000000x1_S2000000x1_1_0_n_n_0_1_11_wf
def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibTake.lean ====
/-
  A gather that fills out-of-range rows, when no row is out of range.

  `take` with the fill rule wraps a negative index `i` to `i + n`, gathers, and then replaces every row whose
  wrapped index lies outside `[0, n - 1]` by a fill value: the row mask is the conjunction, reduced over the index
  vector's unit axis, of `0 ≤ wrapped` and `wrapped ≤ n - 1`, broadcast over the row. When every index already lies in
  `[0, n)` nothing is wrapped, every mask bit is one, and the selection is the gathered array itself.

  Broadcasts are precompositions with an index map, so "every entry satisfies P" passes through them unchanged, and
  the statement needs nothing of the shapes.
-/
import Idealize.ShloMosaic.PureOps
import Idealize.ShloMosaic.PureOps.Reduce
import Idealize.ShloMosaic.Lib.ReduceAll

noncomputable section

namespace Cert.LibTake

open Idealize.ShloMosaic

/-- Every entry of an index vector lies in `[0, n)`, as the two signed word comparisons say it. -/
def InRange {s : Shape} (n : BitVec 32) (idx : IVec s 32) : Prop :=
  ∀ i, IntOp.cmpi .sge (idx i) 0#32 = 1#1 ∧ IntOp.cmpi .slt (idx i) n = 1#1

/-- A left fold by `and` from one over ones is one. -/
theorem foldl_andi_of_all {ι : Type} (f : ι → BitVec 1) (hf : ∀ i, f i = 1#1) :
    ∀ (l : List ι) (a : BitVec 1), a = 1#1 → l.foldl (fun r n => IntOp.andi r (f n)) a = 1#1
  | [], _, h => h
  | b :: l, _, h => by
    rw [List.foldl_cons]
    exact foldl_andi_of_all f hf l _ (IntOp.andi_eq_one.2 ⟨h, hf b⟩)

/-- A reduction by `and` of an array of ones, from one, is one at every index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all x hx _ _ (hinit _)

theorem ofBool_eq_one (b : Bool) : BitVec.ofBool b = 1#1 ↔ b = true := by cases b <;> decide

/-- A word in `[0, n)` signed (`n` a positive signed word) is not negative, and is at most `n - 1`. -/
theorem word_facts (n hi w : BitVec 32) (hn : n.toNat < 2 ^ 31) (hpos : 0 < n.toNat) (hhi : hi = n - 1#32)
    (h0 : IntOp.cmpi .sge w 0#32 = 1#1) (h1 : IntOp.cmpi .slt w n = 1#1) :
    IntOp.cmpi .slt w 0#32 ≠ 1#1 ∧ IntOp.cmpi .sle w hi = 1#1 := by
  subst hhi
  have hn1 : (n - 1#32).toNat = n.toNat - 1 := by
    rw [BitVec.toNat_sub]
    simp only [BitVec.toNat_ofNat]
    omega
  unfold IntOp.cmpi at h0 h1 ⊢
  rw [ofBool_eq_one] at h0 h1
  rw [Ne, ofBool_eq_one, ofBool_eq_one]
  simp only [BitVec.slt, BitVec.sle, decide_eq_true_eq] at h0 h1 ⊢
  have h32 := w.isLt
  unfold BitVec.toInt at h0 h1 ⊢
  rw [hn1]
  simp only [BitVec.toNat_ofNat] at h0 ⊢
  split at h1 <;> split at h1 <;> split <;> split <;> omega

/-- With every index in `[0, n)` (`n` a positive signed word and `hi = n - 1`), the fill selection over the row mask
    is its first operand. -/
theorem select_mask_eq {α : Type} {s0 s1 s2 s0' sc sc2 sm su t : Shape} {axes : List (Fin s2.rank)}
    (n hi : BitVec 32) (hn : n.toNat < 2 ^ 31) (hpos : 0 < n.toNat) (hhi : hi = n - 1#32)
    (idx : IVec s1 32) (hidx : InRange n idx)
    {d0 : Fin s0.rank → Fin s1.rank} (hb0 : s0.BroadcastsInDim s1 d0)
    {d1 : Fin s1.rank → Fin s2.rank} (hb1 : s1.BroadcastsInDim s2 d1)
    {d2 : Fin s0'.rank → Fin s2.rank} (hb2 : s0'.BroadcastsInDim s2 d2)
    {d3 : Fin sc.rank → Fin sc2.rank} (hb3 : sc.BroadcastsInDim sc2 d3)
    {d4 : Fin sc2.rank → Fin s2.rank} (hb4 : sc2.BroadcastsInDim s2 d4)
    (hred : s2.ReducesTo axes sm) (hu : 0 < su.numel)
    {d5 : Fin sm.rank → Fin t.rank} (hb5 : sm.BroadcastsInDim t d5)
    (X Y : t.Idx → α) :
    select (broadcastInDim t d5 hb5
      (Host.reduce IntOp.andi
        (andi
          (cmpi .sge
            (broadcastInDim s2 d1 hb1 (select (cmpi .slt idx (broadcastInDim s1 d0 hb0 (constantI s0 32 0#32)))
              (addi idx (broadcastInDim s1 d0 hb0 (constantI s0 32 n))) idx))
            (broadcastInDim s2 d2 hb2 (constantI s0' 32 0#32)))
          (cmpi .sle
            (broadcastInDim s2 d1 hb1 (select (cmpi .slt idx (broadcastInDim s1 d0 hb0 (constantI s0 32 0#32)))
              (addi idx (broadcastInDim s1 d0 hb0 (constantI s0 32 n))) idx))
            (broadcastInDim s2 d4 hb4 (broadcastInDim sc2 d3 hb3 (constantI sc 32 hi)))))
        (constantI su 1 1#1) hred hu)) X Y = X := by
  funext j
  have key : ∀ k, IntOp.andi
      (IntOp.cmpi .sge (Scalar.select (IntOp.cmpi .slt (idx k) 0#32) (IntOp.addi (idx k) n) (idx k)) 0#32)
      (IntOp.cmpi .sle (Scalar.select (IntOp.cmpi .slt (idx k) 0#32) (IntOp.addi (idx k) n) (idx k)) hi) = 1#1 := by
    intro k
    obtain ⟨h1, h2⟩ := word_facts n hi (idx k) hn hpos hhi (hidx k).1 (hidx k).2
    have h1' : ¬ (IntOp.cmpi .slt (idx k) 0#32 = 1) := h1
    unfold Scalar.select
    rw [if_neg h1']
    exact IntOp.andi_eq_one.2 ⟨(hidx k).1, h2⟩
  have hm : ∀ i, (andi
          (cmpi .sge
            (broadcastInDim s2 d1 hb1 (select (cmpi .slt idx (broadcastInDim s1 d0 hb0 (constantI s0 32 0#32)))
              (addi idx (broadcastInDim s1 d0 hb0 (constantI s0 32 n))) idx))
            (broadcastInDim s2 d2 hb2 (constantI s0' 32 0#32)))
          (cmpi .sle
            (broadcastInDim s2 d1 hb1 (select (cmpi .slt idx (broadcastInDim s1 d0 hb0 (constantI s0 32 0#32)))
              (addi idx (broadcastInDim s1 d0 hb0 (constantI s0 32 n))) idx))
            (broadcastInDim s2 d4 hb4 (broadcastInDim sc2 d3 hb3 (constantI sc 32 hi))))) i = 1#1 := fun i => key _
  have hr := fun j' => reduce_andi_of_all _ (constantI su 1 1#1) hred hu (fun _ => rfl) hm j'
  show Scalar.select (Host.reduce IntOp.andi _ (constantI su 1 1#1) hred hu _) (X j) (Y j) = X j
  rw [hr]
  rfl

end Cert.LibTake

end
-- ==== Proof.EdgeMath.lean ====
/-
  The arithmetic of one edge and of one node, as formulas on the extended reals.

  An edge has three rows of 64 numbers: its relation's embedding `hr`, its query relation's embedding `hqr` and its
  source node's state `hs`. The gate is the logistic function of an affine image of the 192 numbers `hr, hqr, hs`
  laid end to end; its first 64 entries are the update gate `z`, its last 64 the reset gate `r`. The candidate is
  the hyperbolic tangent of an affine image of the 128 numbers `hr, r ⊙ hs`. The message is
  `(1 - z) ⊙ hs + z ⊙ candidate`. The attention logit is an affine image of
  `max (message · Ws + hqr · Wq + bq) 0`, its exponential is the edge's weight, and the weighted message is the
  weight times the message.

  A node has a row `agg` of 64 summed weighted messages and the sum `s` of its edges' weights; its new state is
  `max ((agg / s) · Wh) 0`.

  Nothing here is a program: the two programs are each read, index by index, as these formulas.
-/
import Idealize.ShloMosaic.PureOps.Ideal
import Idealize.ShloMosaic.PureOps.Ideal.Laws
import Idealize.ShloMosaic.Lib.ValueIdx

noncomputable section

open scoped BigOperators
open Idealize.ShloMosaic

namespace Cert.EdgeMath

/-- The word of 1.0 and the word of 0.0, as the extended reals they denote (kept as words: the same word stands on
    both sides of every comparison, and only its being `1` matters once, in the logistic function). -/
abbrev one32 : EReal := Ideal.ofBits .f32 0x3F800000#32
abbrev zero32 : EReal := Ideal.ofBits .f32 0x00000000#32

theorem one32_eq : one32 = 1 := by
  show Ideal.ofBits .f32 0x3F800000#32 = 1
  simp [Ideal.ofBits, Ideal.ieee, -EReal.coe_mul]; norm_num

/-- The weights of the edge computation, by coordinates. -/
structure Weights where
  gW : Fin 192 → Fin 128 → EReal
  gb : Fin 128 → EReal
  hW : Fin 128 → Fin 64 → EReal
  hb : Fin 64 → EReal
  sW : Fin 64 → Fin 32 → EReal
  qW : Fin 64 → Fin 32 → EReal
  qb : Fin 32 → EReal
  aW : Fin 32 → EReal
  ab : EReal

variable (w : Weights) (hr hqr hs : Fin 64 → EReal)

/-- Three rows of 64 laid end to end. -/
def cat3 (a b c : Fin 64 → EReal) (k : Fin 192) : EReal :=
  if h : k.val < 64 then a ⟨k.val, h⟩
  else if h2 : k.val < 128 then b ⟨k.val - 64, by omega⟩
  else c ⟨k.val - 128, by omega⟩

/-- Two rows of 64 laid end to end. -/
def cat2 (a b : Fin 64 → EReal) (k : Fin 128) : EReal :=
  if h : k.val < 64 then a ⟨k.val, h⟩ else b ⟨k.val - 64, by omega⟩

/-- The gate before the logistic function. -/
def gatePre (j : Fin 128) : EReal := (∑ k : Fin 192, cat3 hr hqr hs k * w.gW k j) + w.gb j

/-- The gate, written as the quotient `1 / (1 + e^(-x))` over the word of 1.0 (the logistic function). -/
def gate (j : Fin 128) : EReal := Ideal.div one32 (one32 + Ideal.exp (-(gatePre w hr hqr hs j)))

/-- The update gate: the gate's first 64 entries. -/
def upd (j : Fin 64) : EReal := gate w hr hqr hs ⟨j.val, by omega⟩
/-- The reset gate: the gate's last 64 entries. -/
def rst (j : Fin 64) : EReal := gate w hr hqr hs ⟨j.val + 64, by omega⟩

/-- The candidate state. -/
def cand (j : Fin 64) : EReal :=
  Ideal.tanh ((∑ k : Fin 128, cat2 hr (fun q => rst w hr hqr hs q * hs q) k * w.hW k j) + w.hb j)

/-- The message. -/
def msg (j : Fin 64) : EReal :=
  (one32 - upd w hr hqr hs j) * hs j + upd w hr hqr hs j * cand w hr hqr hs j

/-- The hidden layer of the attention score. -/
def hid (j : Fin 32) : EReal :=
  max (((∑ k : Fin 64, msg w hr hqr hs k * w.sW k j) + (∑ k : Fin 64, hqr k * w.qW k j)) + w.qb j) zero32

/-- The edge's weight: the exponential of its attention logit. -/
def wgt : EReal := Ideal.exp ((∑ k : Fin 32, hid w hr hqr hs k * w.aW k) + w.ab)

/-- The weighted message. -/
def wmsg (j : Fin 64) : EReal := wgt w hr hqr hs * msg w hr hqr hs j

/-- The weighted messages of `R` edges, as an array: row `r` from rows `r` of the three inputs. -/
def wmsgArr {R : Nat} (hrA hqrA hsA : (⟨2, ![R, 64]⟩ : Shape).Idx → EReal) : (⟨2, ![R, 64]⟩ : Shape).Idx → EReal :=
  fun i => wmsg w (fun k => hrA (ValueIdx.ix2 (i 0) k)) (fun k => hqrA (ValueIdx.ix2 (i 0) k)) (fun k => hsA (ValueIdx.ix2 (i 0) k)) (i 1)

/-- The weights of `R` edges, as a column. -/
def wgtArr {R : Nat} (hrA hqrA hsA : (⟨2, ![R, 64]⟩ : Shape).Idx → EReal) : (⟨2, ![R, 1]⟩ : Shape).Idx → EReal :=
  fun i => wgt w (fun k => hrA (ValueIdx.ix2 (i 0) k)) (fun k => hqrA (ValueIdx.ix2 (i 0) k)) (fun k => hsA (ValueIdx.ix2 (i 0) k))

/-- The logistic function of the gate's argument, for the program that spells it by name. -/
theorem gate_eq_logistic (j : Fin 128) : gate w hr hqr hs j = Ideal.logistic (gatePre w hr hqr hs j) := by
  unfold gate Ideal.logistic
  rw [one32_eq]

end Cert.EdgeMath

namespace Cert.NodeMath

open Cert.EdgeMath (zero32)

/-- A node's new state: the sums divided by the summed weight, times `Wh`, clipped at zero. -/
def out (Wh : Fin 64 → Fin 64 → EReal) (agg : Fin 64 → EReal) (s : EReal) (j : Fin 64) : EReal :=
  max (∑ k : Fin 64, Ideal.div (agg k) s * Wh k j) zero32

/-- The new states of `R` nodes, as an array: row `r` from row `r` of the sums and entry `r` of the summed weights. -/
def outArr {R : Nat} (Wh : Fin 64 → Fin 64 → EReal) (aggA : (⟨2, ![R, 64]⟩ : Shape).Idx → EReal)
    (sA : (⟨2, ![R, 1]⟩ : Shape).Idx → EReal) : (⟨2, ![R, 64]⟩ : Shape).Idx → EReal :=
  fun i => out Wh (fun k => aggA (ValueIdx.ix2 (i 0) k)) (sA (ValueIdx.ix2 (i 0) 0)) (i 1)

end Cert.NodeMath

end
-- ==== Proof.HostReads.lean ====
/-
  What the idealized kernel's first host operations compute, in the reference's words, and where the two kernels'
  result arrays are found.

  Before the edge kernel the host gathers, with the fill rule, the source states and the relation embeddings. With
  every index inside its table (LibTake) each filled gather is the plain gather the reference performs with the same
  wrapped index vector; no later stretch before the edge kernel writes either result. The edge kernel's two result
  arrays are what its write-backs leave, and so is the node kernel's, which is the program's first result.
-/
import proofs.«402694_j55310588838560_3_alg».proof.Proof.Gen.KernelIdeal.Frame
import proofs.«402694_j55310588838560_3_alg».proof.Proof.Gen.ReferenceIdeal.Read
import proofs.«402694_j55310588838560_3_alg».proof.Proof.LibTake
import proofs.«402694_j55310588838560_3_alg».proof.Proof.EdgeMath
import Idealize.ShloMosaic.Lib.StableHlo.Run
import Idealize.ShloMosaic.Lib.Pipeline.Value
import Idealize.ShloMosaic.Lib.ValueIdx

set_option maxRecDepth 16384

noncomputable section

namespace Cert.KernelIdeal.HostReads

open Cert.KernelIdeal Cert.KernelIdeal.Gen Idealize.ShloMosaic Idealize.ShloMosaic.TcCoe Idealize.ShloMosaic.ValueIdx Idealize.SL.Sem
open Idealize.ShloMosaic.StableHlo Cert.LibTake

variable (m : (ℓ : Loc nD τ sig) → Buf (Elt Ideal) ℓ) (ρ : Dev nD → PrngReg) (c : Dev nD)

/-- The launch contents of a buffer on device `c`. -/
abbrev arg (b : Ref sig .tc) : Buf (Elt Ideal) ((c.tc : Thread nD τ).loc b) := m ((c.tc : Thread nD τ).loc b)

/-- One stretch of host operations leaves a buffer it does not write as it was. -/
local macro "not_written" : tactic => `(tactic|
  exact StableHlo.after_of_forall_not_mem _ _ (List.forall_iff_forall_mem.mp (by
    simp only [hostOps0, hostOps0_1, hostOps0_2, hostOps0_3, hostOps0_4, hostOps0_5,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- Contents moved to a typed reference's buffer and back are the contents. -/
private theorem ofBuf_toBuf {T : BufTy} {Val : EltTy → Type} (x : TRef sig T) (v : T.Contents Val) : x.ofBuf (x.toBuf v) = v := by
  obtain ⟨r, h, _, _⟩ := x
  subst h
  rfl

/-- Contents read at the typed reference of the gathered source states are the contents. -/
private theorem ofBuf_v0 (X : Vec Ideal S1000000x64 .f32) :
    (TRef.of main_v0 : TRef sig ⟨S1000000x64, .f32⟩).ofBuf (Val := Elt Ideal) X = X := rfl

/-- Contents read at the typed reference of the gathered relation embeddings are the contents. -/
private theorem ofBuf_v1 (X : Vec Ideal S1000000x64 .f32) :
    (TRef.of main_v1 : TRef sig ⟨S1000000x64, .f32⟩).ofBuf (Val := Elt Ideal) X = X := rfl

set_option maxHeartbeats 1000000 in
/-- The first stretch gathers the source states with the fill rule: a row whose wrapped index leaves the table is replaced
    by the fill word. With every index inside the table no row is, and the result is the reference's plain gather at its
    wrapped index vector. -/
private theorem take0 (V : Valuation τ sig (Elt Ideal)) (h : InRange 100000#32 (V (Proc.devRef .tc main_arg15) : IVec S1000000 32)) :
    (StableHlo.after hostOps0 V (Proc.devRef .tc main_v0) : Vec Ideal S1000000x64 .f32)
      = Cert.ReferenceIdeal.Read.val_main_v6 (F := Ideal) (V (Proc.devRef .tc main_arg0)) (V (Proc.devRef .tc main_arg15)) := by
  refine (ofBuf_v0 _).symm.trans ?_
  after_results_simp
  simp only [ofBuf_toBuf]
  refine (select_mask_eq 100000#32 99999#32 ?_ ?_ ?_ _ h _ _ _ _ _ _ _ _ _ _).trans ?_
  · decide
  · decide
  · decide
  · unfold Cert.ReferenceIdeal.Read.val_main_v6 Cert.ReferenceIdeal.Read.val_main_v5 Cert.ReferenceIdeal.Read.val_main_v4 Cert.ReferenceIdeal.Read.val_main_v3 Cert.ReferenceIdeal.Read.val_main_v2
      Cert.ReferenceIdeal.Read.val_main_v1 Cert.ReferenceIdeal.Read.val_main_v0 Cert.ReferenceIdeal.Read.val_main_c Cert.ReferenceIdeal.Read.val_main_c_0
    rfl

set_option maxHeartbeats 1000000 in
/-- The second stretch gathers the relation embeddings with the fill rule; with every index inside the table the result is
    the reference's plain gather at its wrapped index vector. -/
private theorem take1 (V : Valuation τ sig (Elt Ideal)) (h : InRange 401#32 (V (Proc.devRef .tc main_arg14) : IVec S1000000 32)) :
    (StableHlo.after hostOps0_1 V (Proc.devRef .tc main_v1) : Vec Ideal S1000000x64 .f32)
      = Cert.ReferenceIdeal.Read.val_main_v13 (F := Ideal) (V (Proc.devRef .tc main_arg1)) (V (Proc.devRef .tc main_arg14)) := by
  refine (ofBuf_v1 _).symm.trans ?_
  after_results_simp
  simp only [ofBuf_toBuf]
  refine (select_mask_eq 401#32 400#32 ?_ ?_ ?_ _ h _ _ _ _ _ _ _ _ _ _).trans ?_
  · decide
  · decide
  · decide
  · unfold Cert.ReferenceIdeal.Read.val_main_v13 Cert.ReferenceIdeal.Read.val_main_v12 Cert.ReferenceIdeal.Read.val_main_v11 Cert.ReferenceIdeal.Read.val_main_v10 Cert.ReferenceIdeal.Read.val_main_v9
      Cert.ReferenceIdeal.Read.val_main_v8 Cert.ReferenceIdeal.Read.val_main_v7 Cert.ReferenceIdeal.Read.val_main_c_1 Cert.ReferenceIdeal.Read.val_main_c_2
    rfl

/-- At the edge kernel's entry the source states are the reference's gather. -/
theorem entry_hs (h15 : InRange 100000#32 (arg m c main_arg15 : IVec S1000000 32)) :
    (V6 m ρ c main_v0 : Vec Ideal S1000000x64 .f32)
      = Cert.ReferenceIdeal.Read.val_main_v6 (F := Ideal) (arg m c main_arg0) (arg m c main_arg15) := by
  have s5 : W6 m ρ c (Proc.devRef .tc main_v0) = W5 m ρ c (Proc.devRef .tc main_v0) := by not_written
  have s4 : W5 m ρ c (Proc.devRef .tc main_v0) = W4 m ρ c (Proc.devRef .tc main_v0) := by not_written
  have s3 : W4 m ρ c (Proc.devRef .tc main_v0) = W3 m ρ c (Proc.devRef .tc main_v0) := by not_written
  have s2 : W3 m ρ c (Proc.devRef .tc main_v0) = W2 m ρ c (Proc.devRef .tc main_v0) := by not_written
  have s1 : W2 m ρ c (Proc.devRef .tc main_v0) = W1 m ρ c (Proc.devRef .tc main_v0) := by not_written
  exact (s5.trans (s4.trans (s3.trans (s2.trans s1)))).trans (take0 (W0 m ρ c) h15)

/-- At the edge kernel's entry the relation embeddings are the reference's gather. -/
theorem entry_hr (h14 : InRange 401#32 (arg m c main_arg14 : IVec S1000000 32)) :
    (V6 m ρ c main_v1 : Vec Ideal S1000000x64 .f32)
      = Cert.ReferenceIdeal.Read.val_main_v13 (F := Ideal) (arg m c main_arg1) (arg m c main_arg14) := by
  have e1 : W1 m ρ c (Proc.devRef .tc main_arg1) = arg m c main_arg1 := by not_written
  have e14 : W1 m ρ c (Proc.devRef .tc main_arg14) = arg m c main_arg14 := by not_written
  have h14' : InRange 401#32 (W1 m ρ c (Proc.devRef .tc main_arg14) : IVec S1000000 32) := by rw [e14]; exact h14
  have s5 : W6 m ρ c (Proc.devRef .tc main_v1) = W5 m ρ c (Proc.devRef .tc main_v1) := by not_written
  have s4 : W5 m ρ c (Proc.devRef .tc main_v1) = W4 m ρ c (Proc.devRef .tc main_v1) := by not_written
  have s3 : W4 m ρ c (Proc.devRef .tc main_v1) = W3 m ρ c (Proc.devRef .tc main_v1) := by not_written
  have s2 : W3 m ρ c (Proc.devRef .tc main_v1) = W2 m ρ c (Proc.devRef .tc main_v1) := by not_written
  exact (s5.trans (s4.trans (s3.trans s2))).trans ((take1 (W1 m ρ c) h14').trans (congrArg₂ (Cert.ReferenceIdeal.Read.val_main_v13 (F := Ideal)) e1 e14))

/-- The edge kernel's first result array, as the later host operations find it. -/
theorem after_edge_wmsg : (V7 m ρ c main_v9_0 : Vec Ideal S1000000x64 .f32) = (dat0 (F := Ideal) (V6 m ρ) c).arrAt 12 cfg0.N :=
  (hF0 m ρ c 12).symm

/-- The edge kernel's second result array, as the later host operations find it. -/
theorem after_edge_wgt : (V7 m ρ c main_v9_1 : Vec Ideal S1000000x1 .f32) = (dat0 (F := Ideal) (V6 m ρ) c).arrAt 13 cfg0.N :=
  (hF0 m ρ c 13).symm

/-- The program's first result: the node kernel's result array. -/
theorem exit_out : W11 m ρ c (Proc.devRef .tc main_v18) = (dat1 (F := Ideal) (V10 m ρ) c).arrAt 3 cfg1.N :=
  W11_arr m ρ c 3

end Cert.KernelIdeal.HostReads

end
-- ==== Proof.HostMid.lean ====
/-
  Between the two kernels: the host gathers the edge kernel's two results by the positions of the unique edges (with
  the fill rule, which under the range is the plain gather) and scatter-adds them over the target nodes; these are the
  reference's operations applied to the edge kernel's results. The matrix `Wh` is untouched from the launch.
-/
import proofs.«402694_j55310588838560_3_alg».proof.Proof.Gen.KernelIdeal.Frame
import proofs.«402694_j55310588838560_3_alg».proof.Proof.Gen.ReferenceIdeal.Read
import proofs.«402694_j55310588838560_3_alg».proof.Proof.LibTake
import proofs.«402694_j55310588838560_3_alg».proof.Proof.EdgeMath
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads

open Cert.KernelIdeal Cert.KernelIdeal.Gen Idealize.ShloMosaic Idealize.ShloMosaic.TcCoe Idealize.ShloMosaic.ValueIdx Idealize.SL.Sem
open Idealize.ShloMosaic.StableHlo Cert.LibTake

variable (m : (ℓ : Loc nD τ sig) → Buf (Elt Ideal) ℓ) (ρ : Dev nD → PrngReg) (c : Dev nD)

/-- Contents moved to a buffer's own type and back are themselves. -/
private theorem ofBuf_toBuf {Val : EltTy → Type} {T : BufTy} (x : TRef sig T) (v : T.Contents Val) : x.ofBuf (x.toBuf v) = v := by
  obtain ⟨r, rfl, h2, h3⟩ := x
  rfl

/-- Contents at a literal buffer's own type are the contents. -/
private theorem toBuf_gathered (X : FVec Ideal S2000000x64 .f32) :
    ((TRef.of main_v10 : TRef sig ⟨S2000000x64, .f32⟩).toBuf (Val := Elt Ideal) X : FVec Ideal S2000000x64 .f32) = X := rfl
private theorem toBuf_gatheredW (X : FVec Ideal S2000000x1 .f32) :
    ((TRef.of main_v11 : TRef sig ⟨S2000000x1, .f32⟩).toBuf (Val := Elt Ideal) X : FVec Ideal S2000000x1 .f32) = X := rfl
private theorem ofBuf_pos (X : IVec S2000000 32) :
    (TRef.of main_arg16 : TRef sig ⟨S2000000, .i32⟩).ofBuf (Val := Elt Ideal) X = X := rfl
private theorem ofBuf_msgs (X : FVec Ideal S1000000x64 .f32) :
    (TRef.of main_v9_0 : TRef sig ⟨S1000000x64, .f32⟩).ofBuf (Val := Elt Ideal) X = X := rfl
private theorem ofBuf_weights (X : FVec Ideal S1000000x1 .f32) :
    (TRef.of main_v9_1 : TRef sig ⟨S1000000x1, .f32⟩).ofBuf (Val := Elt Ideal) X = X := rfl

/-- With every index in range, the gather that fills out-of-range rows is the reference's plain gather. -/
private theorem fill_gather_agg (idx : IVec S2000000 32) (h : InRange 1000000#32 idx) (src : FVec Ideal S1000000x64 .f32) :
    (select (broadcastInDim S2000000x64 ![0] bcast_S2000000_S2000000x64_0
          (Host.reduce IntOp.andi
            (andi
              (cmpi .sge
                (broadcastInDim S2000000x1 ![0] bcast_S2000000_S2000000x1_0
                  (select (cmpi .slt idx (broadcastInDim S2000000 ![] bcast_S_S2000000 (constantI S_ 32 0#32)))
                    (addi idx (broadcastInDim S2000000 ![] bcast_S_S2000000 (constantI S_ 32 1000000#32))) idx))
                (broadcastInDim S2000000x1 ![] bcast_S_S2000000x1 (constantI S_ 32 0#32)))
              (cmpi .sle
                (broadcastInDim S2000000x1 ![0] bcast_S2000000_S2000000x1_0
                  (select (cmpi .slt idx (broadcastInDim S2000000 ![] bcast_S_S2000000 (constantI S_ 32 0#32)))
                    (addi idx (broadcastInDim S2000000 ![] bcast_S_S2000000 (constantI S_ 32 1000000#32))) idx))
                (broadcastInDim S2000000x1 ![0, 1] bcast_S1x1_S2000000x1_0_1 (broadcastInDim S1x1 ![1] bcast_S1_S1x1_1 (constantI S1 32 999999#32)))))
            (constantI S_ 1 1#1) reducesTo_S2000000x1_S2000000_d1 h_S_))
        (Host.gather gather_S1000000x64_S2000000x1_S2000000x64_1_0_n_n_0_1_164 src
          (broadcastInDim S2000000x1 ![0] bcast_S2000000_S2000000x1_0
            (select (cmpi .slt idx (broadcastInDim S2000000 ![] bcast_S_S2000000 (constantI S_ 32 0#32)))
              (addi idx (broadcastInDim S2000000 ![] bcast_S_S2000000 (constantI S_ 32 1000000#32))) idx)))
        (broadcastInDim S2000000x64 ![] bcast_S_S2000000x64 (constant (F := Ideal) S_ .f32 0x7FC00000#32)) : FVec Ideal S2000000x64 .f32)
      = Host.gather Cert.ReferenceIdeal.gather_S1000000x64_S2000000x1_S2000000x64_1_0_n_n_0_1_164 src (Cert.ReferenceIdeal.Read.val_main_v86 (F := Ideal) idx) := by
  refine (select_mask_eq 1000000#32 999999#32 (by decide) (by decide) (by decide) idx h
    bcast_S_S2000000 bcast_S2000000_S2000000x1_0 bcast_S_S2000000x1 bcast_S1_S1x1_1 bcast_S1x1_S2000000x1_0_1
    reducesTo_S2000000x1_S2000000_d1 h_S_ bcast_S2000000_S2000000x64_0 _ _).trans ?_
  rfl

/-- With every index in range, the gather that fills out-of-range rows is the reference's plain gather. -/
private theorem fill_gather_sum (idx : IVec S2000000 32) (h : InRange 1000000#32 idx) (src : FVec Ideal S1000000x1 .f32) :
    (select (broadcastInDim S2000000x1 ![0] bcast_S2000000_S2000000x1_0
          (Host.reduce IntOp.andi
            (andi
              (cmpi .sge
                (broadcastInDim S2000000x1 ![0] bcast_S2000000_S2000000x1_0
                  (select (cmpi .slt idx (broadcastInDim S2000000 ![] bcast_S_S2000000 (constantI S_ 32 0#32)))
                    (addi idx (broadcastInDim S2000000 ![] bcast_S_S2000000 (constantI S_ 32 1000000#32))) idx))
                (broadcastInDim S2000000x1 ![] bcast_S_S2000000x1 (constantI S_ 32 0#32)))
              (cmpi .sle
                (broadcastInDim S2000000x1 ![0] bcast_S2000000_S2000000x1_0
                  (select (cmpi .slt idx (broadcastInDim S2000000 ![] bcast_S_S2000000 (constantI S_ 32 0#32)))
                    (addi idx (broadcastInDim S2000000 ![] bcast_S_S2000000 (constantI S_ 32 1000000#32))) idx))
                (broadcastInDim S2000000x1 ![0, 1] bcast_S1x1_S2000000x1_0_1 (broadcastInDim S1x1 ![1] bcast_S1_S1x1_1 (constantI S1 32 999999#32)))))
            (constantI S_ 1 1#1) reducesTo_S2000000x1_S2000000_d1 h_S_))
        (Host.gather gather_S1000000x1_S2000000x1_S2000000x1_1_0_n_n_0_1_11 src
          (broadcastInDim S2000000x1 ![0] bcast_S2000000_S2000000x1_0
            (select (cmpi .slt idx (broadcastInDim S2000000 ![] bcast_S_S2000000 (constantI S_ 32 0#32)))
              (addi idx (broadcastInDim S2000000 ![] bcast_S_S2000000 (constantI S_ 32 1000000#32))) idx)))
        (broadcastInDim S2000000x1 ![] bcast_S_S2000000x1 (constant (F := Ideal) S_ .f32 0x7FC00000#32)) : FVec Ideal S2000000x1 .f32)
      = Host.gather Cert.ReferenceIdeal.gather_S1000000x1_S2000000x1_S2000000x1_1_0_n_n_0_1_11 src (Cert.ReferenceIdeal.Read.val_main_v79 (F := Ideal) idx) := by
  refine (select_mask_eq 1000000#32 999999#32 (by decide) (by decide) (by decide) idx h
    bcast_S_S2000000 bcast_S2000000_S2000000x1_0 bcast_S_S2000000x1 bcast_S1_S1x1_1 bcast_S1x1_S2000000x1_0_1
    reducesTo_S2000000x1_S2000000_d1 h_S_ bcast_S2000000_S2000000x1_0 _ _).trans ?_
  rfl

/-- The gather with the fill rule run from any contents whose positions are in range: the reference's gather. -/
private theorem take_agg (V : Valuation τ sig (Elt Ideal))
    (h16 : InRange 1000000#32 ((TRef.of main_arg16 : TRef sig ⟨S2000000, .i32⟩).ofBuf (V (Proc.devRef .tc main_arg16)))) :
    StableHlo.after (hostOps1 (F := Ideal)) V (Proc.devRef .tc main_v10)
      = (TRef.of main_v10 : TRef sig ⟨S2000000x64, .f32⟩).toBuf
          (Host.gather Cert.ReferenceIdeal.gather_S1000000x64_S2000000x1_S2000000x64_1_0_n_n_0_1_164
            ((TRef.of main_v9_0 : TRef sig ⟨S1000000x64, .f32⟩).ofBuf (V (Proc.devRef .tc main_v9_0)))
            (Cert.ReferenceIdeal.Read.val_main_v86 (F := Ideal) ((TRef.of main_arg16 : TRef sig ⟨S2000000, .i32⟩).ofBuf (V (Proc.devRef .tc main_arg16))))) := by
  dsimp only [hostOps1]
  after_results_simp
  simp only [ofBuf_toBuf]
  refine congrArg (TRef.toBuf _) ?_
  exact fill_gather_agg _ h16 _

/-- The gather with the fill rule run from any contents whose positions are in range: the reference's gather. -/
private theorem take_sum (V : Valuation τ sig (Elt Ideal))
    (h16 : InRange 1000000#32 ((TRef.of main_arg16 : TRef sig ⟨S2000000, .i32⟩).ofBuf (V (Proc.devRef .tc main_arg16)))) :
    StableHlo.after (hostOps1_1 (F := Ideal)) V (Proc.devRef .tc main_v11)
      = (TRef.of main_v11 : TRef sig ⟨S2000000x1, .f32⟩).toBuf
          (Host.gather Cert.ReferenceIdeal.gather_S1000000x1_S2000000x1_S2000000x1_1_0_n_n_0_1_11
            ((TRef.of main_v9_1 : TRef sig ⟨S1000000x1, .f32⟩).ofBuf (V (Proc.devRef .tc main_v9_1)))
            (Cert.ReferenceIdeal.Read.val_main_v79 (F := Ideal) ((TRef.of main_arg16 : TRef sig ⟨S2000000, .i32⟩).ofBuf (V (Proc.devRef .tc main_arg16))))) := by
  dsimp only [hostOps1_1]
  after_results_simp
  simp only [ofBuf_toBuf]
  refine congrArg (TRef.toBuf _) ?_
  exact fill_gather_sum _ h16 _

/-- The scatter-add over the target nodes, run from any contents: the reference's, of the gathered rows it finds. -/
private theorem scatter_agg (V : Valuation τ sig (Elt Ideal)) :
    (StableHlo.after (hostOps1_2 (F := Ideal)) V (Proc.devRef .tc main_v17) : FVec Ideal S100000x64 .f32)
      = Host.scatterAdd (F := Ideal) (φ := .f32) Cert.ReferenceIdeal.scatter_S100000x64_S2000000x1_S2000000x64_1_0_0_1 (Cert.ReferenceIdeal.Read.val_main_v91 (F := Ideal))
          (Cert.ReferenceIdeal.Read.val_main_v92 (F := Ideal) (V (Proc.devRef .tc main_arg17)))
          (V (Proc.devRef .tc main_v10) : FVec Ideal S2000000x64 .f32) := by
  dsimp only [hostOps1_2]
  after_results_simp
  rfl

/-- The scatter-add over the target nodes, run from any contents: the reference's, of the gathered rows it finds. -/
private theorem scatter_sum (V : Valuation τ sig (Elt Ideal)) :
    (StableHlo.after (hostOps1_2 (F := Ideal)) V (Proc.devRef .tc main_v14) : FVec Ideal S100000x1 .f32)
      = Host.scatterAdd (F := Ideal) (φ := .f32) Cert.ReferenceIdeal.scatter_S100000x1_S2000000x1_S2000000x1_1_0_0_1 (Cert.ReferenceIdeal.Read.val_main_v88 (F := Ideal))
          (Cert.ReferenceIdeal.Read.val_main_v89 (F := Ideal) (V (Proc.devRef .tc main_arg17)))
          (V (Proc.devRef .tc main_v11) : FVec Ideal S2000000x1 .f32) := by
  dsimp only [hostOps1_2]
  after_results_simp
  rfl

/-- A stretch of host operations leaves a buffer none of them writes as it was. -/
local macro "kept_by" ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The matrix as the edge kernel leaves it is the launched one. -/
private theorem W7_Wh : W7 (F := Ideal) m ρ c (Proc.devRef .tc main_arg6) = m ((c.tc : Thread nD τ).loc main_arg6) :=
  calc W7 (F := Ideal) m ρ c (Proc.devRef .tc main_arg6)
    _ = W6 m ρ c (Proc.devRef .tc main_arg6) := W7_of_ne m ρ c main_arg6 (by decide)
    _ = W5 m ρ c (Proc.devRef .tc main_arg6) := kept_by hostOps0_5
    _ = W4 m ρ c (Proc.devRef .tc main_arg6) := kept_by hostOps0_4
    _ = W3 m ρ c (Proc.devRef .tc main_arg6) := kept_by hostOps0_3
    _ = W2 m ρ c (Proc.devRef .tc main_arg6) := kept_by hostOps0_2
    _ = W1 m ρ c (Proc.devRef .tc main_arg6) := kept_by hostOps0_1
    _ = W0 m ρ c (Proc.devRef .tc main_arg6) := kept_by hostOps0
    _ = m ((c.tc : Thread nD τ).loc main_arg6) := rfl

/-- The positions of the unique edges, as the edge kernel leaves them, are the launched ones. -/
private theorem W7_pos : W7 (F := Ideal) m ρ c (Proc.devRef .tc main_arg16) = m ((c.tc : Thread nD τ).loc main_arg16) :=
  calc W7 (F := Ideal) m ρ c (Proc.devRef .tc main_arg16)
    _ = W6 m ρ c (Proc.devRef .tc main_arg16) := W7_of_ne m ρ c main_arg16 (by decide)
    _ = W5 m ρ c (Proc.devRef .tc main_arg16) := kept_by hostOps0_5
    _ = W4 m ρ c (Proc.devRef .tc main_arg16) := kept_by hostOps0_4
    _ = W3 m ρ c (Proc.devRef .tc main_arg16) := kept_by hostOps0_3
    _ = W2 m ρ c (Proc.devRef .tc main_arg16) := kept_by hostOps0_2
    _ = W1 m ρ c (Proc.devRef .tc main_arg16) := kept_by hostOps0_1
    _ = W0 m ρ c (Proc.devRef .tc main_arg16) := kept_by hostOps0
    _ = m ((c.tc : Thread nD τ).loc main_arg16) := rfl

/-- The target nodes of the unique edges, after the two gathers, are the launched ones. -/
private theorem W9_tgt : W9 (F := Ideal) m ρ c (Proc.devRef .tc main_arg17) = m ((c.tc : Thread nD τ).loc main_arg17) :=
  calc W9 (F := Ideal) m ρ c (Proc.devRef .tc main_arg17)
    _ = W8 m ρ c (Proc.devRef .tc main_arg17) := kept_by hostOps1_1
    _ = W7 m ρ c (Proc.devRef .tc main_arg17) := kept_by hostOps1
    _ = W6 m ρ c (Proc.devRef .tc main_arg17) := W7_of_ne m ρ c main_arg17 (by decide)
    _ = W5 m ρ c (Proc.devRef .tc main_arg17) := kept_by hostOps0_5
    _ = W4 m ρ c (Proc.devRef .tc main_arg17) := kept_by hostOps0_4
    _ = W3 m ρ c (Proc.devRef .tc main_arg17) := kept_by hostOps0_3
    _ = W2 m ρ c (Proc.devRef .tc main_arg17) := kept_by hostOps0_2
    _ = W1 m ρ c (Proc.devRef .tc main_arg17) := kept_by hostOps0_1
    _ = W0 m ρ c (Proc.devRef .tc main_arg17) := kept_by hostOps0
    _ = m ((c.tc : Thread nD τ).loc main_arg17) := rfl

/-- The second gather does not write the first gather's result. -/
private theorem W9_gathered : W9 (F := Ideal) m ρ c (Proc.devRef .tc main_v10) = W8 m ρ c (Proc.devRef .tc main_v10) :=
  kept_by hostOps1_1

/-- The first gather writes neither the edge kernel's second result nor the positions. -/
private theorem W8_weights : W8 (F := Ideal) m ρ c (Proc.devRef .tc main_v9_1) = W7 m ρ c (Proc.devRef .tc main_v9_1) :=
  kept_by hostOps1
private theorem W8_pos : W8 (F := Ideal) m ρ c (Proc.devRef .tc main_arg16) = W7 m ρ c (Proc.devRef .tc main_arg16) :=
  kept_by hostOps1

/-- At the node kernel's entry the summed weighted messages are the reference's scatter-add of its gather of the edge
    kernel's first result. -/
theorem entry_agg (h16 : InRange 1000000#32 (m ((c.tc : Thread nD τ).loc main_arg16) : IVec S2000000 32)) :
    (V10 m ρ c main_v17 : Vec Ideal S100000x64 .f32)
      = Host.scatterAdd (F := Ideal) (φ := .f32) Cert.ReferenceIdeal.scatter_S100000x64_S2000000x1_S2000000x64_1_0_0_1 (Cert.ReferenceIdeal.Read.val_main_v91 (F := Ideal))
          (Cert.ReferenceIdeal.Read.val_main_v92 (F := Ideal) (m ((c.tc : Thread nD τ).loc main_arg17)))
          (Host.gather Cert.ReferenceIdeal.gather_S1000000x64_S2000000x1_S2000000x64_1_0_n_n_0_1_164
            (V7 m ρ c main_v9_0 : Vec Ideal S1000000x64 .f32) (Cert.ReferenceIdeal.Read.val_main_v86 (F := Ideal) (m ((c.tc : Thread nD τ).loc main_arg16)))) := by
  have h16' : InRange 1000000#32 ((TRef.of main_arg16 : TRef sig ⟨S2000000, .i32⟩).ofBuf (W7 (F := Ideal) m ρ c (Proc.devRef .tc main_arg16))) := by
    rw [W7_pos, ofBuf_pos]; exact h16
  have e := take_agg (W7 (F := Ideal) m ρ c) h16'
  rw [W7_pos, ofBuf_pos, ofBuf_msgs] at e
  refine (scatter_agg (W9 (F := Ideal) m ρ c)).trans ?_
  rw [W9_tgt, W9_gathered]
  refine congrArg (Host.scatterAdd _ _ _) ?_
  exact e.trans (toBuf_gathered _)

/-- At the node kernel's entry the summed weights are the reference's scatter-add of its gather of the edge kernel's
    second result. -/
theorem entry_sum (h16 : InRange 1000000#32 (m ((c.tc : Thread nD τ).loc main_arg16) : IVec S2000000 32)) :
    (V10 m ρ c main_v14 : Vec Ideal S100000x1 .f32)
      = Host.scatterAdd (F := Ideal) (φ := .f32) Cert.ReferenceIdeal.scatter_S100000x1_S2000000x1_S2000000x1_1_0_0_1 (Cert.ReferenceIdeal.Read.val_main_v88 (F := Ideal))
          (Cert.ReferenceIdeal.Read.val_main_v89 (F := Ideal) (m ((c.tc : Thread nD τ).loc main_arg17)))
          (Host.gather Cert.ReferenceIdeal.gather_S1000000x1_S2000000x1_S2000000x1_1_0_n_n_0_1_11
            (V7 m ρ c main_v9_1 : Vec Ideal S1000000x1 .f32) (Cert.ReferenceIdeal.Read.val_main_v79 (F := Ideal) (m ((c.tc : Thread nD τ).loc main_arg16)))) := by
  have h16' : InRange 1000000#32 ((TRef.of main_arg16 : TRef sig ⟨S2000000, .i32⟩).ofBuf (W8 (F := Ideal) m ρ c (Proc.devRef .tc main_arg16))) := by
    rw [W8_pos, W7_pos, ofBuf_pos]; exact h16
  have e := take_sum (W8 (F := Ideal) m ρ c) h16'
  rw [W8_pos, W7_pos, ofBuf_pos, W8_weights, ofBuf_weights] at e
  refine (scatter_sum (W9 (F := Ideal) m ρ c)).trans ?_
  rw [W9_tgt]
  refine congrArg (Host.scatterAdd _ _ _) ?_
  exact e.trans (toBuf_gatheredW _)

/-- At the node kernel's entry the matrix `Wh` is as launched. -/
theorem entry_Wh : (V10 m ρ c main_arg6 : Vec Ideal S64x64 .f32) = m ((c.tc : Thread nD τ).loc main_arg6) :=
  calc W10 (F := Ideal) m ρ c (Proc.devRef .tc main_arg6)
    _ = W9 m ρ c (Proc.devRef .tc main_arg6) := kept_by hostOps1_2
    _ = W8 m ρ c (Proc.devRef .tc main_arg6) := kept_by hostOps1_1
    _ = W7 m ρ c (Proc.devRef .tc main_arg6) := kept_by hostOps1
    _ = m ((c.tc : Thread nD τ).loc main_arg6) := W7_Wh m ρ c

end Cert.KernelIdeal.HostReads

end
-- ==== Proof.HostQuery.lean ====
/-
  The query embeddings: a gather, by the edges' (resp. the nodes') query numbers, of the gather of the relation table
  by the queries' relations; both with the fill rule, which under the ranges is the plain gather of the reference. The
  nodes' query embeddings are written before the first kernel and touched by nothing after: the second result.
-/
import proofs.«402694_j55310588838560_3_alg».proof.Proof.Gen.KernelIdeal.Frame
import proofs.«402694_j55310588838560_3_alg».proof.Proof.Gen.ReferenceIdeal.Read
import proofs.«402694_j55310588838560_3_alg».proof.Proof.LibTake
import proofs.«402694_j55310588838560_3_alg».proof.Proof.EdgeMath
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads

open Cert.KernelIdeal Cert.KernelIdeal.Gen Idealize.ShloMosaic Idealize.ShloMosaic.TcCoe Idealize.ShloMosaic.ValueIdx Idealize.SL.Sem
open Idealize.ShloMosaic.StableHlo Cert.LibTake

variable (m : (ℓ : Loc nD τ sig) → Buf (Elt Ideal) ℓ) (ρ : Dev nD → PrngReg) (c : Dev nD)

/-- A buffer that none of a stretch's operations writes keeps its contents over the stretch. -/
local macro "unwritten" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Contents moved to a buffer's own type and back are the contents. -/
private theorem ofBuf_toBuf {Val : EltTy → Type} {T : BufTy} (x : TRef sig T) (v : T.Contents Val) : x.ofBuf (x.toBuf v) = v := by
  obtain ⟨r, rfl, h2, h3⟩ := x; rfl

/-- One filled gather's operations: with every index in range, the plain gather by the wrapped index column. -/
private theorem take2_eq (V : Valuation τ sig (Elt Ideal))
    (h : InRange 401#32 ((TRef.of main_arg12 : TRef sig ⟨S512, .i32⟩).ofBuf (V (Proc.devRef .tc main_arg12)))) :
    StableHlo.after (hostOps0_2 (F := Ideal)) V (Proc.devRef .tc main_v2)
      = (TRef.of main_v2 : TRef sig ⟨S512x64, .f32⟩).toBuf
          (Host.gather gather_S401x64_S512x1_S512x64_1_0_n_n_0_1_164
            ((TRef.of main_arg1 : TRef sig ⟨S401x64, .f32⟩).ofBuf (V (Proc.devRef .tc main_arg1)))
            (broadcastInDim S512x1 ![0] bcast_S512_S512x1_0
              (select (cmpi .slt ((TRef.of main_arg12 : TRef sig ⟨S512, .i32⟩).ofBuf (V (Proc.devRef .tc main_arg12))) (broadcastInDim S512 ![] bcast_S_S512 (constantI S_ 32 0#32)))
                (addi ((TRef.of main_arg12 : TRef sig ⟨S512, .i32⟩).ofBuf (V (Proc.devRef .tc main_arg12))) (broadcastInDim S512 ![] bcast_S_S512 (constantI S_ 32 401#32)))
                ((TRef.of main_arg12 : TRef sig ⟨S512, .i32⟩).ofBuf (V (Proc.devRef .tc main_arg12)))))) := by
  dsimp only [hostOps0_2]
  after_results_simp
  simp only [ofBuf_toBuf]
  exact congrArg _ (select_mask_eq 401#32 400#32 (by decide) (by decide) (by decide) _ h _ _ _ _ _ _ _ _ _ _)

/-- One filled gather's operations: with every index in range, the plain gather by the wrapped index column. -/
private theorem take3_eq (V : Valuation τ sig (Elt Ideal))
    (h : InRange 512#32 ((TRef.of main_arg13 : TRef sig ⟨S1000000, .i32⟩).ofBuf (V (Proc.devRef .tc main_arg13)))) :
    StableHlo.after (hostOps0_3 (F := Ideal)) V (Proc.devRef .tc main_v3)
      = (TRef.of main_v3 : TRef sig ⟨S1000000x64, .f32⟩).toBuf
          (Host.gather gather_S512x64_S1000000x1_S1000000x64_1_0_n_n_0_1_164
            ((TRef.of main_v2 : TRef sig ⟨S512x64, .f32⟩).ofBuf (V (Proc.devRef .tc main_v2)))
            (broadcastInDim S1000000x1 ![0] bcast_S1000000_S1000000x1_0
              (select (cmpi .slt ((TRef.of main_arg13 : TRef sig ⟨S1000000, .i32⟩).ofBuf (V (Proc.devRef .tc main_arg13))) (broadcastInDim S1000000 ![] bcast_S_S1000000 (constantI S_ 32 0#32)))
                (addi ((TRef.of main_arg13 : TRef sig ⟨S1000000, .i32⟩).ofBuf (V (Proc.devRef .tc main_arg13))) (broadcastInDim S1000000 ![] bcast_S_S1000000 (constantI S_ 32 512#32)))
                ((TRef.of main_arg13 : TRef sig ⟨S1000000, .i32⟩).ofBuf (V (Proc.devRef .tc main_arg13)))))) := by
  dsimp only [hostOps0_3]
  after_results_simp
  simp only [ofBuf_toBuf]
  exact congrArg _ (select_mask_eq 512#32 511#32 (by decide) (by decide) (by decide) _ h _ _ _ _ _ _ _ _ _ _)

/-- One filled gather's operations: with every index in range, the plain gather by the wrapped index column. -/
private theorem take4_eq (V : Valuation τ sig (Elt Ideal))
    (h : InRange 512#32 ((TRef.of main_arg18 : TRef sig ⟨S100000, .i32⟩).ofBuf (V (Proc.devRef .tc main_arg18)))) :
    StableHlo.after (hostOps0_4 (F := Ideal)) V (Proc.devRef .tc main_v4)
      = (TRef.of main_v4 : TRef sig ⟨S100000x64, .f32⟩).toBuf
          (Host.gather gather_S512x64_S100000x1_S100000x64_1_0_n_n_0_1_164
            ((TRef.of main_v2 : TRef sig ⟨S512x64, .f32⟩).ofBuf (V (Proc.devRef .tc main_v2)))
            (broadcastInDim S100000x1 ![0] bcast_S100000_S100000x1_0
              (select (cmpi .slt ((TRef.of main_arg18 : TRef sig ⟨S100000, .i32⟩).ofBuf (V (Proc.devRef .tc main_arg18))) (broadcastInDim S100000 ![] bcast_S_S100000 (constantI S_ 32 0#32)))
                (addi ((TRef.of main_arg18 : TRef sig ⟨S100000, .i32⟩).ofBuf (V (Proc.devRef .tc main_arg18))) (broadcastInDim S100000 ![] bcast_S_S100000 (constantI S_ 32 512#32)))
                ((TRef.of main_arg18 : TRef sig ⟨S100000, .i32⟩).ofBuf (V (Proc.devRef .tc main_arg18)))))) := by
  dsimp only [hostOps0_4]
  after_results_simp
  simp only [ofBuf_toBuf]
  exact congrArg _ (select_mask_eq 512#32 511#32 (by decide) (by decide) (by decide) _ h _ _ _ _ _ _ _ _ _ _)

/-- The relation table and the queries' relations are as launched when the first query gather starts. -/
private theorem W2_main_arg1 : W2 m ρ c (Proc.devRef .tc main_arg1) = m ((c.tc : Thread nD τ).loc main_arg1) :=
  calc W2 m ρ c (Proc.devRef .tc main_arg1)
    _ = W1 m ρ c (Proc.devRef .tc main_arg1) := by unwritten hostOps0_1
    _ = W0 m ρ c (Proc.devRef .tc main_arg1) := by unwritten hostOps0
    _ = m ((c.tc : Thread nD τ).loc main_arg1) := rfl
private theorem W2_main_arg12 : W2 m ρ c (Proc.devRef .tc main_arg12) = m ((c.tc : Thread nD τ).loc main_arg12) :=
  calc W2 m ρ c (Proc.devRef .tc main_arg12)
    _ = W1 m ρ c (Proc.devRef .tc main_arg12) := by unwritten hostOps0_1
    _ = W0 m ρ c (Proc.devRef .tc main_arg12) := by unwritten hostOps0
    _ = m ((c.tc : Thread nD τ).loc main_arg12) := rfl
/-- The edges' query numbers are as launched when their gather starts. -/
private theorem W3_main_arg13 : W3 m ρ c (Proc.devRef .tc main_arg13) = m ((c.tc : Thread nD τ).loc main_arg13) :=
  calc W3 m ρ c (Proc.devRef .tc main_arg13)
    _ = W2 m ρ c (Proc.devRef .tc main_arg13) := by unwritten hostOps0_2
    _ = W1 m ρ c (Proc.devRef .tc main_arg13) := by unwritten hostOps0_1
    _ = W0 m ρ c (Proc.devRef .tc main_arg13) := by unwritten hostOps0
    _ = m ((c.tc : Thread nD τ).loc main_arg13) := rfl
/-- The nodes' query numbers are as launched when their gather starts. -/
private theorem W4_main_arg18 : W4 m ρ c (Proc.devRef .tc main_arg18) = m ((c.tc : Thread nD τ).loc main_arg18) :=
  calc W4 m ρ c (Proc.devRef .tc main_arg18)
    _ = W3 m ρ c (Proc.devRef .tc main_arg18) := by unwritten hostOps0_3
    _ = W2 m ρ c (Proc.devRef .tc main_arg18) := by unwritten hostOps0_2
    _ = W1 m ρ c (Proc.devRef .tc main_arg18) := by unwritten hostOps0_1
    _ = W0 m ρ c (Proc.devRef .tc main_arg18) := by unwritten hostOps0
    _ = m ((c.tc : Thread nD τ).loc main_arg18) := rfl

/-- The queries' relation embeddings: under the range the filled gather is the reference's gather. -/
private theorem W3_main_v2 (h12 : InRange 401#32 (m ((c.tc : Thread nD τ).loc main_arg12) : IVec S512 32)) :
    (W3 m ρ c (Proc.devRef .tc main_v2) : Vec Ideal S512x64 .f32)
      = Cert.ReferenceIdeal.Read.val_main_v20 (F := Ideal) (m ((c.tc : Thread nD τ).loc main_arg1)) (m ((c.tc : Thread nD τ).loc main_arg12)) := by
  have h : InRange 401#32 ((TRef.of main_arg12 : TRef sig ⟨S512, .i32⟩).ofBuf (W2 m ρ c (Proc.devRef .tc main_arg12))) := by
    rw [W2_main_arg12]; exact h12
  refine (take2_eq (W2 m ρ c) h).trans ?_
  rw [W2_main_arg1, W2_main_arg12]
  rfl

/-- The edges' query embeddings: a gather of the queries' relation embeddings, again plain under the range. -/
private theorem W4_main_v3 (h12 : InRange 401#32 (m ((c.tc : Thread nD τ).loc main_arg12) : IVec S512 32)) (h13 : InRange 512#32 (m ((c.tc : Thread nD τ).loc main_arg13) : IVec S1000000 32)) :
    (W4 m ρ c (Proc.devRef .tc main_v3) : Vec Ideal S1000000x64 .f32)
      = Cert.ReferenceIdeal.Read.val_main_v27 (F := Ideal) (m ((c.tc : Thread nD τ).loc main_arg1)) (m ((c.tc : Thread nD τ).loc main_arg12)) (m ((c.tc : Thread nD τ).loc main_arg13)) := by
  have h : InRange 512#32 ((TRef.of main_arg13 : TRef sig ⟨S1000000, .i32⟩).ofBuf (W3 m ρ c (Proc.devRef .tc main_arg13))) := by
    rw [W3_main_arg13]; exact h13
  refine (take3_eq (W3 m ρ c) h).trans ?_
  rw [W3_main_v2 m ρ c h12, W3_main_arg13]
  rfl

/-- The nodes' query embeddings: a gather of the queries' relation embeddings, again plain under the range. -/
private theorem W5_main_v4 (h12 : InRange 401#32 (m ((c.tc : Thread nD τ).loc main_arg12) : IVec S512 32)) (h18 : InRange 512#32 (m ((c.tc : Thread nD τ).loc main_arg18) : IVec S100000 32)) :
    (W5 m ρ c (Proc.devRef .tc main_v4) : Vec Ideal S100000x64 .f32)
      = Cert.ReferenceIdeal.Read.val_main_v34 (F := Ideal) (m ((c.tc : Thread nD τ).loc main_arg1)) (m ((c.tc : Thread nD τ).loc main_arg12)) (m ((c.tc : Thread nD τ).loc main_arg18)) := by
  have h : InRange 512#32 ((TRef.of main_arg18 : TRef sig ⟨S100000, .i32⟩).ofBuf (W4 m ρ c (Proc.devRef .tc main_arg18))) := by
    rw [W4_main_arg18]; exact h18
  have h2 : W4 m ρ c (Proc.devRef .tc main_v2) = W3 m ρ c (Proc.devRef .tc main_v2) := by unwritten hostOps0_3
  refine (take4_eq (W4 m ρ c) h).trans ?_
  rw [h2, W3_main_v2 m ρ c h12, W4_main_arg18]
  rfl

/-- At the edge kernel's entry the query embeddings are the reference's gather of a gather. -/
theorem entry_hqr (h12 : InRange 401#32 (m ((c.tc : Thread nD τ).loc main_arg12) : IVec S512 32)) (h13 : InRange 512#32 (m ((c.tc : Thread nD τ).loc main_arg13) : IVec S1000000 32)) :
    (V6 m ρ c main_v3 : Vec Ideal S1000000x64 .f32)
      = Cert.ReferenceIdeal.Read.val_main_v27 (F := Ideal) (m ((c.tc : Thread nD τ).loc main_arg1)) (m ((c.tc : Thread nD τ).loc main_arg12)) (m ((c.tc : Thread nD τ).loc main_arg13)) := by
  calc (V6 m ρ c main_v3 : Vec Ideal S1000000x64 .f32)
    _ = W5 m ρ c (Proc.devRef .tc main_v3) := by unwritten hostOps0_5
    _ = W4 m ρ c (Proc.devRef .tc main_v3) := by unwritten hostOps0_4
    _ = _ := W4_main_v3 m ρ c h12 h13

/-- The program's second result: the nodes' query embeddings, the reference's gather of a gather. -/
theorem exit_nq (h12 : InRange 401#32 (m ((c.tc : Thread nD τ).loc main_arg12) : IVec S512 32)) (h18 : InRange 512#32 (m ((c.tc : Thread nD τ).loc main_arg18) : IVec S100000 32)) :
    (W11 m ρ c (Proc.devRef .tc main_v4) : Vec Ideal S100000x64 .f32)
      = Cert.ReferenceIdeal.Read.val_main_v34 (F := Ideal) (m ((c.tc : Thread nD τ).loc main_arg1)) (m ((c.tc : Thread nD τ).loc main_arg12)) (m ((c.tc : Thread nD τ).loc main_arg18)) := by
  calc (W11 m ρ c (Proc.devRef .tc main_v4) : Vec Ideal S100000x64 .f32)
    _ = W10 m ρ c (Proc.devRef .tc main_v4) := W11_of_ne m ρ c main_v4 (by decide)
    _ = W9 m ρ c (Proc.devRef .tc main_v4) := by unwritten hostOps1_2
    _ = W8 m ρ c (Proc.devRef .tc main_v4) := by unwritten hostOps1_1
    _ = W7 m ρ c (Proc.devRef .tc main_v4) := by unwritten hostOps1
    _ = W6 m ρ c (Proc.devRef .tc main_v4) := W7_of_ne m ρ c main_v4 (by decide)
    _ = W5 m ρ c (Proc.devRef .tc main_v4) := by unwritten hostOps0_5
    _ = _ := W5_main_v4 m ρ c h12 h18

end Cert.KernelIdeal.HostReads

end
-- ==== Proof.EdgeBody.lean ====
/-
  One block of the edge computation, read as the formulas of EdgeMath.

  At a grid point the edge kernel holds 4000 edges: blocks `x0` (source states), `x1` (relation embeddings) and
  `x2` (query embeddings), and the nine weight blocks, the four biases as one-row blocks. What it stores to its two
  output blocks is, row by row, the weighted message and the weight of EdgeMath at the rows of `x1, x2, x0`: the
  matrix products are the sums over the contracted coordinate, a change of float format is the identity, and the
  block-wide operations act entry by entry.
-/
import proofs.«402694_j55310588838560_3_alg».proof.Proof.Gen.KernelIdeal.Frame
import proofs.«402694_j55310588838560_3_alg».proof.Proof.EdgeMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeBody

open Cert.KernelIdeal Cert.KernelIdeal.Gen Idealize.ShloMosaic Idealize.ShloMosaic.TcCoe Idealize.ShloMosaic.ValueIdx
open Cert.EdgeMath

/-- The weights, by coordinates, from the weight blocks (a bias is the one row of its block). -/
def wOf (x3 : Vec Ideal S192x128 .f32) (x4 : Vec Ideal S1x128 .f32) (x5 : Vec Ideal S128x64 .f32) (x6 : Vec Ideal S1x64 .f32) (x7 x8 : Vec Ideal S64x32 .f32) (x9 : Vec Ideal S1x32 .f32) (x10 : Vec Ideal S32x1 .f32) (x11 : Vec Ideal S1x1 .f32) : Weights where
  gW k j := x3 (ix2 k j)
  gb j := x4 (ix2 0 j)
  hW k j := x5 (ix2 k j)
  hb j := x6 (ix2 0 j)
  sW k j := x7 (ix2 k j)
  qW k j := x8 (ix2 k j)
  qb j := x9 (ix2 0 j)
  aW k := x10 (ix2 k 0)
  ab := x11 (ix2 0 0)

theorem lhs_g_0 (i : S4000x128.Idx) (q : dot_S4000x192_S192x128_S4000x128_1_0_0_1_n_n.contr.Idx) :
    (dot_S4000x192_S192x128_S4000x128_1_0_0_1_n_n.lhsIdx i q 0).val = (i 0).val := by
  unfold DotDims.lhsIdx
  rw [dif_neg (show ¬(0 : Fin S4000x192.rank) ∈ dot_S4000x192_S192x128_S4000x128_1_0_0_1_n_n.lhsBatch by decide), dif_pos (show (0 : Fin S4000x192.rank) ∈ dot_S4000x192_S192x128_S4000x128_1_0_0_1_n_n.lhsNonContracting by decide)]
  rfl
theorem lhs_g_1 (i : S4000x128.Idx) (q : dot_S4000x192_S192x128_S4000x128_1_0_0_1_n_n.contr.Idx) :
    (dot_S4000x192_S192x128_S4000x128_1_0_0_1_n_n.lhsIdx i q 1).val = (q ⟨0, by decide⟩).val :=
  dot_S4000x192_S192x128_S4000x128_1_0_0_1_n_n.lhsIdx_val_of_single rfl i q
theorem rhs_g_0 (i : S4000x128.Idx) (q : dot_S4000x192_S192x128_S4000x128_1_0_0_1_n_n.contr.Idx) :
    (dot_S4000x192_S192x128_S4000x128_1_0_0_1_n_n.rhsIdx i q 0).val = (q ⟨0, by decide⟩).val :=
  dot_S4000x192_S192x128_S4000x128_1_0_0_1_n_n.rhsIdx_val_of_single rfl i q
theorem rhs_g_1 (i : S4000x128.Idx) (q : dot_S4000x192_S192x128_S4000x128_1_0_0_1_n_n.contr.Idx) :
    (dot_S4000x192_S192x128_S4000x128_1_0_0_1_n_n.rhsIdx i q 1).val = (i 1).val := by
  unfold DotDims.rhsIdx
  rw [dif_neg (show ¬(1 : Fin S192x128.rank) ∈ dot_S4000x192_S192x128_S4000x128_1_0_0_1_n_n.rhsBatch by decide), dif_pos (show (1 : Fin S192x128.rank) ∈ dot_S4000x192_S192x128_S4000x128_1_0_0_1_n_n.rhsNonContracting by decide)]
  rfl
/-- The product of a [4000, 192] block and a [192, 128] block into a zero accumulator, at an entry: the sum over the contracted coordinate. -/
theorem matmul_g {φ₁ φ₂ : FTy} (a : FVec Ideal S4000x192 φ₁) (b : FVec Ideal S192x128 φ₂) (p : Fin 4000) (j : Fin 128) :
    matmul dot_S4000x192_S192x128_S4000x128_1_0_0_1_n_n none a b (constant S4000x128 .f32 0x00000000#32) (ix2 p j) = ∑ k : Fin 192, a (ix2 p k) * b (ix2 k j) := by
  show FloatOps.matmul _ _ _ _ _ _ = _
  rw [Ideal.matmul_constant_zero_apply, ← Equiv.sum_comp (ValueIdx.contrEquiv1 dot_S4000x192_S192x128_S4000x128_1_0_0_1_n_n 192 rfl rfl).symm]
  refine Finset.sum_congr rfl fun k _ => ?_
  have hk := ValueIdx.contrEquiv1_symm_val dot_S4000x192_S192x128_S4000x128_1_0_0_1_n_n 192 rfl rfl k
  have el : dot_S4000x192_S192x128_S4000x128_1_0_0_1_n_n.lhsIdx (ix2 p j) ((ValueIdx.contrEquiv1 dot_S4000x192_S192x128_S4000x128_1_0_0_1_n_n 192 rfl rfl).symm k) = ix2 p k := funext fun a => Fin.ext (by
    match a with
    | ⟨0, _⟩ => exact lhs_g_0 _ _
    | ⟨1, _⟩ => exact (lhs_g_1 _ _).trans hk)
  have er : dot_S4000x192_S192x128_S4000x128_1_0_0_1_n_n.rhsIdx (ix2 p j) ((ValueIdx.contrEquiv1 dot_S4000x192_S192x128_S4000x128_1_0_0_1_n_n 192 rfl rfl).symm k) = ix2 k j := funext fun a => Fin.ext (by
    match a with
    | ⟨0, _⟩ => exact (rhs_g_0 _ _).trans hk
    | ⟨1, _⟩ => exact rhs_g_1 _ _)
  rw [el, er]

theorem lhs_h_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_h_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_h_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_h_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl
/-- The product of a [4000, 128] block and a [128, 64] block into a zero accumulator, at an entry: the sum over the contracted coordinate. -/
theorem matmul_h {φ₁ φ₂ : FTy} (a : FVec Ideal S4000x128 φ₁) (b : FVec Ideal S128x64 φ₂) (p : Fin 4000) (j : Fin 64) :
    matmul dot_S4000x128_S128x64_S4000x64_1_0_0_1_n_n none a b (constant S4000x64 .f32 0x00000000#32) (ix2 p j) = ∑ k : Fin 128, a (ix2 p k) * b (ix2 k j) := by
  show FloatOps.matmul _ _ _ _ _ _ = _
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p j) ((ValueIdx.contrEquiv1 dot_S4000x128_S128x64_S4000x64_1_0_0_1_n_n 128 rfl rfl).symm k) = ix2 p k := funext fun a => Fin.ext (by
    match a with
    | ⟨0, _⟩ => exact lhs_h_0 _ _
    | ⟨1, _⟩ => exact (lhs_h_1 _ _).trans hk)
  have er : dot_S4000x128_S128x64_S4000x64_1_0_0_1_n_n.rhsIdx (ix2 p j) ((ValueIdx.contrEquiv1 dot_S4000x128_S128x64_S4000x64_1_0_0_1_n_n 128 rfl rfl).symm k) = ix2 k j := funext fun a => Fin.ext (by
    match a with
    | ⟨0, _⟩ => exact (rhs_h_0 _ _).trans hk
    | ⟨1, _⟩ => exact rhs_h_1 _ _)
  rw [el, er]

theorem lhs_s_0 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
theorem lhs_s_1 (i : S4000x32.Idx) (q : dot_S4000x64_S64x32_S4000x32_1_0_0_1_n_n.contr.Idx) :
    (dot_S4000x64_S64x32_S4000x32_1_0_0_1_n_n.lhsIdx i q 1).val = (q ⟨0, by decide⟩).val :=
  dot_S4000x64_S64x32_S4000x32_1_0_0_1_n_n.lhsIdx_val_of_single rfl i q
theorem rhs_s_0 (i : S4000x32.Idx) (q : dot_S4000x64_S64x32_S4000x32_1_0_0_1_n_n.contr.Idx) :
    (dot_S4000x64_S64x32_S4000x32_1_0_0_1_n_n.rhsIdx i q 0).val = (q ⟨0, by decide⟩).val :=
  dot_S4000x64_S64x32_S4000x32_1_0_0_1_n_n.rhsIdx_val_of_single rfl i q
theorem rhs_s_1 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl
/-- The product of a [4000, 64] block and a [64, 32] block into a zero accumulator, at an entry: the sum over the contracted coordinate. -/
theorem matmul_s {φ₁ φ₂ : FTy} (a : FVec Ideal S4000x64 φ₁) (b : FVec Ideal S64x32 φ₂) (p : Fin 4000) (j : Fin 32) :
    matmul dot_S4000x64_S64x32_S4000x32_1_0_0_1_n_n none a b (constant S4000x32 .f32 0x00000000#32) (ix2 p j) = ∑ k : Fin 64, a (ix2 p k) * b (ix2 k j) := by
  show FloatOps.matmul _ _ _ _ _ _ = _
  rw [Ideal.matmul_constant_zero_apply, ← Equiv.sum_comp (ValueIdx.contrEquiv1 dot_S4000x64_S64x32_S4000x32_1_0_0_1_n_n 64 rfl rfl).symm]
  refine Finset.sum_congr rfl fun k _ => ?_
  have hk := ValueIdx.contrEquiv1_symm_val dot_S4000x64_S64x32_S4000x32_1_0_0_1_n_n 64 rfl rfl k
  have el : dot_S4000x64_S64x32_S4000x32_1_0_0_1_n_n.lhsIdx (ix2 p j) ((ValueIdx.contrEquiv1 dot_S4000x64_S64x32_S4000x32_1_0_0_1_n_n 64 rfl rfl).symm k) = ix2 p k := funext fun a => Fin.ext (by
    match a with
    | ⟨0, _⟩ => exact lhs_s_0 _ _
    | ⟨1, _⟩ => exact (lhs_s_1 _ _).trans hk)
  have er : dot_S4000x64_S64x32_S4000x32_1_0_0_1_n_n.rhsIdx (ix2 p j) ((ValueIdx.contrEquiv1 dot_S4000x64_S64x32_S4000x32_1_0_0_1_n_n 64 rfl rfl).symm k) = ix2 k j := funext fun a => Fin.ext (by
    match a with
    | ⟨0, _⟩ => exact (rhs_s_0 _ _).trans hk
    | ⟨1, _⟩ => exact rhs_s_1 _ _)
  rw [el, er]

theorem lhs_a_0 (i : S4000x1.Idx) (q : dot_S4000x32_S32x1_S4000x1_1_0_0_1_n_n.contr.Idx) :
    (dot_S4000x32_S32x1_S4000x1_1_0_0_1_n_n.lhsIdx i q 0).val = (i 0).val := by
  unfold DotDims.lhsIdx
  rw [dif_neg (show ¬(0 : Fin S4000x32.rank) ∈ dot_S4000x32_S32x1_S4000x1_1_0_0_1_n_n.lhsBatch by decide), dif_pos (show (0 : Fin S4000x32.rank) ∈ dot_S4000x32_S32x1_S4000x1_1_0_0_1_n_n.lhsNonContracting by decide)]
  rfl
theorem lhs_a_1 (i : S4000x1.Idx) (q : dot_S4000x32_S32x1_S4000x1_1_0_0_1_n_n.contr.Idx) :
    (dot_S4000x32_S32x1_S4000x1_1_0_0_1_n_n.lhsIdx i q 1).val = (q ⟨0, by decide⟩).val :=
  dot_S4000x32_S32x1_S4000x1_1_0_0_1_n_n.lhsIdx_val_of_single rfl i q
theorem rhs_a_0 (i : S4000x1.Idx) (q : dot_S4000x32_S32x1_S4000x1_1_0_0_1_n_n.contr.Idx) :
    (dot_S4000x32_S32x1_S4000x1_1_0_0_1_n_n.rhsIdx i q 0).val = (q ⟨0, by decide⟩).val :=
  dot_S4000x32_S32x1_S4000x1_1_0_0_1_n_n.rhsIdx_val_of_single rfl i q
theorem rhs_a_1 (i : S4000x1.Idx) (q : dot_S4000x32_S32x1_S4000x1_1_0_0_1_n_n.contr.Idx) :
    (dot_S4000x32_S32x1_S4000x1_1_0_0_1_n_n.rhsIdx i q 1).val = (i 1).val := by
  unfold DotDims.rhsIdx
  rw [dif_neg (show ¬(1 : Fin S32x1.rank) ∈ dot_S4000x32_S32x1_S4000x1_1_0_0_1_n_n.rhsBatch by decide), dif_pos (show (1 : Fin S32x1.rank) ∈ dot_S4000x32_S32x1_S4000x1_1_0_0_1_n_n.rhsNonContracting by decide)]
  rfl
/-- The product of a [4000, 32] block and a [32, 1] block into a zero accumulator, at an entry: the sum over the contracted coordinate. -/
theorem matmul_a {φ₁ φ₂ : FTy} (a : FVec Ideal S4000x32 φ₁) (b : FVec Ideal S32x1 φ₂) (p : Fin 4000) (j : Fin 1) :
    matmul dot_S4000x32_S32x1_S4000x1_1_0_0_1_n_n none a b (constant S4000x1 .f32 0x00000000#32) (ix2 p j) = ∑ k : Fin 32, a (ix2 p k) * b (ix2 k j) := by
  show FloatOps.matmul _ _ _ _ _ _ = _
  rw [Ideal.matmul_constant_zero_apply, ← Equiv.sum_comp (ValueIdx.contrEquiv1 dot_S4000x32_S32x1_S4000x1_1_0_0_1_n_n 32 rfl rfl).symm]
  refine Finset.sum_congr rfl fun k _ => ?_
  have hk := ValueIdx.contrEquiv1_symm_val dot_S4000x32_S32x1_S4000x1_1_0_0_1_n_n 32 rfl rfl k
  have el : dot_S4000x32_S32x1_S4000x1_1_0_0_1_n_n.lhsIdx (ix2 p j) ((ValueIdx.contrEquiv1 dot_S4000x32_S32x1_S4000x1_1_0_0_1_n_n 32 rfl rfl).symm k) = ix2 p k := funext fun a => Fin.ext (by
    match a with
    | ⟨0, _⟩ => exact lhs_a_0 _ _
    | ⟨1, _⟩ => exact (lhs_a_1 _ _).trans hk)
  have er : dot_S4000x32_S32x1_S4000x1_1_0_0_1_n_n.rhsIdx (ix2 p j) ((ValueIdx.contrEquiv1 dot_S4000x32_S32x1_S4000x1_1_0_0_1_n_n 32 rfl rfl).symm k) = ix2 k j := funext fun a => Fin.ext (by
    match a with
    | ⟨0, _⟩ => exact (rhs_a_0 _ _).trans hk
    | ⟨1, _⟩ => exact rhs_a_1 _ _)
  rw [el, er]

theorem hz : (![0, 0] : Fin 2 → Nat) = fun _ => 0 := funext fun a => by
  match a with
  | ⟨0, _⟩ => rfl
  | ⟨1, _⟩ => rfl

/-- Three blocks of 64 columns laid side by side, at an entry: the three rows laid end to end. -/
theorem join3_apply (a b c : FVec Ideal S4000x64 .f32) (p : Fin 4000) (k : Fin 192) :
    concatenate S4000x192 1 [⟨S4000x64, a⟩, ⟨S4000x64, b⟩, ⟨S4000x64, c⟩] concatenates_S4000x64_S4000x64_S4000x64_S4000x192_d1 (ix2 p k)
      = cat3 (fun q => a (ix2 p q)) (fun q => b (ix2 p q)) (fun q => c (ix2 p q)) k := by
  unfold cat3
  split
  · next h1 =>
    exact concatenate_apply_piece (1 : Fin S4000x192.rank) _ _ (ix2 p k) 0 (by simp) S4000x64 a rfl rfl 0 rfl (ix2 p ⟨k.val, h1⟩)
      (fun b hb => by
        match b with
        | ⟨0, _⟩ => rfl
        | ⟨1, _⟩ => exact absurd rfl hb) (by show 0 + k.val = k.val; omega)
  · next h1 =>
    split
    · next h2 =>
      exact concatenate_apply_piece (1 : Fin S4000x192.rank) _ _ (ix2 p k) 1 (by simp) S4000x64 b rfl rfl 64 rfl (ix2 p ⟨k.val - 64, by omega⟩)
        (fun b hb => by
          match b with
          | ⟨0, _⟩ => rfl
          | ⟨1, _⟩ => exact absurd rfl hb) (by show 64 + (k.val - 64) = k.val; omega)
    · next h2 =>
      exact concatenate_apply_piece (1 : Fin S4000x192.rank) _ _ (ix2 p k) 2 (by simp) S4000x64 c rfl rfl 128 rfl (ix2 p ⟨k.val - 128, by omega⟩)
        (fun b hb => by
          match b with
          | ⟨0, _⟩ => rfl
          | ⟨1, _⟩ => exact absurd rfl hb) (by show 128 + (k.val - 128) = k.val; have := k.isLt; omega)

/-- Two blocks of 64 columns laid side by side, at an entry: the two rows laid end to end. -/
theorem join2_apply (a b : FVec Ideal S4000x64 .f32) (p : Fin 4000) (k : Fin 128) :
    concatenate S4000x128 1 [⟨S4000x64, a⟩, ⟨S4000x64, b⟩] concatenates_S4000x64_S4000x64_S4000x128_d1 (ix2 p k)
      = cat2 (fun q => a (ix2 p q)) (fun q => b (ix2 p q)) k := by
  unfold cat2
  split
  · next h1 =>
    exact concatenate_apply_piece (1 : Fin S4000x128.rank) _ _ (ix2 p k) 0 (by simp) S4000x64 a rfl rfl 0 rfl (ix2 p ⟨k.val, h1⟩)
      (fun b hb => by
        match b with
        | ⟨0, _⟩ => rfl
        | ⟨1, _⟩ => exact absurd rfl hb) (by show 0 + k.val = k.val; omega)
  · next h1 =>
    exact concatenate_apply_piece (1 : Fin S4000x128.rank) _ _ (ix2 p k) 1 (by simp) S4000x64 b rfl rfl 64 rfl (ix2 p ⟨k.val - 64, by have := k.isLt; omega⟩)
      (fun b hb => by
        match b with
        | ⟨0, _⟩ => rfl
        | ⟨1, _⟩ => exact absurd rfl hb) (by show 64 + (k.val - 64) = k.val; omega)

/-- A column broadcast along the rows of 64, at an entry: the column's entry of that row. -/
theorem bcast_col_apply (v : FVec Ideal S4000x1 .f32) (p : Fin 4000) (q : Fin 64) :
    broadcastTo S4000x64 v broadcasts_S4000x1_S4000x64 (ix2 p q) = v (ix2 p (0 : Fin 1)) := by
  refine broadcastTo_apply v _ (ix2 p q) (ix2 p (0 : Fin 1)) fun ax => ?_
  match ax with
  | ⟨0, _⟩ => show p.val = if (4000 : Nat) = 1 then 0 else p.val; rw [if_neg (by decide)]
  | ⟨1, _⟩ => rfl

variable (x0 x1 x2 : Vec Ideal S4000x64 .f32) (x3 : Vec Ideal S192x128 .f32) (x4 : Vec Ideal S1x128 .f32) (x5 : Vec Ideal S128x64 .f32) (x6 : Vec Ideal S1x64 .f32) (x7 x8 : Vec Ideal S64x32 .f32) (x9 : Vec Ideal S1x32 .f32) (x10 : Vec Ideal S32x1 .f32) (x11 : Vec Ideal S1x1 .f32)

/-- The gate block: the logistic function of the joined block times the gate weights plus the gate bias. -/
def gateV : FVec Ideal S4000x128 .f32 :=
  logistic (addf (matmul dot_S4000x192_S192x128_S4000x128_1_0_0_1_n_n none
      (truncf .bf16 (concatenate S4000x192 1 [⟨S4000x64, shapeCast S4000x64 x1 shapeCasts_S4000x64_S4000x64⟩, ⟨S4000x64, k0_pay3 x2⟩, ⟨S4000x64, shapeCast S4000x64 x0 shapeCasts_S4000x64_S4000x64⟩] concatenates_S4000x64_S4000x64_S4000x64_S4000x192_d1) bitsLt_bf16_f32)
      (truncf .bf16 x3 bitsLt_bf16_f32) (constant S4000x128 .f32 0x00000000#32))
    (broadcastTo S4000x128 (shapeCast S1x128 x4 shapeCasts_S1x128_S1x128) broadcasts_S1x128_S4000x128))

/-- The update block: the gate block's first 64 columns. -/
def updV : FVec Ideal S4000x64 .f32 := extractStridedSlice S4000x64 ![0, 0] (gateV x0 x1 x2 x3 x4) slices_S4000x128_o0_0_S4000x64
/-- The reset block: the gate block's last 64 columns. -/
def rstV : FVec Ideal S4000x64 .f32 := extractStridedSlice S4000x64 ![0, 64] (gateV x0 x1 x2 x3 x4) slices_S4000x128_o0_64_S4000x64

/-- The candidate block. -/
def candV : FVec Ideal S4000x64 .f32 :=
  tanh (addf (matmul dot_S4000x128_S128x64_S4000x64_1_0_0_1_n_n none
      (truncf .bf16 (concatenate S4000x128 1 [⟨S4000x64, shapeCast S4000x64 x1 shapeCasts_S4000x64_S4000x64⟩, ⟨S4000x64, mulf (rstV x0 x1 x2 x3 x4) (shapeCast S4000x64 x0 shapeCasts_S4000x64_S4000x64)⟩] concatenates_S4000x64_S4000x64_S4000x128_d1) bitsLt_bf16_f32)
      (truncf .bf16 x5 bitsLt_bf16_f32) (constant S4000x64 .f32 0x00000000#32))
    (broadcastTo S4000x64 (shapeCast S1x64 x6 shapeCasts_S1x64_S1x64) broadcasts_S1x64_S4000x64))

/-- The message payload is the update block's mix of the source block and the candidate block. -/
theorem pay4_eq : k0_pay4 x0 x1 x2 x3 x4 x5 x6
    = addf (mulf (subf (broadcast S4000x64 (Scalar.ofBits .f32 0x3F800000#32)) (updV x0 x1 x2 x3 x4)) (shapeCast S4000x64 x0 shapeCasts_S4000x64_S4000x64))
        (mulf (updV x0 x1 x2 x3 x4) (candV x0 x1 x2 x3 x4 x5 x6)) := rfl

/-- A change of shape to the same shape is the identity. -/
theorem pay3_eq (x : Vec Ideal S4000x64 .f32) : k0_pay3 x = x := shapeCast_self _ _

local notation "W" => wOf x3 x4 x5 x6 x7 x8 x9 x10 x11

theorem gateV_apply (p : Fin 4000) (j : Fin 128) :
    gateV x0 x1 x2 x3 x4 (ix2 p j) = gate W (fun k => x1 (ix2 p k)) (fun k => x2 (ix2 p k)) (fun k => x0 (ix2 p k)) j := by
  rw [gate_eq_logistic]
  unfold gateV gatePre
  show Ideal.logistic (_ + _) = _
  rw [matmul_g, broadcastTo_1b_ab_apply]
  simp only [shapeCast_self, pay3_eq]
  refine congrArg Ideal.logistic (congrArg₂ (· + ·) (Finset.sum_congr rfl fun k _ => ?_) rfl)
  rw [truncf_apply, truncf_apply, join3_apply]
  simp only [shapeCast_self, pay3_eq]
  rfl

theorem updV_apply (p : Fin 4000) (q : Fin 64) :
    updV x0 x1 x2 x3 x4 (ix2 p q) = upd W (fun k => x1 (ix2 p k)) (fun k => x2 (ix2 p k)) (fun k => x0 (ix2 p k)) q := by
  unfold updV upd
  rw [slice2_axis1_apply 0 _ _ p q ⟨q.val, by omega⟩ (by show q.val = 0 + q.val; omega)]
  exact gateV_apply x0 x1 x2 x3 x4 x5 x6 x7 x8 x9 x10 x11 p _

theorem rstV_apply (p : Fin 4000) (q : Fin 64) :
    rstV x0 x1 x2 x3 x4 (ix2 p q) = rst W (fun k => x1 (ix2 p k)) (fun k => x2 (ix2 p k)) (fun k => x0 (ix2 p k)) q := by
  unfold rstV rst
  rw [slice2_axis1_apply 64 _ _ p q ⟨q.val + 64, by omega⟩ (by show q.val + 64 = 64 + q.val; omega)]
  exact gateV_apply x0 x1 x2 x3 x4 x5 x6 x7 x8 x9 x10 x11 p _

theorem candV_apply (p : Fin 4000) (q : Fin 64) :
    candV x0 x1 x2 x3 x4 x5 x6 (ix2 p q) = cand W (fun k => x1 (ix2 p k)) (fun k => x2 (ix2 p k)) (fun k => x0 (ix2 p k)) q := by
  unfold candV cand
  show Ideal.tanh (_ + _) = _
  rw [matmul_h, broadcastTo_1b_ab_apply]
  simp only [shapeCast_self]
  refine congrArg Ideal.tanh (congrArg₂ (· + ·) (Finset.sum_congr rfl fun k _ => ?_) rfl)
  rw [truncf_apply, truncf_apply, join2_apply]
  simp only [shapeCast_self, mulf_apply, rstV_apply x0 x1 x2 x3 x4 x5 x6 x7 x8 x9 x10 x11]
  rfl

/-- The message payload at an entry: the message of that row. -/
theorem pay4_apply (p : Fin 4000) (q : Fin 64) :
    k0_pay4 x0 x1 x2 x3 x4 x5 x6 (ix2 p q) = msg W (fun k => x1 (ix2 p k)) (fun k => x2 (ix2 p k)) (fun k => x0 (ix2 p k)) q := by
  rw [pay4_eq]
  unfold msg
  rw [addf_apply, mulf_apply, mulf_apply, subf_apply, broadcast_apply, shapeCast_self,
    updV_apply x0 x1 x2 x3 x4 x5 x6 x7 x8 x9 x10 x11, candV_apply x0 x1 x2 x3 x4 x5 x6 x7 x8 x9 x10 x11]
  rfl

/-- The message block times the source weights, at an entry. -/
theorem pay5_apply (p : Fin 4000) (j : Fin 32) :
    k0_pay5 x0 x1 x2 x3 x4 x5 x6 x7 (ix2 p j)
      = ∑ k : Fin 64, msg W (fun k => x1 (ix2 p k)) (fun k => x2 (ix2 p k)) (fun k => x0 (ix2 p k)) k * x7 (ix2 k j) := by
  unfold k0_pay5
  show matmul dot_S4000x64_S64x32_S4000x32_1_0_0_1_n_n none _ _ (constant S4000x32 .f32 0x00000000#32) (ix2 p j) = _
  rw [matmul_s]
  refine Finset.sum_congr rfl fun k _ => ?_
  rw [truncf_apply, truncf_apply, pay4_apply x0 x1 x2 x3 x4 x5 x6 x7 x8 x9 x10 x11]

/-- The query block in the narrower format, at an entry: the query block's entry. -/
theorem pay6_apply (p : Fin 4000) (k : Fin 64) : k0_pay6 x2 (ix2 p k) = x2 (ix2 p k) := by
  unfold k0_pay6
  show (truncf .bf16 (k0_pay3 x2) bitsLt_bf16_f32 : FVec Ideal S4000x64 .bf16) (ix2 p k) = _
  rw [truncf_apply, pay3_eq]

/-- The weight payload at an entry: the weight of that row. -/
theorem pay1_apply (p : Fin 4000) (c : Fin 1) :
    k0_pay1 (k0_pay5 x0 x1 x2 x3 x4 x5 x6 x7) (k0_pay6 x2) x8 x9 x10 x11 (ix2 p c)
      = wgt W (fun k => x1 (ix2 p k)) (fun k => x2 (ix2 p k)) (fun k => x0 (ix2 p k)) := by
  obtain rfl : c = 0 := Subsingleton.elim _ _
  unfold k0_pay1 wgt
  show Ideal.exp (_ + _) = _
  rw [matmul_a, broadcastTo_1b_ab_apply]
  simp only [shapeCast_self]
  refine congrArg Ideal.exp (congrArg₂ (· + ·) (Finset.sum_congr rfl fun k _ => ?_) rfl)
  rw [truncf_apply, truncf_apply]
  refine congrArg₂ (· * ·) ?_ rfl
  unfold hid
  show max ((_ + _) + _) _ = _
  rw [matmul_s, broadcastTo_1b_ab_apply, pay5_apply x0 x1 x2 x3 x4 x5 x6 x7 x8 x9 x10 x11]
  refine congrArg₂ max (congrArg₂ (· + ·) (congrArg₂ (· + ·) rfl (Finset.sum_congr rfl fun t _ => ?_)) rfl) rfl
  rw [truncf_apply, pay6_apply]
  rfl

/-- The block of weighted messages the body leaves: EdgeMath's, of the three input blocks. -/
theorem wmsg_block (x0 x1 x2 : Vec Ideal S4000x64 .f32) (x3 : Vec Ideal S192x128 .f32) (x4 : Vec Ideal S1x128 .f32) (x5 : Vec Ideal S128x64 .f32) (x6 : Vec Ideal S1x64 .f32) (x7 x8 : Vec Ideal S64x32 .f32) (x9 : Vec Ideal S1x32 .f32) (x10 : Vec Ideal S32x1 .f32) (x11 : Vec Ideal S1x1 .f32) :
    out0_12 (F := Ideal) x0 x1 x2 x3 x4 x5 x6 x7 x8 x9 x10 x11
      = wmsgArr (wOf x3 x4 x5 x6 x7 x8 x9 x10 x11) (R := 4000) x1 x2 x0 := by
  funext i
  obtain ⟨p, q, rfl⟩ : ∃ (p : Fin 4000) (q : Fin 64), i = ix2 p q := ⟨i 0, i 1, eq_ix2 i⟩
  unfold out0_12
  rw [View.canon_unit_zero hz]
  simp only [View.ld_unit_zero (S := S4000x64) hz, View.ld_unit_zero (S := S192x128) hz, View.ld_unit_zero (S := S1x128) hz,
    View.ld_unit_zero (S := S128x64) hz, View.ld_unit_zero (S := S1x64) hz, View.ld_unit_zero (S := S64x32) hz,
    View.ld_unit_zero (S := S1x32) hz, View.ld_unit_zero (S := S32x1) hz, View.ld_unit_zero (S := S1x1) hz]
  unfold k0_pay2
  show mulf (broadcastTo S4000x64 _ broadcasts_S4000x1_S4000x64) _ (ix2 p q) = _
  rw [mulf_apply, bcast_col_apply, pay1_apply, pay4_apply x0 x1 x2 x3 x4 x5 x6 x7 x8 x9 x10 x11]
  rfl

/-- The block of weights the body leaves: EdgeMath's, of the three input blocks. -/
theorem wgt_block (x0 x1 x2 : Vec Ideal S4000x64 .f32) (x3 : Vec Ideal S192x128 .f32) (x4 : Vec Ideal S1x128 .f32) (x5 : Vec Ideal S128x64 .f32) (x6 : Vec Ideal S1x64 .f32) (x7 x8 : Vec Ideal S64x32 .f32) (x9 : Vec Ideal S1x32 .f32) (x10 : Vec Ideal S32x1 .f32) (x11 : Vec Ideal S1x1 .f32) :
    out0_13 (F := Ideal) x0 x1 x2 x3 x4 x5 x6 x7 x8 x9 x10 x11
      = wgtArr (wOf x3 x4 x5 x6 x7 x8 x9 x10 x11) (R := 4000) x1 x2 x0 := by
  funext i
  obtain ⟨p, c, rfl⟩ : ∃ (p : Fin 4000) (c : Fin 1), i = ix2 p c := ⟨i 0, i 1, eq_ix2 i⟩
  unfold out0_13
  rw [View.canon_unit_zero hz]
  simp only [View.ld_unit_zero (S := S4000x64) hz, View.ld_unit_zero (S := S192x128) hz, View.ld_unit_zero (S := S1x128) hz,
    View.ld_unit_zero (S := S128x64) hz, View.ld_unit_zero (S := S1x64) hz, View.ld_unit_zero (S := S64x32) hz,
    View.ld_unit_zero (S := S1x32) hz, View.ld_unit_zero (S := S32x1) hz, View.ld_unit_zero (S := S1x1) hz]
  rw [pay1_apply]
  rfl

end Cert.KernelIdeal.EdgeBody

end
-- ==== Proof.EdgeArrays.lean ====
/-
  From blocks to arrays: the edge kernel's two results as whole arrays.

  The edge kernel's grid has 250 points; point `t` reads rows `4000 t … 4000 t + 3999` of the three input arrays
  and the whole of each weight array, and writes the same rows of its two results. Each written block is EdgeMath's
  array form of the three input blocks (EdgeBody), and that form is row by row, so the blocks are the restrictions of
  EdgeMath's array form of the whole input arrays; the 250 blocks cover the results.
-/
import proofs.«402694_j55310588838560_3_alg».proof.Proof.Gen.KernelIdeal.Frame
import proofs.«402694_j55310588838560_3_alg».proof.Proof.EdgeMath
import proofs.«402694_j55310588838560_3_alg».proof.Proof.EdgeBody
import Idealize.ShloMosaic.Lib.Pipeline.Value
import Idealize.ShloMosaic.Lib.ValueIdx

set_option maxRecDepth 16384

noncomputable section

namespace Cert.KernelIdeal.EdgeArrays

open Cert.KernelIdeal Cert.KernelIdeal.Gen Idealize.ShloMosaic Idealize.ShloMosaic.TcCoe Idealize.ShloMosaic.ValueIdx Idealize.SL.Sem
open Cert.EdgeMath

variable (V : (c : Dev nD) → (b : Ref sig .tc) → Buf (Elt Ideal) ((c : Thread nD τ).loc b))

/-- The weights, by coordinates, from the arrays the edge kernel finds at its entry. -/
def wA (c : Dev nD) : Weights :=
  Cert.KernelIdeal.EdgeBody.wOf (V c main_arg2) (V c main_v5) (V c main_arg4) (V c main_v6) (V c main_arg7) (V c main_arg8)
    (V c main_v7) (V c main_arg10) (V c main_v8)

/-- The printed index maps of the row windows over the grid: the block at point t is block (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- The printed index maps of the weight windows over the grid: the block at every point is block (0, 0). -/
theorem idx_weights : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

abbrev hsArr (c : Dev nD) : Vec Ideal S1000000x64 .f32 := V c main_v0
abbrev hrArr (c : Dev nD) : Vec Ideal S1000000x64 .f32 := V c main_v1
abbrev hqrArr (c : Dev nD) : Vec Ideal S1000000x64 .f32 := V c main_v3
abbrev hsBlk (c : Dev nD) (t : Fin cfg0.N) : Vec Ideal S4000x64 .f32 := iblk0 V c 0 t
abbrev hrBlk (c : Dev nD) (t : Fin cfg0.N) : Vec Ideal S4000x64 .f32 := iblk0 V c 1 t
abbrev hqrBlk (c : Dev nD) (t : Fin cfg0.N) : Vec Ideal S4000x64 .f32 := iblk0 V c 2 t

/-- Row p of point t's block of the source states is row 4000 t + p of the array. -/
theorem hsBlk_apply (c : Dev nD) (t : Fin cfg0.N) (x : S4000x64.Idx) (k : S1000000x64.Idx)
    (hk0 : (k 0).val = 4000 * t.val + (x 0).val) (hk1 : (k 1).val = (x 1).val) :
    hsBlk V c t x = hsArr V c k := by
  obtain ⟨e0, e1⟩ := (idx_rows t).1
  unfold hsBlk hsArr iblk0
  rw [View.read_apply]
  show V c main_v0 _ = V c main_v0 _
  congr 1
  funext a
  apply Fin.ext
  match a with
  | ⟨0, _⟩ => show win0_0.index t (0 : Fin 2) * 4000 + 1 * (x 0).val = (k 0).val; omega
  | ⟨1, _⟩ => show win0_0.index t (1 : Fin 2) * 64 + 1 * (x 1).val = (k 1).val; omega

/-- Row p of point t's block of the relation embeddings is row 4000 t + p of the array. -/
theorem hrBlk_apply (c : Dev nD) (t : Fin cfg0.N) (x : S4000x64.Idx) (k : S1000000x64.Idx)
    (hk0 : (k 0).val = 4000 * t.val + (x 0).val) (hk1 : (k 1).val = (x 1).val) :
    hrBlk V c t x = hrArr V c k := by
  obtain ⟨e0, e1⟩ := (idx_rows t).2.1
  unfold hrBlk hrArr iblk0
  rw [View.read_apply]
  show V c main_v1 _ = V c main_v1 _
  congr 1
  funext a
  apply Fin.ext
  match a with
  | ⟨0, _⟩ => show win0_1.index t (0 : Fin 2) * 4000 + 1 * (x 0).val = (k 0).val; omega
  | ⟨1, _⟩ => show win0_1.index t (1 : Fin 2) * 64 + 1 * (x 1).val = (k 1).val; omega

/-- Row p of point t's block of the query relation embeddings is row 4000 t + p of the array. -/
theorem hqrBlk_apply (c : Dev nD) (t : Fin cfg0.N) (x : S4000x64.Idx) (k : S1000000x64.Idx)
    (hk0 : (k 0).val = 4000 * t.val + (x 0).val) (hk1 : (k 1).val = (x 1).val) :
    hqrBlk V c t x = hqrArr V c k := by
  obtain ⟨e0, e1⟩ := (idx_rows t).2.2.1
  unfold hqrBlk hqrArr iblk0
  rw [View.read_apply]
  show V c main_v3 _ = V c main_v3 _
  congr 1
  funext a
  apply Fin.ext
  match a with
  | ⟨0, _⟩ => show win0_2.index t (0 : Fin 2) * 4000 + 1 * (x 0).val = (k 0).val; omega
  | ⟨1, _⟩ => show win0_2.index t (1 : Fin 2) * 64 + 1 * (x 1).val = (k 1).val; omega

abbrev gWArr (c : Dev nD) : Vec Ideal S192x128 .f32 := V c main_arg2
abbrev gWBlk (c : Dev nD) (t : Fin cfg0.N) : Vec Ideal S192x128 .f32 := iblk0 V c 3 t

/-- Every point's block of the gate's matrix is the whole array. -/
theorem gWBlk_eq (c : Dev nD) (t : Fin cfg0.N) : gWBlk V c t = gWArr V c := by
  obtain ⟨e0, e1⟩ := (idx_weights t).1
  funext x
  unfold gWBlk gWArr iblk0
  rw [View.read_apply]
  show V c main_arg2 _ = V c main_arg2 _
  congr 1
  funext a
  apply Fin.ext
  match a with
  | ⟨0, _⟩ => show win0_3.index t (0 : Fin 2) * 192 + 1 * (x 0).val = (x 0).val; omega
  | ⟨1, _⟩ => show win0_3.index t (1 : Fin 2) * 128 + 1 * (x 1).val = (x 1).val; omega

abbrev gbArr (c : Dev nD) : Vec Ideal S1x128 .f32 := V c main_v5
abbrev gbBlk (c : Dev nD) (t : Fin cfg0.N) : Vec Ideal S1x128 .f32 := iblk0 V c 4 t

/-- Every point's block of the gate's bias is the whole array. -/
theorem gbBlk_eq (c : Dev nD) (t : Fin cfg0.N) : gbBlk V c t = gbArr V c := by
  obtain ⟨e0, e1⟩ := (idx_weights t).2.1
  funext x
  unfold gbBlk gbArr iblk0
  rw [View.read_apply]
  show V c main_v5 _ = V c main_v5 _
  congr 1
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

abbrev hWArr (c : Dev nD) : Vec Ideal S128x64 .f32 := V c main_arg4
abbrev hWBlk (c : Dev nD) (t : Fin cfg0.N) : Vec Ideal S128x64 .f32 := iblk0 V c 5 t

/-- Every point's block of the candidate's matrix is the whole array. -/
theorem hWBlk_eq (c : Dev nD) (t : Fin cfg0.N) : hWBlk V c t = hWArr V c := by
  obtain ⟨e0, e1⟩ := (idx_weights t).2.2.1
  funext x
  unfold hWBlk hWArr iblk0
  rw [View.read_apply]
  show V c main_arg4 _ = V c main_arg4 _
  congr 1
  funext a
  apply Fin.ext
  match a with
  | ⟨0, _⟩ => show win0_5.index t (0 : Fin 2) * 128 + 1 * (x 0).val = (x 0).val; omega
  | ⟨1, _⟩ => show win0_5.index t (1 : Fin 2) * 64 + 1 * (x 1).val = (x 1).val; omega

abbrev hbArr (c : Dev nD) : Vec Ideal S1x64 .f32 := V c main_v6
abbrev hbBlk (c : Dev nD) (t : Fin cfg0.N) : Vec Ideal S1x64 .f32 := iblk0 V c 6 t

/-- Every point's block of the candidate's bias is the whole array. -/
theorem hbBlk_eq (c : Dev nD) (t : Fin cfg0.N) : hbBlk V c t = hbArr V c := by
  obtain ⟨e0, e1⟩ := (idx_weights t).2.2.2.1
  funext x
  unfold hbBlk hbArr iblk0
  rw [View.read_apply]
  show V c main_v6 _ = V c main_v6 _
  congr 1
  funext a
  apply Fin.ext
  match a with
  | ⟨0, _⟩ => show win0_6.index t (0 : Fin 2) * 1 + 1 * (x 0).val = (x 0).val; omega
  | ⟨1, _⟩ => show win0_6.index t (1 : Fin 2) * 64 + 1 * (x 1).val = (x 1).val; omega

abbrev sWArr (c : Dev nD) : Vec Ideal S64x32 .f32 := V c main_arg7
abbrev sWBlk (c : Dev nD) (t : Fin cfg0.N) : Vec Ideal S64x32 .f32 := iblk0 V c 7 t

/-- Every point's block of the score's message matrix is the whole array. -/
theorem sWBlk_eq (c : Dev nD) (t : Fin cfg0.N) : sWBlk V c t = sWArr V c := by
  obtain ⟨e0, e1⟩ := (idx_weights t).2.2.2.2.1
  funext x
  unfold sWBlk sWArr iblk0
  rw [View.read_apply]
  show V c main_arg7 _ = V c main_arg7 _
  congr 1
  funext a
  apply Fin.ext
  match a with
  | ⟨0, _⟩ => show win0_7.index t (0 : Fin 2) * 64 + 1 * (x 0).val = (x 0).val; omega
  | ⟨1, _⟩ => show win0_7.index t (1 : Fin 2) * 32 + 1 * (x 1).val = (x 1).val; omega

abbrev qWArr (c : Dev nD) : Vec Ideal S64x32 .f32 := V c main_arg8
abbrev qWBlk (c : Dev nD) (t : Fin cfg0.N) : Vec Ideal S64x32 .f32 := iblk0 V c 8 t

/-- Every point's block of the score's query matrix is the whole array. -/
theorem qWBlk_eq (c : Dev nD) (t : Fin cfg0.N) : qWBlk V c t = qWArr V c := by
  obtain ⟨e0, e1⟩ := (idx_weights t).2.2.2.2.2.1
  funext x
  unfold qWBlk qWArr iblk0
  rw [View.read_apply]
  show V c main_arg8 _ = V c main_arg8 _
  congr 1
  funext a
  apply Fin.ext
  match a with
  | ⟨0, _⟩ => show win0_8.index t (0 : Fin 2) * 64 + 1 * (x 0).val = (x 0).val; omega
  | ⟨1, _⟩ => show win0_8.index t (1 : Fin 2) * 32 + 1 * (x 1).val = (x 1).val; omega

abbrev qbArr (c : Dev nD) : Vec Ideal S1x32 .f32 := V c main_v7
abbrev qbBlk (c : Dev nD) (t : Fin cfg0.N) : Vec Ideal S1x32 .f32 := iblk0 V c 9 t

/-- Every point's block of the score's bias is the whole array. -/
theorem qbBlk_eq (c : Dev nD) (t : Fin cfg0.N) : qbBlk V c t = qbArr V c := by
  obtain ⟨e0, e1⟩ := (idx_weights t).2.2.2.2.2.2.1
  funext x
  unfold qbBlk qbArr iblk0
  rw [View.read_apply]
  show V c main_v7 _ = V c main_v7 _
  congr 1
  funext a
  apply Fin.ext
  match a with
  | ⟨0, _⟩ => show win0_9.index t (0 : Fin 2) * 1 + 1 * (x 0).val = (x 0).val; omega
  | ⟨1, _⟩ => show win0_9.index t (1 : Fin 2) * 32 + 1 * (x 1).val = (x 1).val; omega

abbrev aWArr (c : Dev nD) : Vec Ideal S32x1 .f32 := V c main_arg10
abbrev aWBlk (c : Dev nD) (t : Fin cfg0.N) : Vec Ideal S32x1 .f32 := iblk0 V c 10 t

/-- Every point's block of the logit's vector is the whole array. -/
theorem aWBlk_eq (c : Dev nD) (t : Fin cfg0.N) : aWBlk V c t = aWArr V c := by
  obtain ⟨e0, e1⟩ := (idx_weights t).2.2.2.2.2.2.2.1
  funext x
  unfold aWBlk aWArr iblk0
  rw [View.read_apply]
  show V c main_arg10 _ = V c main_arg10 _
  congr 1
  funext a
  apply Fin.ext
  match a with
  | ⟨0, _⟩ => show win0_10.index t (0 : Fin 2) * 32 + 1 * (x 0).val = (x 0).val; omega
  | ⟨1, _⟩ => show win0_10.index t (1 : Fin 2) * 1 + 1 * (x 1).val = (x 1).val; omega

abbrev abArr (c : Dev nD) : Vec Ideal S1x1 .f32 := V c main_v8
abbrev abBlk (c : Dev nD) (t : Fin cfg0.N) : Vec Ideal S1x1 .f32 := iblk0 V c 11 t

/-- Every point's block of the logit's bias is the whole array. -/
theorem abBlk_eq (c : Dev nD) (t : Fin cfg0.N) : abBlk V c t = abArr V c := by
  obtain ⟨e0, e1⟩ := (idx_weights t).2.2.2.2.2.2.2.2
  funext x
  unfold abBlk abArr iblk0
  rw [View.read_apply]
  show V c main_v8 _ = V c main_v8 _
  congr 1
  funext a
  apply Fin.ext
  match a with
  | ⟨0, _⟩ => show win0_11.index t (0 : Fin 2) * 1 + 1 * (x 0).val = (x 0).val; omega
  | ⟨1, _⟩ => show win0_11.index t (1 : Fin 2) * 1 + 1 * (x 1).val = (x 1).val; omega

/-- The weights read off the blocks at any point are the weights read off the arrays. -/
theorem wOf_blocks (c : Dev nD) (t : Fin cfg0.N) :
    Cert.KernelIdeal.EdgeBody.wOf (gWBlk V c t) (gbBlk V c t) (hWBlk V c t) (hbBlk V c t) (sWBlk V c t) (qWBlk V c t)
      (qbBlk V c t) (aWBlk V c t) (abBlk V c t) = wA V c := by
  rw [gWBlk_eq, gbBlk_eq, hWBlk_eq, hbBlk_eq, sWBlk_eq, qWBlk_eq, qbBlk_eq, aWBlk_eq, abBlk_eq]
  rfl

/-- The weighted messages are row by row: at two indices whose rows of the three inputs agree and whose columns agree
    the two array forms agree. -/
theorem wmsgArr_rows (w : Weights) {R R' : Nat} (a b d : (⟨2, ![R, 64]⟩ : Shape).Idx → EReal)
    (a' b' d' : (⟨2, ![R', 64]⟩ : Shape).Idx → EReal) (i : (⟨2, ![R, 64]⟩ : Shape).Idx) (i' : (⟨2, ![R', 64]⟩ : Shape).Idx)
    (ha : ∀ k : Fin 64, a (ix2 (i 0) k) = a' (ix2 (i' 0) k)) (hb : ∀ k : Fin 64, b (ix2 (i 0) k) = b' (ix2 (i' 0) k))
    (hd : ∀ k : Fin 64, d (ix2 (i 0) k) = d' (ix2 (i' 0) k)) (h1 : (i 1 : Fin 64) = (i' 1 : Fin 64)) :
    wmsgArr w a b d i = wmsgArr w a' b' d' i' := by
  unfold wmsgArr
  have ea : (fun k : Fin 64 => a (ix2 (i 0) k)) = fun k => a' (ix2 (i' 0) k) := funext ha
  have eb : (fun k : Fin 64 => b (ix2 (i 0) k)) = fun k => b' (ix2 (i' 0) k) := funext hb
  have ed : (fun k : Fin 64 => d (ix2 (i 0) k)) = fun k => d' (ix2 (i' 0) k) := funext hd
  rw [ea, eb, ed]
  exact congrArg _ h1

/-- The weights are row by row likewise. -/
theorem wgtArr_rows (w : Weights) {R R' : Nat} (a b d : (⟨2, ![R, 64]⟩ : Shape).Idx → EReal)
    (a' b' d' : (⟨2, ![R', 64]⟩ : Shape).Idx → EReal) (i : (⟨2, ![R, 1]⟩ : Shape).Idx) (i' : (⟨2, ![R', 1]⟩ : Shape).Idx)
    (ha : ∀ k : Fin 64, a (ix2 (i 0) k) = a' (ix2 (i' 0) k)) (hb : ∀ k : Fin 64, b (ix2 (i 0) k) = b' (ix2 (i' 0) k))
    (hd : ∀ k : Fin 64, d (ix2 (i 0) k) = d' (ix2 (i' 0) k)) :
    wgtArr w a b d i = wgtArr w a' b' d' i' := by
  unfold wgtArr
  have ea : (fun k : Fin 64 => a (ix2 (i 0) k)) = fun k => a' (ix2 (i' 0) k) := funext ha
  have eb : (fun k : Fin 64 => b (ix2 (i 0) k)) = fun k => b' (ix2 (i' 0) k) := funext hb
  have ed : (fun k : Fin 64 => d (ix2 (i 0) k)) = fun k => d' (ix2 (i' 0) k) := funext hd
  rw [ea, eb, ed]

/-- What point t writes back of the weighted messages is block t of EdgeMath's weighted messages of the whole arrays. -/
theorem wmsg_flushed (c : Dev nD) (t : Fin cfg0.N) :
    (dat0 (F := Ideal) V c).flushed 12 t
      = ((cfg0.win 12).blk t).view.read (Elt Ideal) (wmsgArr (wA V c) (R := 1000000) (hrArr V c) (hqrArr V c) (hsArr V c)) := by
  show (cfg0.win 12).cut (grid0.coords t) ((dat0 V c).after 12 t) = _
  rw [after0_12]
  funext y
  rw [View.read_apply]
  show out0_12 (hsBlk V c t) (hrBlk V c t) (hqrBlk V c t) (gWBlk V c t) (gbBlk V c t) (hWBlk V c t) (hbBlk V c t)
      (sWBlk V c t) (qWBlk V c t) (qbBlk V c t) (aWBlk V c t) (abBlk V c t) y
    = wmsgArr (wA V c) (R := 1000000) (hrArr V c) (hqrArr V c) (hsArr V c) (((cfg0.win 12).blk t).view.emb y)
  refine (congrFun (Cert.KernelIdeal.EdgeBody.wmsg_block (hsBlk V c t) (hrBlk V c t) (hqrBlk V c t) (gWBlk V c t) (gbBlk V c t)
    (hWBlk V c t) (hbBlk V c t) (sWBlk V c t) (qWBlk V c t) (qbBlk V c t) (aWBlk V c t) (abBlk V c t)) y).trans ?_
  rw [wOf_blocks]
  obtain ⟨e0, e1⟩ := (idx_rows t).2.2.2.1
  have he0 : ((((cfg0.win 12).blk t).view.emb y) 0).val = 4000 * t.val + (y 0).val := by
    show win0_12.index t (0 : Fin 2) * 4000 + 1 * (y 0).val = _
    omega
  have he1 : ((((cfg0.win 12).blk t).view.emb y) 1).val = (y 1).val := by
    show win0_12.index t (1 : Fin 2) * 64 + 1 * (y 1).val = _
    omega
  refine wmsgArr_rows (wA V c) (hrBlk V c t) (hqrBlk V c t) (hsBlk V c t) (hrArr V c) (hqrArr V c) (hsArr V c) y _
    (fun k => ?_) (fun k => ?_) (fun k => ?_) (Fin.ext he1.symm)
  · exact hrBlk_apply V c t _ _ he0 rfl
  · exact hqrBlk_apply V c t _ _ he0 rfl
  · exact hsBlk_apply V c t _ _ he0 rfl

/-- What point t writes back of the weights is block t of EdgeMath's weights of the whole arrays. -/
theorem wgt_flushed (c : Dev nD) (t : Fin cfg0.N) :
    (dat0 (F := Ideal) V c).flushed 13 t
      = ((cfg0.win 13).blk t).view.read (Elt Ideal) (wgtArr (wA V c) (R := 1000000) (hrArr V c) (hqrArr V c) (hsArr V c)) := by
  show (cfg0.win 13).cut (grid0.coords t) ((dat0 V c).after 13 t) = _
  rw [after0_13]
  funext y
  rw [View.read_apply]
  show out0_13 (hsBlk V c t) (hrBlk V c t) (hqrBlk V c t) (gWBlk V c t) (gbBlk V c t) (hWBlk V c t) (hbBlk V c t)
      (sWBlk V c t) (qWBlk V c t) (qbBlk V c t) (aWBlk V c t) (abBlk V c t) y
    = wgtArr (wA V c) (R := 1000000) (hrArr V c) (hqrArr V c) (hsArr V c) (((cfg0.win 13).blk t).view.emb y)
  refine (congrFun (Cert.KernelIdeal.EdgeBody.wgt_block (hsBlk V c t) (hrBlk V c t) (hqrBlk V c t) (gWBlk V c t) (gbBlk V c t)
    (hWBlk V c t) (hbBlk V c t) (sWBlk V c t) (qWBlk V c t) (qbBlk V c t) (aWBlk V c t) (abBlk V c t)) y).trans ?_
  rw [wOf_blocks]
  obtain ⟨e0, e1⟩ := (idx_rows t).2.2.2.2
  have he0 : ((((cfg0.win 13).blk t).view.emb y) 0).val = 4000 * t.val + (y 0).val := by
    show win0_13.index t (0 : Fin 2) * 4000 + 1 * (y 0).val = _
    omega
  refine wgtArr_rows (wA V c) (hrBlk V c t) (hqrBlk V c t) (hsBlk V c t) (hrArr V c) (hqrArr V c) (hsArr V c) y _
    (fun k => ?_) (fun k => ?_) (fun k => ?_)
  · exact hrBlk_apply V c t _ _ he0 rfl
  · exact hqrBlk_apply V c t _ _ he0 rfl
  · exact hsBlk_apply V c t _ _ he0 rfl

/-- An index of the array of weighted messages is in point t's block iff each coordinate is in the block's range on its axis. -/
theorem wmsg_mem_blk (t : Fin cfg0.N) (i : S1000000x64.Idx) :
    i ∈ ((cfg0.win 12).blk t).view.set ↔ ∀ a : Fin 2, win0_12.index t a * S4000x64.size a ≤ (i a).val
      ∧ (i a).val < win0_12.index t a * S4000x64.size a + S4000x64.size a := by
  show i ∈ ((View.whole main_v9_0).slice (win0_12.rect t)).set ↔ _
  rw [View.set_slice_whole, Rect.mem_set_unit]
  exact Iff.rfl

/-- An index of the array of weights is in point t's block iff each coordinate is in the block's range on its axis. -/
theorem wgt_mem_blk (t : Fin cfg0.N) (i : S1000000x1.Idx) :
    i ∈ ((cfg0.win 13).blk t).view.set ↔ ∀ a : Fin 2, win0_13.index t a * S4000x1.size a ≤ (i a).val
      ∧ (i a).val < win0_13.index t a * S4000x1.size a + S4000x1.size a := by
  show i ∈ ((View.whole main_v9_1).slice (win0_13.rect t)).set ↔ _
  rw [View.set_slice_whole, Rect.mem_set_unit]
  exact Iff.rfl

/-- Row r of the weighted messages is written back by point r / 4000: the 250 blocks cover the array. -/
theorem wmsg_cover (i : S1000000x64.Idx) :
    ∃ t : Fin cfg0.N, (cfg0.win 12).flush t = true ∧ i ∈ ((cfg0.win 12).blk t).view.set := by
  have hi0 : (i 0).val < 1000000 := (i 0).isLt
  have hi1 : (i 1).val < 64 := (i 1).isLt
  have hN : cfg0.N = 250 := N_0
  obtain ⟨t, ht⟩ : ∃ t : Fin cfg0.N, t.val = (i 0).val / 4000 := ⟨⟨(i 0).val / 4000, by rw [hN]; omega⟩, rfl⟩
  obtain ⟨e0, e1⟩ := (idx_rows t).2.2.2.1
  refine ⟨t, flush0_12 t, ?_⟩
  rw [wmsg_mem_blk]
  intro a
  match a with
  | ⟨0, _⟩ => show win0_12.index t (0 : Fin 2) * 4000 ≤ (i 0).val ∧ (i 0).val < win0_12.index t (0 : Fin 2) * 4000 + 4000; omega
  | ⟨1, _⟩ => show win0_12.index t (1 : Fin 2) * 64 ≤ (i 1).val ∧ (i 1).val < win0_12.index t (1 : Fin 2) * 64 + 64; omega

/-- Row r of the weights is written back by point r / 4000: the 250 blocks cover the array. -/
theorem wgt_cover (i : S1000000x1.Idx) :
    ∃ t : Fin cfg0.N, (cfg0.win 13).flush t = true ∧ i ∈ ((cfg0.win 13).blk t).view.set := by
  have hi0 : (i 0).val < 1000000 := (i 0).isLt
  have hi1 : (i 1).val < 1 := (i 1).isLt
  have hN : cfg0.N = 250 := N_0
  obtain ⟨t, ht⟩ : ∃ t : Fin cfg0.N, t.val = (i 0).val / 4000 := ⟨⟨(i 0).val / 4000, by rw [hN]; omega⟩, rfl⟩
  obtain ⟨e0, e1⟩ := (idx_rows t).2.2.2.2
  refine ⟨t, flush0_13 t, ?_⟩
  rw [wgt_mem_blk]
  intro a
  match a with
  | ⟨0, _⟩ => show win0_13.index t (0 : Fin 2) * 4000 ≤ (i 0).val ∧ (i 0).val < win0_13.index t (0 : Fin 2) * 4000 + 4000; omega
  | ⟨1, _⟩ => show win0_13.index t (1 : Fin 2) * 1 ≤ (i 1).val ∧ (i 1).val < win0_13.index t (1 : Fin 2) * 1 + 1; omega

/-- After the edge kernel its first result array holds EdgeMath's weighted messages of the three input arrays. -/
theorem wmsg_array (c : Dev nD) :
    (dat0 (F := Ideal) V c).arrAt 12 cfg0.N
      = wmsgArr (wA V c) (R := 1000000) (V c main_v1) (V c main_v3) (V c main_v0) :=
  (dat0 (F := Ideal) V c).arrAt_eq_of_cover 12 (wmsgArr (wA V c) (R := 1000000) (hrArr V c) (hqrArr V c) (hsArr V c))
    (fun t _ => wmsg_flushed V c t) wmsg_cover

/-- After the edge kernel its second result array holds EdgeMath's weights of the three input arrays. -/
theorem wgt_array (c : Dev nD) :
    (dat0 (F := Ideal) V c).arrAt 13 cfg0.N
      = wgtArr (wA V c) (R := 1000000) (V c main_v1) (V c main_v3) (V c main_v0) :=
  (dat0 (F := Ideal) V c).arrAt_eq_of_cover 13 (wgtArr (wA V c) (R := 1000000) (hrArr V c) (hqrArr V c) (hsArr V c))
    (fun t _ => wgt_flushed V c t) wgt_cover

end Cert.KernelIdeal.EdgeArrays

end
-- ==== Proof.RefEdge.lean ====
/-
  The reference's edge stage, read as the formulas of EdgeMath.

  The reference computes, for all 1,000,000 unique edges at once, the weighted messages and the weights from the
  three gathered arrays (relation embeddings, query embeddings, source states) and the weights and biases. Read at an
  index these are EdgeMath's weighted message and weight at the rows of the gathered arrays: each matrix product is a
  sum over the contracted coordinate, the logistic function is spelled as the quotient `1 / (1 + e^(-x))`, the
  gate's halves are slices, the two joins lay rows end to end. The gathered arrays themselves are not opened.
-/
import proofs.«402694_j55310588838560_3_alg».proof.Proof.Gen.ReferenceIdeal.Read
import proofs.«402694_j55310588838560_3_alg».proof.Proof.EdgeMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefEdge

open Cert.ReferenceIdeal Cert.ReferenceIdeal.Gen Cert.ReferenceIdeal.Read
open Idealize.ShloMosaic Idealize.ShloMosaic.TcCoe Idealize.ShloMosaic.ValueIdx
open Cert.EdgeMath

/-- The weights, by coordinates, from the argument arrays. -/
def wRef (x2 : (⟨S192x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x7 x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) : Weights where
  gW k j := x2 (ix2 k j)
  gb j := x3 (ix1 j)
  hW k j := x4 (ix2 k j)
  hb j := x5 (ix1 j)
  sW k j := x7 (ix2 k j)
  qW k j := x8 (ix2 k j)
  qb j := x9 (ix1 j)
  aW k := x10 (ix2 k 0)
  ab := x11 (ix1 0)

section Rows

variable (x0 : (⟨S100000x64, .f32⟩ : BufTy).Contents (Elt Ideal)) (x1 : (⟨S401x64, .f32⟩ : BufTy).Contents (Elt Ideal)) (x2 : (⟨S192x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x7 x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) (x12 : (⟨S512, .i32⟩ : BufTy).Contents (Elt Ideal)) (x13 x14 x15 : (⟨S1000000, .i32⟩ : BufTy).Contents (Elt Ideal))

/-- Row `r` of the gathered relation embeddings, query embeddings and source states. -/
abbrev hrRow (r : Fin 1000000) : Fin 64 → EReal := fun k => val_main_v13 (F := Ideal) x1 x14 (ix2 r k)
abbrev hqrRow (r : Fin 1000000) : Fin 64 → EReal := fun k => val_main_v27 (F := Ideal) x1 x12 x13 (ix2 r k)
abbrev hsRow (r : Fin 1000000) : Fin 64 → EReal := fun k => val_main_v6 (F := Ideal) x0 x15 (ix2 r k)

/-- The join of the three gathered arrays, at row `r`, is the three rows laid end to end. -/
theorem v35_at (r : Fin 1000000) (k : Fin 192) :
    val_main_v35 (F := Ideal) x0 x1 x12 x13 x14 x15 (ix2 r k)
      = cat3 (hrRow x1 x14 r) (hqrRow x1 x12 x13 r) (hsRow x0 x15 r) k := by
  unfold val_main_v35 cat3
  by_cases h1 : k.val < 64
  · rw [dif_pos h1]
    exact concatenate_apply_piece 1 _ _ (ix2 r k) 0 (by show (0 : Nat) < 3; decide) S1000000x64 _ rfl rfl 0 rfl (ix2 r ⟨k.val, h1⟩)
      (fun b hb => by match b with | ⟨0, _⟩ => rfl | ⟨1, _⟩ => exact absurd rfl hb) (by show 0 + k.val = k.val; omega)
  · rw [dif_neg h1]
    by_cases h2 : k.val < 128
    · rw [dif_pos h2]
      exact concatenate_apply_piece 1 _ _ (ix2 r k) 1 (by show (1 : Nat) < 3; decide) S1000000x64 _ rfl rfl 64 rfl (ix2 r ⟨k.val - 64, by omega⟩)
        (fun b hb => by match b with | ⟨0, _⟩ => rfl | ⟨1, _⟩ => exact absurd rfl hb) (by show 64 + (k.val - 64) = k.val; omega)
    · rw [dif_neg h2]
      exact concatenate_apply_piece 1 _ _ (ix2 r k) 2 (by show (2 : Nat) < 3; decide) S1000000x64 _ rfl rfl 128 rfl (ix2 r ⟨k.val - 128, by omega⟩)
        (fun b hb => by match b with | ⟨0, _⟩ => rfl | ⟨1, _⟩ => exact absurd rfl hb) (by show 128 + (k.val - 128) = k.val; omega)

/-- The gate's argument at row `r`. -/
theorem v39_at (r : Fin 1000000) (j : Fin 128) :
    val_main_v39 (F := Ideal) x0 x1 x2 x3 x12 x13 x14 x15 (ix2 r j)
      = gatePre (wRef x2 x3 x4 x5 x7 x8 x9 x10 x11) (hrRow x1 x14 r) (hqrRow x1 x12 x13 r) (hsRow x0 x15 r) j := by
  have el : ∀ k : Fin 192, lidx_main_v36 (ix2 r j) k = ix2 r k := fun k =>
    funext fun a => by match a with | ⟨0, _⟩ => rfl | ⟨1, _⟩ => rfl
  have er : ∀ k : Fin 192, ridx_main_v36 (ix2 r j) k = ix2 k j := fun k =>
    funext fun a => by match a with | ⟨0, _⟩ => rfl | ⟨1, _⟩ => rfl
  have eb : idx_main_v37 (idx_main_v38 (ix2 r j)) = ix1 j :=
    funext fun a => by match a with | ⟨0, _⟩ => rfl
  rw [val_main_v39_apply, val_main_v36_apply, val_main_v38_apply, val_main_v37_apply, eb]
  unfold gatePre
  rw [Ideal.addf_def]
  refine congrArg₂ (· + ·) (Finset.sum_congr rfl fun k _ => ?_) rfl
  rw [el, er, v35_at]
  rfl

/-- The gate at row `r`: the quotient of the word of one by one plus the exponential of the negated argument. -/
theorem v45_at (r : Fin 1000000) (j : Fin 128) :
    val_main_v45 (F := Ideal) x0 x1 x2 x3 x12 x13 x14 x15 (ix2 r j)
      = gate (wRef x2 x3 x4 x5 x7 x8 x9 x10 x11) (hrRow x1 x14 r) (hqrRow x1 x12 x13 r) (hsRow x0 x15 r) j := by
  rw [val_main_v45_apply, val_main_v44_apply, val_main_cst_9_apply, val_main_v43_apply, val_main_v42_apply,
    val_main_cst_apply, val_main_v41_apply, val_main_v40_apply, v39_at]
  rfl

/-- The update gate at row `r`. -/
theorem v46_at (r : Fin 1000000) (q : Fin 64) :
    val_main_v46 (F := Ideal) x0 x1 x2 x3 x12 x13 x14 x15 (ix2 r q)
      = upd (wRef x2 x3 x4 x5 x7 x8 x9 x10 x11) (hrRow x1 x14 r) (hqrRow x1 x12 x13 r) (hsRow x0 x15 r) q := by
  have e : idx_main_v46 (ix2 r q) = ix2 r (⟨q.val, by omega⟩ : Fin 128) :=
    funext fun a => by match a with | ⟨0, _⟩ => rfl | ⟨1, _⟩ => rfl
  rw [val_main_v46_apply, e, v45_at]
  rfl

/-- The reset gate at row `r`. -/
theorem v47_at (r : Fin 1000000) (q : Fin 64) :
    val_main_v47 (F := Ideal) x0 x1 x2 x3 x12 x13 x14 x15 (ix2 r q)
      = rst (wRef x2 x3 x4 x5 x7 x8 x9 x10 x11) (hrRow x1 x14 r) (hqrRow x1 x12 x13 r) (hsRow x0 x15 r) q := by
  have e : idx_main_v47 (ix2 r q) = ix2 r (⟨q.val + 64, by omega⟩ : Fin 128) :=
    funext fun a => by
      match a with
      | ⟨0, _⟩ => rfl
      | ⟨1, _⟩ => exact Fin.ext (by show 64 + q.val = q.val + 64; omega)
  rw [val_main_v47_apply, e, v45_at]
  rfl

/-- The reset gate times the source state, at row `r`. -/
theorem v48_at (r : Fin 1000000) (q : Fin 64) :
    val_main_v48 (F := Ideal) x0 x1 x2 x3 x12 x13 x14 x15 (ix2 r q)
      = rst (wRef x2 x3 x4 x5 x7 x8 x9 x10 x11) (hrRow x1 x14 r) (hqrRow x1 x12 x13 r) (hsRow x0 x15 r) q
          * hsRow x0 x15 r q := by
  rw [val_main_v48_apply, v47_at]
  rfl

/-- The join of the relation embeddings and the reset source states, at row `r`, is the two rows laid end to end. -/
theorem v49_at (r : Fin 1000000) (k : Fin 128) :
    val_main_v49 (F := Ideal) x0 x1 x2 x3 x12 x13 x14 x15 (ix2 r k)
      = cat2 (hrRow x1 x14 r)
          (fun q => rst (wRef x2 x3 x4 x5 x7 x8 x9 x10 x11) (hrRow x1 x14 r) (hqrRow x1 x12 x13 r) (hsRow x0 x15 r) q
            * hsRow x0 x15 r q) k := by
  unfold val_main_v49 cat2
  by_cases h1 : k.val < 64
  · rw [dif_pos h1]
    exact concatenate_pair_apply_left (t := S1000000x128) (s₁ := S1000000x64) (s₂ := S1000000x64) 1 _ _ _ (ix2 r k) rfl
      (ix2 r (⟨k.val, h1⟩ : Fin 64))
      (fun b => by match b with | ⟨0, _⟩ => rfl | ⟨1, _⟩ => rfl)
  · rw [dif_neg h1]
    refine (concatenate_pair_apply_right (t := S1000000x128) (s₁ := S1000000x64) (s₂ := S1000000x64) 1 _ _ _ (ix2 r k) rfl rfl
      (ix2 r (⟨k.val - 64, by omega⟩ : Fin 64))
      (fun b hb => by match b with | ⟨0, _⟩ => rfl | ⟨1, _⟩ => exact absurd rfl hb)
      (by show (k.val - 64) + 64 = k.val; omega)).trans ?_
    exact v48_at x0 x1 x2 x3 x4 x5 x7 x8 x9 x10 x11 x12 x13 x14 x15 r ⟨k.val - 64, by omega⟩

/-- The candidate state at row `r`. -/
theorem v54_at (r : Fin 1000000) (q : Fin 64) :
    val_main_v54 (F := Ideal) x0 x1 x2 x3 x4 x5 x12 x13 x14 x15 (ix2 r q)
      = cand (wRef x2 x3 x4 x5 x7 x8 x9 x10 x11) (hrRow x1 x14 r) (hqrRow x1 x12 x13 r) (hsRow x0 x15 r) q := by
  have el : ∀ k : Fin 128, lidx_main_v50 (ix2 r q) k = ix2 r k := fun k =>
    funext fun a => by match a with | ⟨0, _⟩ => rfl | ⟨1, _⟩ => rfl
  have er : ∀ k : Fin 128, ridx_main_v50 (ix2 r q) k = ix2 k q := fun k =>
    funext fun a => by match a with | ⟨0, _⟩ => rfl | ⟨1, _⟩ => rfl
  have eb : idx_main_v51 (idx_main_v52 (ix2 r q)) = ix1 q :=
    funext fun a => by match a with | ⟨0, _⟩ => rfl
  rw [val_main_v54_apply, val_main_v53_apply, val_main_v50_apply, val_main_v52_apply, val_main_v51_apply, eb]
  unfold cand
  rw [Ideal.hostUnary_tanh_def, Ideal.addf_def]
  refine congrArg Ideal.tanh (congrArg₂ (· + ·) (Finset.sum_congr rfl fun k _ => ?_) rfl)
  rw [el, er, v49_at x0 x1 x2 x3 x4 x5 x7 x8 x9 x10 x11]
  rfl

/-- The message at row `r`. -/
theorem v59_at (r : Fin 1000000) (q : Fin 64) :
    val_main_v59 (F := Ideal) x0 x1 x2 x3 x4 x5 x12 x13 x14 x15 (ix2 r q)
      = msg (wRef x2 x3 x4 x5 x7 x8 x9 x10 x11) (hrRow x1 x14 r) (hqrRow x1 x12 x13 r) (hsRow x0 x15 r) q := by
  rw [val_main_v59_apply, val_main_v57_apply, val_main_v56_apply, val_main_v55_apply, val_main_cst_10_apply,
    val_main_v58_apply, v46_at x0 x1 x2 x3 x4 x5 x7 x8 x9 x10 x11, v54_at x0 x1 x2 x3 x4 x5 x7 x8 x9 x10 x11]
  rfl

/-- The hidden layer of the attention score at row `r`. -/
theorem v66_at (r : Fin 1000000) (j : Fin 32) :
    val_main_v66 (F := Ideal) x0 x1 x2 x3 x4 x5 x7 x8 x9 x12 x13 x14 x15 (ix2 r j)
      = hid (wRef x2 x3 x4 x5 x7 x8 x9 x10 x11) (hrRow x1 x14 r) (hqrRow x1 x12 x13 r) (hsRow x0 x15 r) j := by
  have el : ∀ k : Fin 64, lidx_main_v60 (ix2 r j) k = ix2 r k := fun k =>
    funext fun a => by match a with | ⟨0, _⟩ => rfl | ⟨1, _⟩ => rfl
  have el' : ∀ k : Fin 64, lidx_main_v61 (ix2 r j) k = ix2 r k := fun k =>
    funext fun a => by match a with | ⟨0, _⟩ => rfl | ⟨1, _⟩ => rfl
  have er : ∀ k : Fin 64, ridx_main_v60 (ix2 r j) k = ix2 k j := fun k =>
    funext fun a => by match a with | ⟨0, _⟩ => rfl | ⟨1, _⟩ => rfl
  have er' : ∀ k : Fin 64, ridx_main_v61 (ix2 r j) k = ix2 k j := fun k =>
    funext fun a => by match a with | ⟨0, _⟩ => rfl | ⟨1, _⟩ => rfl
  have eb : idx_main_v63 (idx_main_v64 (ix2 r j)) = ix1 j :=
    funext fun a => by match a with | ⟨0, _⟩ => rfl
  rw [val_main_v66_apply, val_main_call0_v0_apply, val_main_call0_cst_apply, val_main_v65_apply, val_main_v62_apply,
    val_main_v60_apply, val_main_v61_apply, val_main_v64_apply, val_main_v63_apply, eb]
  unfold hid
  rw [Ideal.maximumf_def, Ideal.addf_def, Ideal.addf_def]
  refine congrArg₂ max (congrArg₂ (· + ·) (congrArg₂ (· + ·) (Finset.sum_congr rfl fun k _ => ?_)
    (Finset.sum_congr rfl fun k _ => ?_)) rfl) rfl
  · rw [el, er, v59_at x0 x1 x2 x3 x4 x5 x7 x8 x9 x10 x11]
    rfl
  · rw [el', er']
    rfl

/-- The edge's weight at row `r`. -/
theorem v71_at (r : Fin 1000000) (c : Fin 1) :
    val_main_v71 (F := Ideal) x0 x1 x2 x3 x4 x5 x7 x8 x9 x10 x11 x12 x13 x14 x15 (ix2 r c)
      = wgt (wRef x2 x3 x4 x5 x7 x8 x9 x10 x11) (hrRow x1 x14 r) (hqrRow x1 x12 x13 r) (hsRow x0 x15 r) := by
  have el : ∀ k : Fin 32, lidx_main_v67 (ix2 r c) k = ix2 r k := fun k =>
    funext fun a => by match a with | ⟨0, _⟩ => rfl | ⟨1, _⟩ => rfl
  have er : ∀ k : Fin 32, ridx_main_v67 (ix2 r c) k = ix2 k 0 := fun k =>
    funext fun a => by
      match a with
      | ⟨0, _⟩ => rfl
      | ⟨1, _⟩ => exact Fin.ext (by show c.val = 0; omega)
  have eb : idx_main_v68 (idx_main_v69 (ix2 r c)) = ix1 0 :=
    funext fun a => by match a with | ⟨0, _⟩ => rfl
  rw [val_main_v71_apply, val_main_v70_apply, val_main_v67_apply, val_main_v69_apply, val_main_v68_apply, eb]
  unfold wgt
  rw [Ideal.hostUnary_exp_def, Ideal.addf_def]
  refine congrArg Ideal.exp (congrArg₂ (· + ·) (Finset.sum_congr rfl fun k _ => ?_) rfl)
  rw [el, er, v66_at x0 x1 x2 x3 x4 x5 x7 x8 x9 x10 x11]
  rfl

/-- The weighted message at row `r`. -/
theorem v73_at (r : Fin 1000000) (q : Fin 64) :
    val_main_v73 (F := Ideal) x0 x1 x2 x3 x4 x5 x7 x8 x9 x10 x11 x12 x13 x14 x15 (ix2 r q)
      = wmsg (wRef x2 x3 x4 x5 x7 x8 x9 x10 x11) (hrRow x1 x14 r) (hqrRow x1 x12 x13 r) (hsRow x0 x15 r) q := by
  have e : idx_main_v72 (ix2 r q) = ix2 r (0 : Fin 1) :=
    funext fun a => by match a with | ⟨0, _⟩ => rfl | ⟨1, _⟩ => rfl
  rw [val_main_v73_apply, val_main_v72_apply, e, v71_at, v59_at x0 x1 x2 x3 x4 x5 x7 x8 x9 x10 x11]
  rfl

end Rows

/-- The reference's weighted messages are EdgeMath's, of its three gathered arrays. -/
theorem wmsg_ref (x0 : (⟨S100000x64, .f32⟩ : BufTy).Contents (Elt Ideal)) (x1 : (⟨S401x64, .f32⟩ : BufTy).Contents (Elt Ideal)) (x2 : (⟨S192x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x7 x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) (x12 : (⟨S512, .i32⟩ : BufTy).Contents (Elt Ideal)) (x13 x14 x15 : (⟨S1000000, .i32⟩ : BufTy).Contents (Elt Ideal)) :
    val_main_v73 (F := Ideal) x0 x1 x2 x3 x4 x5 x7 x8 x9 x10 x11 x12 x13 x14 x15
      = wmsgArr (wRef x2 x3 x4 x5 x7 x8 x9 x10 x11) (R := 1000000)
          (val_main_v13 (F := Ideal) x1 x14) (val_main_v27 (F := Ideal) x1 x12 x13) (val_main_v6 (F := Ideal) x0 x15) := by
  funext i
  have hi : i = ix2 (i 0) (i 1) := eq_ix2 i
  rw [hi]
  exact v73_at x0 x1 x2 x3 x4 x5 x7 x8 x9 x10 x11 x12 x13 x14 x15 (i 0) (i 1)

/-- The reference's weights are EdgeMath's, of its three gathered arrays. -/
theorem wgt_ref (x0 : (⟨S100000x64, .f32⟩ : BufTy).Contents (Elt Ideal)) (x1 : (⟨S401x64, .f32⟩ : BufTy).Contents (Elt Ideal)) (x2 : (⟨S192x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x7 x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) (x12 : (⟨S512, .i32⟩ : BufTy).Contents (Elt Ideal)) (x13 x14 x15 : (⟨S1000000, .i32⟩ : BufTy).Contents (Elt Ideal)) :
    val_main_v71 (F := Ideal) x0 x1 x2 x3 x4 x5 x7 x8 x9 x10 x11 x12 x13 x14 x15
      = wgtArr (wRef x2 x3 x4 x5 x7 x8 x9 x10 x11) (R := 1000000)
          (val_main_v13 (F := Ideal) x1 x14) (val_main_v27 (F := Ideal) x1 x12 x13) (val_main_v6 (F := Ideal) x0 x15) := by
  funext i
  have hi : i = ix2 (i 0) (i 1) := eq_ix2 i
  rw [hi]
  exact v71_at x0 x1 x2 x3 x4 x5 x7 x8 x9 x10 x11 x12 x13 x14 x15 (i 0) (i 1)

end Cert.ReferenceIdeal.RefEdge

end
-- ==== Proof.HostWeights.lean ====
/-
  The weights the edge kernel finds at its entry are the launch arrays: no host operation writes a weight matrix, and
  a bias reshaped to one row, read at its column, is the bias at that entry.
-/
import proofs.«402694_j55310588838560_3_alg».proof.Proof.Gen.KernelIdeal.Frame
import proofs.«402694_j55310588838560_3_alg».proof.Proof.Gen.ReferenceIdeal.Read
import proofs.«402694_j55310588838560_3_alg».proof.Proof.LibTake
import proofs.«402694_j55310588838560_3_alg».proof.Proof.EdgeMath
import proofs.«402694_j55310588838560_3_alg».proof.Proof.EdgeArrays
import proofs.«402694_j55310588838560_3_alg».proof.Proof.RefEdge
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads

open Cert.KernelIdeal Cert.KernelIdeal.Gen Idealize.ShloMosaic Idealize.ShloMosaic.TcCoe Idealize.ShloMosaic.ValueIdx Idealize.SL.Sem
open Idealize.ShloMosaic.StableHlo Cert.LibTake

variable (m : (ℓ : Loc nD τ sig) → Buf (Elt Ideal) ℓ) (ρ : Dev nD → PrngReg) (c : Dev nD)

/-- No operation of a stretch writes the given reference: decided reference by reference. -/
local macro "unwritten " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The weight matrices: written by no host operation before the edge kernel -/

/-- This weight matrix holds its launch contents at the edge kernel's entry. -/
theorem W6_arg2 : W6 m ρ c (Proc.devRef .tc main_arg2) = m ((c : Thread nD τ).loc main_arg2) :=
  calc W6 m ρ c (Proc.devRef .tc main_arg2)
    _ = W5 m ρ c (Proc.devRef .tc main_arg2) := unwritten hostOps0_5
    _ = W4 m ρ c (Proc.devRef .tc main_arg2) := unwritten hostOps0_4
    _ = W3 m ρ c (Proc.devRef .tc main_arg2) := unwritten hostOps0_3
    _ = W2 m ρ c (Proc.devRef .tc main_arg2) := unwritten hostOps0_2
    _ = W1 m ρ c (Proc.devRef .tc main_arg2) := unwritten hostOps0_1
    _ = W0 m ρ c (Proc.devRef .tc main_arg2) := unwritten hostOps0
    _ = m ((c : Thread nD τ).loc main_arg2) := rfl

/-- This weight matrix holds its launch contents at the edge kernel's entry. -/
theorem W6_arg4 : W6 m ρ c (Proc.devRef .tc main_arg4) = m ((c : Thread nD τ).loc main_arg4) :=
  calc W6 m ρ c (Proc.devRef .tc main_arg4)
    _ = W5 m ρ c (Proc.devRef .tc main_arg4) := unwritten hostOps0_5
    _ = W4 m ρ c (Proc.devRef .tc main_arg4) := unwritten hostOps0_4
    _ = W3 m ρ c (Proc.devRef .tc main_arg4) := unwritten hostOps0_3
    _ = W2 m ρ c (Proc.devRef .tc main_arg4) := unwritten hostOps0_2
    _ = W1 m ρ c (Proc.devRef .tc main_arg4) := unwritten hostOps0_1
    _ = W0 m ρ c (Proc.devRef .tc main_arg4) := unwritten hostOps0
    _ = m ((c : Thread nD τ).loc main_arg4) := rfl

/-- This weight matrix holds its launch contents at the edge kernel's entry. -/
theorem W6_arg7 : W6 m ρ c (Proc.devRef .tc main_arg7) = m ((c : Thread nD τ).loc main_arg7) :=
  calc W6 m ρ c (Proc.devRef .tc main_arg7)
    _ = W5 m ρ c (Proc.devRef .tc main_arg7) := unwritten hostOps0_5
    _ = W4 m ρ c (Proc.devRef .tc main_arg7) := unwritten hostOps0_4
    _ = W3 m ρ c (Proc.devRef .tc main_arg7) := unwritten hostOps0_3
    _ = W2 m ρ c (Proc.devRef .tc main_arg7) := unwritten hostOps0_2
    _ = W1 m ρ c (Proc.devRef .tc main_arg7) := unwritten hostOps0_1
    _ = W0 m ρ c (Proc.devRef .tc main_arg7) := unwritten hostOps0
    _ = m ((c : Thread nD τ).loc main_arg7) := rfl

/-- This weight matrix holds its launch contents at the edge kernel's entry. -/
theorem W6_arg8 : W6 m ρ c (Proc.devRef .tc main_arg8) = m ((c : Thread nD τ).loc main_arg8) :=
  calc W6 m ρ c (Proc.devRef .tc main_arg8)
    _ = W5 m ρ c (Proc.devRef .tc main_arg8) := unwritten hostOps0_5
    _ = W4 m ρ c (Proc.devRef .tc main_arg8) := unwritten hostOps0_4
    _ = W3 m ρ c (Proc.devRef .tc main_arg8) := unwritten hostOps0_3
    _ = W2 m ρ c (Proc.devRef .tc main_arg8) := unwritten hostOps0_2
    _ = W1 m ρ c (Proc.devRef .tc main_arg8) := unwritten hostOps0_1
    _ = W0 m ρ c (Proc.devRef .tc main_arg8) := unwritten hostOps0
    _ = m ((c : Thread nD τ).loc main_arg8) := rfl

/-- This weight matrix holds its launch contents at the edge kernel's entry. -/
theorem W6_arg10 : W6 m ρ c (Proc.devRef .tc main_arg10) = m ((c : Thread nD τ).loc main_arg10) :=
  calc W6 m ρ c (Proc.devRef .tc main_arg10)
    _ = W5 m ρ c (Proc.devRef .tc main_arg10) := unwritten hostOps0_5
    _ = W4 m ρ c (Proc.devRef .tc main_arg10) := unwritten hostOps0_4
    _ = W3 m ρ c (Proc.devRef .tc main_arg10) := unwritten hostOps0_3
    _ = W2 m ρ c (Proc.devRef .tc main_arg10) := unwritten hostOps0_2
    _ = W1 m ρ c (Proc.devRef .tc main_arg10) := unwritten hostOps0_1
    _ = W0 m ρ c (Proc.devRef .tc main_arg10) := unwritten hostOps0
    _ = m ((c : Thread nD τ).loc main_arg10) := rfl

/-! ## The biases: launch contents up to the last stretch, which reshapes each to one row -/

/-- This bias holds its launch contents before the reshapes. -/
theorem W5_arg3 : W5 m ρ c (Proc.devRef .tc main_arg3) = m ((c : Thread nD τ).loc main_arg3) :=
  calc W5 m ρ c (Proc.devRef .tc main_arg3)
    _ = W4 m ρ c (Proc.devRef .tc main_arg3) := unwritten hostOps0_4
    _ = W3 m ρ c (Proc.devRef .tc main_arg3) := unwritten hostOps0_3
    _ = W2 m ρ c (Proc.devRef .tc main_arg3) := unwritten hostOps0_2
    _ = W1 m ρ c (Proc.devRef .tc main_arg3) := unwritten hostOps0_1
    _ = W0 m ρ c (Proc.devRef .tc main_arg3) := unwritten hostOps0
    _ = m ((c : Thread nD τ).loc main_arg3) := rfl

/-- This bias holds its launch contents before the reshapes. -/
theorem W5_arg5 : W5 m ρ c (Proc.devRef .tc main_arg5) = m ((c : Thread nD τ).loc main_arg5) :=
  calc W5 m ρ c (Proc.devRef .tc main_arg5)
    _ = W4 m ρ c (Proc.devRef .tc main_arg5) := unwritten hostOps0_4
    _ = W3 m ρ c (Proc.devRef .tc main_arg5) := unwritten hostOps0_3
    _ = W2 m ρ c (Proc.devRef .tc main_arg5) := unwritten hostOps0_2
    _ = W1 m ρ c (Proc.devRef .tc main_arg5) := unwritten hostOps0_1
    _ = W0 m ρ c (Proc.devRef .tc main_arg5) := unwritten hostOps0
    _ = m ((c : Thread nD τ).loc main_arg5) := rfl

/-- This bias holds its launch contents before the reshapes. -/
theorem W5_arg9 : W5 m ρ c (Proc.devRef .tc main_arg9) = m ((c : Thread nD τ).loc main_arg9) :=
  calc W5 m ρ c (Proc.devRef .tc main_arg9)
    _ = W4 m ρ c (Proc.devRef .tc main_arg9) := unwritten hostOps0_4
    _ = W3 m ρ c (Proc.devRef .tc main_arg9) := unwritten hostOps0_3
    _ = W2 m ρ c (Proc.devRef .tc main_arg9) := unwritten hostOps0_2
    _ = W1 m ρ c (Proc.devRef .tc main_arg9) := unwritten hostOps0_1
    _ = W0 m ρ c (Proc.devRef .tc main_arg9) := unwritten hostOps0
    _ = m ((c : Thread nD τ).loc main_arg9) := rfl

/-- This bias holds its launch contents before the reshapes. -/
theorem W5_arg11 : W5 m ρ c (Proc.devRef .tc main_arg11) = m ((c : Thread nD τ).loc main_arg11) :=
  calc W5 m ρ c (Proc.devRef .tc main_arg11)
    _ = W4 m ρ c (Proc.devRef .tc main_arg11) := unwritten hostOps0_4
    _ = W3 m ρ c (Proc.devRef .tc main_arg11) := unwritten hostOps0_3
    _ = W2 m ρ c (Proc.devRef .tc main_arg11) := unwritten hostOps0_2
    _ = W1 m ρ c (Proc.devRef .tc main_arg11) := unwritten hostOps0_1
    _ = W0 m ρ c (Proc.devRef .tc main_arg11) := unwritten hostOps0
    _ = m ((c : Thread nD τ).loc main_arg11) := rfl

/-- After the reshapes the one-row array is the reshape of the bias as the stretch finds it. -/
theorem after5_v5 (Y : Valuation τ sig (Elt Ideal)) :
    StableHlo.after hostOps0_5 Y (Proc.devRef .tc main_v5)
      = shapeCast S1x128 (Y (Proc.devRef .tc main_arg3)) shapeCasts_S128_S1x128 := by
  dsimp only [hostOps0_5]
  after_results
  rfl

/-- At the edge kernel's entry the one-row array is the reshape of the launch bias. -/
theorem V6_v5 : (V6 m ρ c main_v5 : S1x128.Idx → EReal)
    = shapeCast S1x128 (m ((c : Thread nD τ).loc main_arg3)) shapeCasts_S128_S1x128 :=
  (after5_v5 (W5 m ρ c)).trans (congrArg (fun z => shapeCast S1x128 z shapeCasts_S128_S1x128) (W5_arg3 m ρ c))

/-- After the reshapes the one-row array is the reshape of the bias as the stretch finds it. -/
theorem after5_v6 (Y : Valuation τ sig (Elt Ideal)) :
    StableHlo.after hostOps0_5 Y (Proc.devRef .tc main_v6)
      = shapeCast S1x64 (Y (Proc.devRef .tc main_arg5)) shapeCasts_S64_S1x64 := by
  dsimp only [hostOps0_5]
  after_results
  rfl

/-- At the edge kernel's entry the one-row array is the reshape of the launch bias. -/
theorem V6_v6 : (V6 m ρ c main_v6 : S1x64.Idx → EReal)
    = shapeCast S1x64 (m ((c : Thread nD τ).loc main_arg5)) shapeCasts_S64_S1x64 :=
  (after5_v6 (W5 m ρ c)).trans (congrArg (fun z => shapeCast S1x64 z shapeCasts_S64_S1x64) (W5_arg5 m ρ c))

/-- After the reshapes the one-row array is the reshape of the bias as the stretch finds it. -/
theorem after5_v7 (Y : Valuation τ sig (Elt Ideal)) :
    StableHlo.after hostOps0_5 Y (Proc.devRef .tc main_v7)
      = shapeCast S1x32 (Y (Proc.devRef .tc main_arg9)) shapeCasts_S32_S1x32 := by
  dsimp only [hostOps0_5]
  after_results
  rfl

/-- At the edge kernel's entry the one-row array is the reshape of the launch bias. -/
theorem V6_v7 : (V6 m ρ c main_v7 : S1x32.Idx → EReal)
    = shapeCast S1x32 (m ((c : Thread nD τ).loc main_arg9)) shapeCasts_S32_S1x32 :=
  (after5_v7 (W5 m ρ c)).trans (congrArg (fun z => shapeCast S1x32 z shapeCasts_S32_S1x32) (W5_arg9 m ρ c))

/-- After the reshapes the one-row array is the reshape of the bias as the stretch finds it. -/
theorem after5_v8 (Y : Valuation τ sig (Elt Ideal)) :
    StableHlo.after hostOps0_5 Y (Proc.devRef .tc main_v8)
      = shapeCast S1x1 (Y (Proc.devRef .tc main_arg11)) shapeCasts_S1_S1x1 := by
  dsimp only [hostOps0_5]
  after_results
  rfl

/-- At the edge kernel's entry the one-row array is the reshape of the launch bias. -/
theorem V6_v8 : (V6 m ρ c main_v8 : S1x1.Idx → EReal)
    = shapeCast S1x1 (m ((c : Thread nD τ).loc main_arg11)) shapeCasts_S1_S1x1 :=
  (after5_v8 (W5 m ρ c)).trans (congrArg (fun z => shapeCast S1x1 z shapeCasts_S1_S1x1) (W5_arg11 m ρ c))

/-- At the edge kernel's entry the weights are the argument arrays' (a reshaped bias is the bias). -/
theorem entry_weights :
    Cert.KernelIdeal.EdgeArrays.wA (V6 m ρ) c
      = Cert.ReferenceIdeal.RefEdge.wRef (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) := by
  unfold Cert.KernelIdeal.EdgeArrays.wA Cert.KernelIdeal.EdgeBody.wOf Cert.ReferenceIdeal.RefEdge.wRef
  rw [Cert.EdgeMath.Weights.mk.injEq]
  refine ⟨?_, ?_, ?_, ?_, ?_, ?_, ?_, ?_, ?_⟩
  · funext k j; exact congrFun (W6_arg2 m ρ c) (ix2 k j)
  · funext j; exact (congrFun (V6_v5 m ρ c) (ix2 0 j)).trans (shapeCast_a_1a_apply _ _ 0 j)
  · funext k j; exact congrFun (W6_arg4 m ρ c) (ix2 k j)
  · funext j; exact (congrFun (V6_v6 m ρ c) (ix2 0 j)).trans (shapeCast_a_1a_apply _ _ 0 j)
  · funext k j; exact congrFun (W6_arg7 m ρ c) (ix2 k j)
  · funext k j; exact congrFun (W6_arg8 m ρ c) (ix2 k j)
  · funext j; exact (congrFun (V6_v7 m ρ c) (ix2 0 j)).trans (shapeCast_a_1a_apply _ _ 0 j)
  · funext k; exact congrFun (W6_arg10 m ρ c) (ix2 k 0)
  · exact (congrFun (V6_v8 m ρ c) (ix2 0 0)).trans (shapeCast_a_1a_apply _ _ 0 0)

end Cert.KernelIdeal.HostReads

end
-- ==== Proof.NodeBody.lean ====
/-
  One block of the node computation, read as the formula of NodeMath.

  At a grid point the node kernel holds 10,000 nodes: a block `x0` of summed weighted messages, a one-column block
  `x1` of summed weights and the matrix `x2`. It divides each row by its summed weight, multiplies by the matrix and
  clips at zero: row by row NodeMath's new state.
-/
import proofs.«402694_j55310588838560_3_alg».proof.Proof.Gen.KernelIdeal.Frame
import proofs.«402694_j55310588838560_3_alg».proof.Proof.EdgeMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeBody

open Cert.KernelIdeal Cert.KernelIdeal.Gen Idealize.ShloMosaic Idealize.ShloMosaic.TcCoe Idealize.ShloMosaic.ValueIdx

/-- The two zero offsets, as the constant function. -/
theorem hz : (![0, 0] : Fin 2 → Nat) = fun _ => 0 := funext fun a => by
  match a with | ⟨0, _⟩ => rfl | ⟨1, _⟩ => rfl

/-- The left operand's row coordinate at an output index is the output's row. -/
theorem lhs_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column coordinate is the contraction index. -/
theorem lhs_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
/-- The right operand's row coordinate is the contraction index. -/
theorem rhs_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
/-- The right operand's column coordinate is the output's column. -/
theorem rhs_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block of new node states the body leaves: NodeMath's, of the two input blocks. -/
theorem out_block (x0 : Vec Ideal S10000x64 .f32) (x1 : Vec Ideal S10000x1 .f32) (x2 : Vec Ideal S64x64 .f32) :
    out1_3 (F := Ideal) x0 x1 x2 = Cert.NodeMath.outArr (R := 10000) (fun k j => x2 (ix2 k j)) x0 x1 := by
  unfold out1_3
  rw [View.canon_unit_zero hz]
  simp only [View.ld_unit_zero (S := S10000x64) hz, View.ld_unit_zero (S := S10000x1) hz, View.ld_unit_zero (S := S64x64) hz]
  funext i
  obtain ⟨p, q, rfl⟩ : ∃ (p : Fin 10000) (q : Fin 64), i = ix2 p q := ⟨i 0, i 1, eq_ix2 i⟩
  unfold k1_pay1
  rw [maximumf_apply, broadcast_apply]
  simp only [matmul]
  rw [Ideal.matmul_constant_zero_apply,
    ← Equiv.sum_comp (contrEquiv1 dot_S10000x64_S64x64_S10000x64_1_0_0_1_n_n 64 rfl rfl).symm]
  show max _ _ = max (∑ k : Fin 64, _) _
  refine congrArg (fun t => max t (Ideal.ofBits .f32 0x00000000#32)) (Finset.sum_congr rfl fun k _ => ?_)
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact lhs_0 _ _
      | ⟨1, _⟩ => exact (lhs_1 _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er, truncf_apply, truncf_apply, divf_apply, shapeCast_self, shapeCast_self,
    broadcastTo_apply x1 broadcasts_S10000x1_S10000x64 (ix2 p k) (ix2 p (0 : Fin 1)) (fun a => by
      match a with
      | ⟨0, _⟩ => show p.val = if (10000 : Nat) = 1 then 0 else p.val; rw [if_neg (by decide)]
      | ⟨1, _⟩ => show 0 = if (1 : Nat) = 1 then 0 else k.val; rw [if_pos rfl])]

end Cert.KernelIdeal.NodeBody

end
-- ==== Proof.NodeArray.lean ====
/-
  From blocks to arrays: the node kernel's result as a whole array.

  The node kernel's grid has 10 points; point `t` reads rows `10000 t … 10000 t + 9999` of the sums and of the
  summed weights and the whole matrix, and writes the same rows of the result. Each written block is NodeMath's array
  form of the input blocks (NodeBody), a row-by-row form, so the 10 blocks are the restrictions of NodeMath's array
  form of the whole arrays and cover the result.
-/
import proofs.«402694_j55310588838560_3_alg».proof.Proof.Gen.KernelIdeal.Frame
import proofs.«402694_j55310588838560_3_alg».proof.Proof.EdgeMath
import proofs.«402694_j55310588838560_3_alg».proof.Proof.NodeBody
import Idealize.ShloMosaic.Lib.Pipeline.Value
import Idealize.ShloMosaic.Lib.ValueIdx

set_option maxRecDepth 16384

noncomputable section

namespace Cert.KernelIdeal.NodeArray

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The printed index maps over the ten grid points: the two row windows sit at the result's block row, every
    window's block column is 0, the matrix window's block is block (0, 0), and the result's block row at point `t` is `t`. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- What point `t` writes back is block `t` of NodeMath's array form of the whole arrays: row `p` of the block is
    row `10000 t + p` of each row array, and the matrix block is the whole matrix. -/
theorem flushed_eq (c : Dev nD) (t : Fin cfg1.N) :
    (dat1 (F := Ideal) V c).flushed 3 t = ((cfg1.win 3).blk t).view.read (Elt Ideal)
      (Cert.NodeMath.outArr (R := 100000) (fun k j => (V c main_arg6 : Vec Ideal S64x64 .f32) (ix2 k j)) (V c main_v17) (V c main_v14)) := by
  show (cfg1.win 3).cut (grid1.coords t) ((dat1 (F := Ideal) V c).after 3 t) = _
  rw [after1_3, Cert.KernelIdeal.NodeBody.out_block]
  obtain ⟨e0, e1, e2, e3, e4, e5, e6, e7⟩ := idx_facts t
  funext j
  show Cert.NodeMath.out (fun k j' => V c main_arg6 (((cfg1.win 2).blk t).view.emb (ix2 k j')))
      (fun k => V c main_v17 (((cfg1.win 0).blk t).view.emb (ix2 (j 0) k)))
      (V c main_v14 (((cfg1.win 1).blk t).view.emb (ix2 (j 0) 0))) (j 1)
    = Cert.NodeMath.out (fun k j' => V c main_arg6 (ix2 k j'))
      (fun k => V c main_v17 (ix2 ((((cfg1.win 3).blk t).view.emb j) 0) k))
      (V c main_v14 (ix2 ((((cfg1.win 3).blk t).view.emb j) 0) 0)) ((((cfg1.win 3).blk t).view.emb j) 1)
  have hj0 : (j 0).val < 10000 := (j 0).isLt
  have hj1 : (j 1).val < 64 := (j 1).isLt
  have hW : ∀ (k j' : Fin 64), ((cfg1.win 2).blk t).view.emb (ix2 k j') = (ix2 k j' : S64x64.Idx) := by
    intro k j'
    funext a; apply Fin.ext
    match a with
    | ⟨0, _⟩ => show win1_2.index t (0 : Fin 2) * 64 + 1 * k.val = k.val; omega
    | ⟨1, _⟩ => show win1_2.index t (1 : Fin 2) * 64 + 1 * j'.val = j'.val; omega
  have hA : ∀ k : Fin 64, ((cfg1.win 0).blk t).view.emb (ix2 (j 0) k) = (ix2 ((((cfg1.win 3).blk t).view.emb j) 0) k : S100000x64.Idx) := by
    intro k
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have hS : ((cfg1.win 1).blk t).view.emb (ix2 (j 0) 0) = (ix2 ((((cfg1.win 3).blk t).view.emb j) 0) 0 : S100000x1.Idx) := by
    funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  have hJ : (j 1 : Fin 64) = (((cfg1.win 3).blk t).view.emb j) 1 := by
    apply Fin.ext
    show (j 1).val = win1_3.index t (1 : Fin 2) * 64 + 1 * (j 1).val; omega
  simp only [hW, hA, hS]
  exact congrArg _ hJ

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v18).slice (win1_3.rect t)).set ↔ _
  rw [View.set_slice_whole, Rect.mem_set_unit]
  exact Iff.rfl

/-- Every index of the result array is in some point's block: row `r` in the block of point `r / 10000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 10000 < cfg1.N := by
    show (i 0).val / 10000 < grid1.N
    rw [N_1]; omega
  refine ⟨⟨(i 0).val / 10000, hN⟩, flush1_3 _, ?_⟩
  rw [mem_blk]
  obtain ⟨e0, e1, e2, e3, e4, e5, e6, e7⟩ := idx_facts ⟨(i 0).val / 10000, hN⟩
  have e7' : win1_3.index ⟨(i 0).val / 10000, hN⟩ (0 : Fin 2) = (i 0).val / 10000 := e7
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    omega
  | ⟨1, _⟩ =>
    show win1_3.index ⟨(i 0).val / 10000, hN⟩ (1 : Fin 2) * 64 ≤ (i 1).val ∧ (i 1).val < win1_3.index ⟨(i 0).val / 10000, hN⟩ (1 : Fin 2) * 64 + 64
    omega

/-- After the node kernel its result array holds NodeMath's new states of the two arrays of sums. -/
theorem out_array (c : Dev nD) :
    (dat1 (F := Ideal) V c).arrAt 3 cfg1.N
      = Cert.NodeMath.outArr (R := 100000) (fun k j => (V c main_arg6 : Vec Ideal S64x64 .f32) (ix2 k j))
          (V c main_v17) (V c main_v14) := by
  exact (dat1 (F := Ideal) V c).arrAt_eq_of_cover 3 _ (fun t _ => flushed_eq V c t) cover

end Cert.KernelIdeal.NodeArray

end
-- ==== Proof.RefNode.lean ====
/-
  The reference's node stage, read as the formula of NodeMath.

  From the scattered sums of weighted messages and of weights the reference divides, multiplies by `Wh` and clips
  at zero, for all 100,000 nodes at once; at an index that is NodeMath's new state of the node's row of sums and its
  summed weight. The two scattered sums are not opened.
-/
import proofs.«402694_j55310588838560_3_alg».proof.Proof.Gen.ReferenceIdeal.Read
import proofs.«402694_j55310588838560_3_alg».proof.Proof.EdgeMath
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefNode

open Cert.ReferenceIdeal Cert.ReferenceIdeal.Gen Cert.ReferenceIdeal.Read
open Idealize.ShloMosaic Idealize.ShloMosaic.TcCoe Idealize.ShloMosaic.ValueIdx

/-- The reference's new node states are NodeMath's, of its two scattered sums. -/
theorem out_ref (x0 : (⟨S100000x64, .f32⟩ : BufTy).Contents (Elt Ideal)) (x1 : (⟨S401x64, .f32⟩ : BufTy).Contents (Elt Ideal)) (x2 : (⟨S192x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) (x12 : (⟨S512, .i32⟩ : BufTy).Contents (Elt Ideal)) (x13 x14 x15 : (⟨S1000000, .i32⟩ : BufTy).Contents (Elt Ideal)) (x16 x17 : (⟨S2000000, .i32⟩ : BufTy).Contents (Elt Ideal)) :
    val_main_v97 (F := Ideal) x0 x1 x2 x3 x4 x5 x6 x7 x8 x9 x10 x11 x12 x13 x14 x15 x16 x17
      = Cert.NodeMath.outArr (R := 100000) (fun k j => x6 (ix2 k j))
          (val_main_v93 (F := Ideal) x0 x1 x2 x3 x4 x5 x7 x8 x9 x10 x11 x12 x13 x14 x15 x16 x17) (val_main_v90 (F := Ideal) x0 x1 x2 x3 x4 x5 x7 x8 x9 x10 x11 x12 x13 x14 x15 x16 x17) := by
  funext i
  obtain ⟨r, q, rfl⟩ : ∃ (r : Fin 100000) (q : Fin 64), i = ix2 r q := ⟨i 0, i 1, eq_ix2 i⟩
  rw [val_main_v97_apply, val_main_v96_apply, val_main_call1_v0_apply, val_main_call1_cst_apply]
  simp only [Ideal.maximumf_def, Ideal.ofBits_def]
  show max _ _ = max (∑ k : Fin 64, _) _
  refine congrArg (fun t => max t (Ideal.ofBits .f32 0x00000000#32)) (Finset.sum_congr rfl fun k _ => ?_)
  rw [val_main_v95_apply, val_main_v94_apply, Ideal.hostDivf_def]
  have e1 : lidx_main_v96 (ix2 r q) k = ix2 r k := by
    funext a; match a with | ⟨0, _⟩ => rfl | ⟨1, _⟩ => rfl
  have e2 : idx_main_v94 (ix2 r k) = ix2 r (0 : Fin 1) := by
    funext a; match a with | ⟨0, _⟩ => rfl | ⟨1, _⟩ => rfl
  have e3 : ridx_main_v96 (ix2 r q) k = ix2 k q := by
    funext a; match a with | ⟨0, _⟩ => rfl | ⟨1, _⟩ => rfl
  rw [e1, e2, e3]

end Cert.ReferenceIdeal.RefNode

end
-- ==== Proof.IndexRanges.lean ====
/-
  The precondition's index ranges, read back.

  Beside the finiteness of the float inputs the precondition says that each of the six index vectors that address a
  table lies inside that table: the query relations and the edges' relations in `[0, 401)`, the edges' query numbers
  and the nodes' query numbers in `[0, 512)`, the edges' source nodes in `[0, 100000)`, and the positions of the
  unique edges in `[0, 1000000)`. Each is printed as two reductions by `and` of signed comparisons with a constant.
-/
import proofs.«402694_j55310588838560_3_alg».proof.Defs
import proofs.«402694_j55310588838560_3_alg».proof.Proof.Gen.Pre_finite_inputs
import proofs.«402694_j55310588838560_3_alg».proof.Proof.LibTake
import Idealize.ShloMosaic.Lib.ReduceAll

set_option maxRecDepth 16384

noncomputable section

namespace Cert.IndexRanges

open Idealize.ShloMosaic Idealize.ShloMosaic.TcCoe Idealize.SL.Sem Cert.LibTake
open Cert.KernelIdeal

variable (m : (ℓ : Loc nD τ sig) → Buf (Elt Ideal) ℓ)

/-- The six ranges, from the precondition, on every device. -/
theorem ranges [hPre : Cert.Pre_finite_inputs.Facts] (h : Cert.Pre_KernelIdeal m) (c : Dev nD) :
    InRange 401#32 (m ((c.tc : Thread nD τ).loc main_arg12) : IVec S512 32)
    ∧ InRange 512#32 (m ((c.tc : Thread nD τ).loc main_arg13) : IVec S1000000 32)
    ∧ InRange 401#32 (m ((c.tc : Thread nD τ).loc main_arg14) : IVec S1000000 32)
    ∧ InRange 100000#32 (m ((c.tc : Thread nD τ).loc main_arg15) : IVec S1000000 32)
    ∧ InRange 1000000#32 (m ((c.tc : Thread nD τ).loc main_arg16) : IVec S2000000 32)
    ∧ InRange 512#32 (m ((c.tc : Thread nD τ).loc main_arg18) : IVec S100000 32) := by
  have e := congrFun (h c) (fun d => d.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  obtain ⟨e, a18l⟩ := IntOp.andi_eq_one.1 e
  obtain ⟨e, a18g⟩ := IntOp.andi_eq_one.1 e
  obtain ⟨e, a16l⟩ := IntOp.andi_eq_one.1 e
  obtain ⟨e, a16g⟩ := IntOp.andi_eq_one.1 e
  obtain ⟨e, a15l⟩ := IntOp.andi_eq_one.1 e
  obtain ⟨e, a15g⟩ := IntOp.andi_eq_one.1 e
  obtain ⟨e, a14l⟩ := IntOp.andi_eq_one.1 e
  obtain ⟨e, a14g⟩ := IntOp.andi_eq_one.1 e
  obtain ⟨e, a13l⟩ := IntOp.andi_eq_one.1 e
  obtain ⟨e, a13g⟩ := IntOp.andi_eq_one.1 e
  obtain ⟨e, a12l⟩ := IntOp.andi_eq_one.1 e
  obtain ⟨e, a12g⟩ := IntOp.andi_eq_one.1 e
  clear e
  have inst : Subsingleton Cert.Pre_finite_inputs.S_.Idx := ⟨fun a b => funext fun d => d.elim0⟩
  exact ⟨fun i => ⟨Host.reduce_andi_all _ _ _ _ _ a12g i, Host.reduce_andi_all _ _ _ _ _ a12l i⟩,
    fun i => ⟨Host.reduce_andi_all _ _ _ _ _ a13g i, Host.reduce_andi_all _ _ _ _ _ a13l i⟩,
    fun i => ⟨Host.reduce_andi_all _ _ _ _ _ a14g i, Host.reduce_andi_all _ _ _ _ _ a14l i⟩,
    fun i => ⟨Host.reduce_andi_all _ _ _ _ _ a15g i, Host.reduce_andi_all _ _ _ _ _ a15l i⟩,
    fun i => ⟨Host.reduce_andi_all _ _ _ _ _ a16g i, Host.reduce_andi_all _ _ _ _ _ a16l i⟩,
    fun i => ⟨Host.reduce_andi_all _ _ _ _ _ a18g i, Host.reduce_andi_all _ _ _ _ _ a18l i⟩⟩

end Cert.IndexRanges

end
-- ==== Proof.Bridge.lean ====
/-
  The two programs compute one function.

  Under the precondition every index vector lies inside the table it addresses, so each of the idealized kernel's
  filled gathers is the reference's plain gather of the same wrapped indices. The edge kernel's two result arrays are
  then EdgeMath's weighted messages and weights of the very arrays the reference gathers, which is what the
  reference's edge stage computes; the host's gathers by edge position and scatter-adds over target nodes are the
  same operations on both sides; and the node kernel's result is NodeMath's new state of the two scattered sums, which
  is what the reference's node stage computes. The second result, the nodes' query embeddings, is a gather of a gather
  on both sides. No algebraic law is used: both programs evaluate the same expression in the same grouping.
-/
import proofs.«402694_j55310588838560_3_alg».proof.Defs
import proofs.«402694_j55310588838560_3_alg».proof.Proof.KernelRun
import proofs.«402694_j55310588838560_3_alg».proof.Proof.HostReads
import proofs.«402694_j55310588838560_3_alg».proof.Proof.HostMid
import proofs.«402694_j55310588838560_3_alg».proof.Proof.HostQuery
import proofs.«402694_j55310588838560_3_alg».proof.Proof.HostWeights
import proofs.«402694_j55310588838560_3_alg».proof.Proof.EdgeArrays
import proofs.«402694_j55310588838560_3_alg».proof.Proof.NodeArray
import proofs.«402694_j55310588838560_3_alg».proof.Proof.RefEdge
import proofs.«402694_j55310588838560_3_alg».proof.Proof.RefNode
import proofs.«402694_j55310588838560_3_alg».proof.Proof.IndexRanges
import proofs.«402694_j55310588838560_3_alg».proof.Proof.Gen.ReferenceIdeal.Run
import proofs.«402694_j55310588838560_3_alg».proof.Proof.Gen.ReferenceIdeal.Read
import proofs.«402694_j55310588838560_3_alg».proof.Proof.Gen.Pre_finite_inputs

set_option maxRecDepth 16384

noncomputable section

namespace Cert.Proof.Bridge

open Cert.KernelIdeal Cert.KernelIdeal.Gen Cert.KernelIdeal.HostReads
open Idealize.ShloMosaic Idealize.ShloMosaic.TcCoe Idealize.SL.Sem Cert.LibTake

variable (m : (ℓ : Loc nD τ sig) → Buf (Elt Ideal) ℓ) (ρ : Dev nD → PrngReg) (c : Dev nD)

/-- The edge kernel's first result is the reference's array of weighted messages. -/
theorem edge_wmsg (h12 : InRange 401#32 (arg m c main_arg12 : IVec S512 32)) (h13 : InRange 512#32 (arg m c main_arg13 : IVec S1000000 32))
    (h14 : InRange 401#32 (arg m c main_arg14 : IVec S1000000 32)) (h15 : InRange 100000#32 (arg m c main_arg15 : IVec S1000000 32)) :
    (dat0 (F := Ideal) (V6 m ρ) c).arrAt 12 cfg0.N
      = Cert.ReferenceIdeal.Read.val_main_v73 (F := Ideal) (arg m c main_arg0) (arg m c main_arg1) (arg m c main_arg2) (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) := by
  rw [Cert.KernelIdeal.EdgeArrays.wmsg_array, entry_weights, entry_hr m ρ c h14, entry_hqr m ρ c h12 h13, entry_hs m ρ c h15]
  exact (Cert.ReferenceIdeal.RefEdge.wmsg_ref _ _ _ _ _ _ _ _ _ _ _ _ _ _ _).symm

/-- The edge kernel's second result is the reference's column of weights. -/
theorem edge_wgt (h12 : InRange 401#32 (arg m c main_arg12 : IVec S512 32)) (h13 : InRange 512#32 (arg m c main_arg13 : IVec S1000000 32))
    (h14 : InRange 401#32 (arg m c main_arg14 : IVec S1000000 32)) (h15 : InRange 100000#32 (arg m c main_arg15 : IVec S1000000 32)) :
    (dat0 (F := Ideal) (V6 m ρ) c).arrAt 13 cfg0.N
      = Cert.ReferenceIdeal.Read.val_main_v71 (F := Ideal) (arg m c main_arg0) (arg m c main_arg1) (arg m c main_arg2) (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) := by
  rw [Cert.KernelIdeal.EdgeArrays.wgt_array, entry_weights, entry_hr m ρ c h14, entry_hqr m ρ c h12 h13, entry_hs m ρ c h15]
  exact (Cert.ReferenceIdeal.RefEdge.wgt_ref _ _ _ _ _ _ _ _ _ _ _ _ _ _ _).symm

/-- The idealized kernel's first result is the reference's, as a function of the launch arrays. -/
theorem out_eq [Cert.Pre_finite_inputs.Facts] (hpre : Cert.Pre_KernelIdeal m) :
    W11 m ρ c (Proc.devRef .tc main_v18)
      = Cert.ReferenceIdeal.Read.val_main_v97 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) := by
  obtain ⟨h12, h13, h14, h15, h16, h18⟩ := Cert.IndexRanges.ranges m hpre c
  rw [exit_out, Cert.KernelIdeal.NodeArray.out_array, entry_Wh, entry_agg m ρ c h16, entry_sum m ρ c h16, after_edge_wmsg, after_edge_wgt,
    edge_wmsg m ρ c h12 h13 h14 h15, edge_wgt m ρ c h12 h13 h14 h15]
  exact (Cert.ReferenceIdeal.RefNode.out_ref _ _ _ _ _ _ _ _ _ _ _ _ _ _ _ _ _ _).symm

/-- The idealized kernel's second result is the reference's, as a function of the launch arrays. -/
theorem nq_eq [Cert.Pre_finite_inputs.Facts] (hpre : Cert.Pre_KernelIdeal m) :
    (W11 m ρ c (Proc.devRef .tc main_v4) : Vec Ideal S100000x64 .f32)
      = Cert.ReferenceIdeal.Read.val_main_v34 (F := Ideal) (arg m c main_arg1) (arg m c main_arg12) (arg m c main_arg18) := by
  obtain ⟨h12, h13, h14, h15, h16, h18⟩ := Cert.IndexRanges.ranges m hpre c
  exact exit_nq m ρ c h12 h18

end Cert.Proof.Bridge

end
-- ==== Proof.lean ====
/-
  The certificate: a relational graph layer's message passing, as a tiled kernel and as plain array code.

  Both programs gather, per unique edge, the source node's state, the relation's embedding and the query relation's
  embedding; compute the gated message and its attention weight (EdgeMath); expand to all sampled edges, sum the
  weighted messages and the weights per target node, divide, multiply by `Wh` and clip at zero (NodeMath); and return
  beside it each node's query embedding. The kernel tiles the edge stage over 250 blocks of 4000 edges and the node
  stage over 10 blocks of 10000 nodes, rounds matrix operands to a narrower float format (the identity on the
  extended reals) and gathers with the fill rule, which agrees with the reference's gather exactly when every index
  lies inside its table: that is the precondition's added part. Over the extended reals the two programs are then the
  same expression, index by index. The frames are the generated ones; the idealization's ledger is empty.
-/
import proofs.«402694_j55310588838560_3_alg».proof.Defs
import proofs.«402694_j55310588838560_3_alg».proof.Proof.Gen.Kernel
import proofs.«402694_j55310588838560_3_alg».proof.Proof.Gen.Kernel.Skeleton
import proofs.«402694_j55310588838560_3_alg».proof.Proof.Gen.Kernel.Launch
import proofs.«402694_j55310588838560_3_alg».proof.Proof.Gen.Kernel.Points
import proofs.«402694_j55310588838560_3_alg».proof.Proof.Gen.Kernel.Frame
import proofs.«402694_j55310588838560_3_alg».proof.Proof.Gen.KernelIdeal
import proofs.«402694_j55310588838560_3_alg».proof.Proof.Gen.KernelIdeal.Skeleton
import proofs.«402694_j55310588838560_3_alg».proof.Proof.Gen.KernelIdeal.Launch
import proofs.«402694_j55310588838560_3_alg».proof.Proof.Gen.KernelIdeal.Points
import proofs.«402694_j55310588838560_3_alg».proof.Proof.Gen.KernelIdeal.Frame
import proofs.«402694_j55310588838560_3_alg».proof.Proof.Gen.ReferenceIdeal
import proofs.«402694_j55310588838560_3_alg».proof.Proof.Gen.ReferenceIdeal.Run
import proofs.«402694_j55310588838560_3_alg».proof.Proof.Gen.ReferenceIdeal.Read
import proofs.«402694_j55310588838560_3_alg».proof.Proof.Gen.Pre_finite_inputs
import proofs.«402694_j55310588838560_3_alg».proof.Proof.KernelRun
import proofs.«402694_j55310588838560_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the same two arrays: the kernel's at what its last
    boundary holds, the reference's at its two stages of the same launch arrays. -/
theorem algebraic : Cert.algebraic_KernelIdeal_ReferenceIdeal := by
  intro m ρ m' ρ' hpre hagree
  refine ⟨fun c => Cert.KernelIdeal.Gen.W11 m ρ c (Proc.devRef .tc Cert.KernelIdeal.main_v18),
    fun c => Cert.KernelIdeal.Gen.W11 m ρ c (Proc.devRef .tc Cert.KernelIdeal.main_v4),
    Cert.KernelIdeal.Run.run (F := Ideal) m ρ, ?_⟩
  refine (θ_run Cert.ReferenceIdeal.defs _ _).mono (fun r h c => ?_) (Cert.ReferenceIdeal.Value.run (F := Ideal) m' ρ')
  obtain ⟨h0, h1, hargs⟩ := h c
  obtain ⟨e0, e1, e2, e3, e4, e5, e6, e7, e8, e9, e10, e11, e12, e13, e14, e15, e16, e17, e18⟩ := hagree c
  refine ⟨h0.trans ?_, h1.trans ?_, hargs⟩
  · rw [Cert.ReferenceIdeal.Read.val_main_v97_eq, e0, e1, e2, e3, e4, e5, e6, e7, e8, e9, e10, e11, e12, e13, e14, e15, e16, e17]
    exact (Cert.Proof.Bridge.out_eq m ρ c hpre).symm
  · rw [Cert.ReferenceIdeal.Read.val_main_v34_eq, e1, e12, e18]
    exact (Cert.Proof.Bridge.nq_eq m ρ c hpre).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
